-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S32000x2048 : Shape := ⟨2, ![32000, 2048]⟩
abbrev S4x2048 : Shape := ⟨2, ![4, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_v8 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v8 main_v17
  main_v18

def fn {F : FTy → Type} [FloatOps F] (main_arg0 : FVec F S4x2048x2048 .f32) (main_arg1 : FVec F S32000x2048 .f32) (main_arg2 : IVec S4x2048 32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 0#32
  let main_v9 : IVec S4x2048 32 := broadcastInDim S4x2048 ![] bcast_S_S4x2048 main_c_2
  let main_v10 : IVec S4x2048 1 := cmpi .sge main_arg2 main_v9
  let main_c_3 : IVec S_ 32 := constantI S_ 32 32000#32
  let main_v11 : IVec S4x2048 32 := broadcastInDim S4x2048 ![] bcast_S_S4x2048 main_c_3
  let main_v12 : IVec S4x2048 1 := cmpi .slt main_arg2 main_v11
  let main_v13 : IVec S4x2048 1 := andi main_v10 main_v12
  let main_c_4 : IVec S_ 32 := constantI S_ 32 4294967196#32
  let main_v14 : IVec S4x2048 32 := broadcastInDim S4x2048 ![] bcast_S_S4x2048 main_c_4
  let main_v15 : IVec S4x2048 1 := cmpi .eq main_arg2 main_v14
  let main_v16 : IVec S4x2048 1 := ori main_v13 main_v15
  fn_part1 (F := F) main_v8 main_v16
-- ==== Kernel.lean ====
abbrev S4x2048x2048 : Shape := ⟨3, ![4, 2048, 2048]⟩
abbrev S32000x2048 : Shape := ⟨2, ![32000, 2048]⟩
abbrev S4x2048 : Shape := ⟨2, ![4, 2048]⟩
abbrev S8192x2048 : Shape := ⟨2, ![8192, 2048]⟩
abbrev S8192 : Shape := ⟨1, ![8192]⟩
abbrev S8192x1 : Shape := ⟨2, ![8192, 1]⟩
abbrev S512x2048 : Shape := ⟨2, ![512, 2048]⟩
abbrev S1280x2048 : Shape := ⟨2, ![1280, 2048]⟩
abbrev S512x1 : Shape := ⟨2, ![512, 1]⟩
abbrev S512x1280 : Shape := ⟨2, ![512, 1280]⟩
abbrev S512 : Shape := ⟨1, ![512]⟩
abbrev S_ : Shape := ⟨0, ![]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S32000x2048, .f32⟩
  | .hbm, ⟨2, _⟩ => ⟨S4x2048, .i32⟩
  | .hbm, ⟨3, _⟩ => ⟨S8192x2048, .f32⟩
  | .hbm, ⟨4, _⟩ => ⟨S8192, .i32⟩
  | .hbm, ⟨5, _⟩ => ⟨S8192x1, .i32⟩
  | .hbm, ⟨6, _⟩ => ⟨S32000x2048, .bf16⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S1280x2048, .bf16⟩
  | .local _ .vmem, ⟨3, _⟩ => ⟨S1280x2048, .bf16⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x2048, .bf16⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 25], ![false, false]⟩

def k0_cond2 (i : grid0.Coords) : BitVec 1 :=
  let arg1 : BitVec 32 := BitVec.ofNat 32 (i 1).val
  let c24_i32 : BitVec 32 := 24#32
  let v49 : BitVec 1 := Scalar.cmpi .eq arg1 c24_i32
  let v50 : BitVec 32 := Scalar.extui v49
  let c0_i32_25 : BitVec 32 := 0#32
  let v51 : BitVec 1 := Scalar.cmpi .ne v50 c0_i32_25
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x2048_S8192x2048 : S4x2048x2048.ShapeCasts S8192x2048
  shapeCasts_S4x2048_S8192 : S4x2048.ShapeCasts S8192
  shapeCasts_S8192_S8192x1 : S8192.ShapeCasts S8192x1
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  iota_S512x1280_d1_w32 : S512x1280.Iotas .tc 32 [1]
  broadcasts_S512x1_S512x1280 : S512x1.Broadcasts S512x1280
  reduces_S512x1280_S512 : S512x1280.Reduces [1] S512
  shapeCasts_S512_S512x1 : S512.ShapeCasts S512x1
  reducesTo_S8192x1_S_d0_1 : S8192x1.ReducesTo [0, 1] S_
  h_S_ : 0 < S_.numel
  dot_S512x2048_S1280x2048_S512x1280_1_1_0_0_n_n_wf : DotDims.WF S512x2048 S1280x2048 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x2048_S1280x2048_S512x1280_1_1_0_0_n_n : DotDims S512x2048 S1280x2048 S512x1280 where
  lhsContracting := [1]
  rhsContracting := [1]
  lhsNonContracting := [0]
  rhsNonContracting := [0]
  lhsBatch := []
  rhsBatch := []
  wf := dot_S512x2048_S1280x2048_S512x1280_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S32000x2048 : Shape := ⟨2, ![32000, 2048]⟩
abbrev S4x2048 : Shape := ⟨2, ![4, 2048]⟩
abbrev S8192x2048 : Shape := ⟨2, ![8192, 2048]⟩
abbrev S8192 : Shape := ⟨1, ![8192]⟩
abbrev S_ : Shape := ⟨0, ![]⟩
abbrev S8192x32000 : Shape := ⟨2, ![8192, 32000]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S32000x2048, .f32⟩
  | .hbm, ⟨2, _⟩ => ⟨S4x2048, .i32⟩
  | .hbm, ⟨3, _⟩ => ⟨S8192x2048, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192x32000, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192x32000, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x1, .f32⟩
  | .hbm, ⟨22, _⟩ => ⟨S8192x32000, .f32⟩
  | .hbm, ⟨23, _⟩ => ⟨S8192x32000, .f32⟩
  | .hbm, ⟨24, _⟩ => ⟨S_, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S_, .i32⟩
  | .hbm, ⟨30, _⟩ => ⟨S8192x1, .i32⟩
  | .hbm, ⟨31, _⟩ => ⟨S8192x1, .i1⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S8192x1, .i32⟩
  | .hbm, ⟨36, _⟩ => ⟨S8192x1x1, .i32⟩
  | .hbm, ⟨37, _⟩ => ⟨S1, .i32⟩
  | .hbm, ⟨38, _⟩ => ⟨S_, .i32⟩
  | .hbm, ⟨39, _⟩ => ⟨S8192x1x1, .i32⟩
  | .hbm, ⟨40, _⟩ => ⟨S8192x1x1, .i1⟩
  | .hbm, ⟨41, _⟩ => ⟨S1x1x1, .i32⟩
  | .hbm, ⟨42, _⟩ => ⟨S8192x1x1, .i32⟩
  | .hbm, ⟨43, _⟩ => ⟨S8192x1x1, .i1⟩
  | .hbm, ⟨44, _⟩ => ⟨S8192x1x1, .i1⟩
  | .hbm, ⟨45, _⟩ => ⟨S_, .i1⟩
  | .hbm, ⟨46, _⟩ => ⟨S8192x1, .i1⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S8192, .i32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_v6 : Ref sig .tc := ⟨.hbm, 27, rfl⟩
abbrev main_v7 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_cst_1 : Ref sig .tc := ⟨.hbm, 57, rfl⟩
abbrev main_v12 : Ref sig .tc := ⟨.hbm, 58, rfl⟩
abbrev main_v13 : Ref sig .tc := ⟨.hbm, 59, rfl⟩
abbrev main_c_2 : Ref sig .tc := ⟨.hbm, 60, rfl⟩
abbrev main_v14 : Ref sig .tc := ⟨.hbm, 61, rfl⟩
abbrev main_v15 : Ref sig .tc := ⟨.hbm, 62, rfl⟩
abbrev main_cst_3 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩

abbrev nD : Nat := 1
abbrev τ : Topo := Topo.v7x

variable {F : FTy → Type} [FloatOps F]

class Facts₀ : Prop where
  shapeCasts_S4x2048x2048_S8192x2048 : S4x2048x2048.ShapeCasts S8192x2048
  shapeCasts_S4x2048_S8192 : S4x2048.ShapeCasts S8192
  bcast_S_S8192 : S_.BroadcastsInDim S8192 (![] : Fin 0 → Fin S8192.rank)
  reducesTo_S8192x32000_S8192_d1 : S8192x32000.ReducesTo [1] S8192
  h_S_ : 0 < S_.numel
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  natLt_1_32 : 1 < 32
  dot_S8192x2048_S32000x2048_S8192x32000_1_1_0_0_n_n_wf : DotDims.WF S8192x2048 S32000x2048 S8192x32000 [1] [1] [0] [0] [] []
  gather_S8192x32000_S8192x1x1_S8192x1_n_1_0_0_1_2_11_wf : GatherDims.WF S8192x32000 S8192x1x1 S8192x1 [] [1] [0] [1] [0] 2 ![1, 1]

variable [Facts₀]

def dot_S8192x2048_S32000x2048_S8192x32000_1_1_0_0_n_n : DotDims S8192x2048 S32000x2048 S8192x32000 where
  lhsContracting := [1]
  rhsContracting := [1]
  lhsNonContracting := [0]
  rhsNonContracting := [0]
  lhsBatch := []
  rhsBatch := []
  wf := dot_S8192x2048_S32000x2048_S8192x32000_1_1_0_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.KStep.lean ====
/-
  The body's arithmetic at one grid point, named by what it does to the three per-row numbers the kernel carries
  from one vocabulary chunk to the next, for any float instance. `hb` is the row block of activations as the kernel
  keeps it (already narrowed), `wb` the chunk's block of weights, `tb` the row block of labels; `mo`, `lo`, `tq` are
  the running maximum, the running sum of exponentials and the accumulated label logit left by the chunk before.
-/
import proofs.«410234_j46651934769795_3_alg».proof.Proof.Gen.KernelIdeal.Skeleton

noncomputable section

namespace Cert.KernelIdeal.KV

open Idealize.ShloMosaic Cert.KernelIdeal Cert.KernelIdeal.Gen

variable {F : FTy → Type} [FloatOps F]

/-- The activations' row block narrowed once, at the first chunk. -/
def castH (x0 : Vec F S512x2048 .f32) : Vec F S512x2048 .bf16 := k0_pay6 x0

/-- What the first chunk resets the running maximum to: minus infinity on every row. -/
def resetM : Vec F S512x1 .f32 := k0_pay7 (F := F)

/-- What the first chunk resets the running sum to: zero on every row. -/
def resetL : Vec F S512x1 .f32 := k0_pay8 (F := F)

/-- What the first chunk resets the label logit to: zero on every row. -/
def resetT : Vec F S512x1 .f32 := k0_pay9 (F := F)

/-- The chunk's logits: each row of `hb` against each row of `wb`. -/
def chunkLogits (hb : Vec F S512x2048 .bf16) (wb : Vec F S1280x2048 .bf16) : Vec F S512x1280 .f32 := k0_pay10 hb wb

/-- The running maximum after the chunk: the old one against the chunk's row maxima. -/
def stepM (hb : Vec F S512x2048 .bf16) (wb : Vec F S1280x2048 .bf16) (mo : Vec F S512x1 .f32) : Vec F S512x1 .f32 :=
  k0_pay2 (k0_pay13 hb wb mo)

/-- The running sum after the chunk: the old one rescaled to the new maximum, plus the chunk's exponentials. -/
def stepL (hb : Vec F S512x2048 .bf16) (wb : Vec F S1280x2048 .bf16) (mo lo : Vec F S512x1 .f32) : Vec F S512x1 .f32 :=
  k0_pay1 (k0_pay10 hb wb) (k0_pay13 hb wb mo) mo lo

/-- The label logit after the chunk: the old one plus the chunk's entry at the clamped label, if the chunk holds it. -/
def stepT (i : grid0.Coords) (hb : Vec F S512x2048 .bf16) (wb : Vec F S1280x2048 .bf16) (tb : Vec F S512x1 .i32)
    (tq : Vec F S512x1 .f32) : Vec F S512x1 .f32 :=
  k0_pay12 i hb wb tb tq

/-- The row losses the last chunk writes out: log-sum-exp minus the label logit, zero on ignored rows. -/
def outLoss (i : grid0.Coords) (hb : Vec F S512x2048 .bf16) (wb : Vec F S1280x2048 .bf16) (tb : Vec F S512x1 .i32)
    (mo lo tq : Vec F S512x1 .f32) : Vec F S512x1 .f32 :=
  k0_pay4 (k0_pay11 tb) (stepM hb wb mo) (stepL hb wb mo lo) (stepT i hb wb tb tq)

/-- The row weights the last chunk writes out: one, or zero on ignored rows. -/
def outMask (tb : Vec F S512x1 .i32) : Vec F S512x1 .f32 := k0_pay5 (F := F) (k0_pay11 tb)

end Cert.KernelIdeal.KV

end
-- ==== Proof.KPieces.lean ====
/-
  What each control case of the body leaves behind, read back from the pieces its run found: which step function
  of the point's input blocks and of what the point before left. Case A is the first vocabulary chunk of a row tile
  (it narrows the activations and resets the three running numbers, then steps them), case B a middle chunk, case C
  the last chunk (it steps them and writes the row losses and weights out).
-/
import proofs.«410234_j46651934769795_3_alg».proof.Proof.Gen.KernelIdeal.Frame
import proofs.«410234_j46651934769795_3_alg».proof.Proof.KStep
import Idealize.ShloMosaic.Lib.Pipeline.Value
import Idealize.ShloMosaic.Lib.Tactic

noncomputable section

namespace Cert.KernelIdeal.KV

open Idealize.ShloMosaic Idealize.ShloMosaic.TcCoe Idealize.SL.Sem Cert.KernelIdeal Cert.KernelIdeal.Gen

variable {F : FTy → Type} [FloatOps F]

/-- The pair of zero offsets is the constant-zero offset function: every load and store of the body goes through the whole buffer. -/
private theorem hz : (![0, 0] : Fin 2 → Nat) = fun _ => 0 := funext fun a => by fin_cases a <;> rfl

/-! ## Case A: the first chunk -/

/-- The first chunk leaves the narrowed activations in the activations scratch. -/
theorem pieceA_h (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x2048 .f32) (x1 : Vec F S1280x2048 .bf16) (x2 : Vec F S512x1 .i32) :
    sout0_A_0 c i arg2 harg2 arg3 harg3 arg4 harg4 arg5 harg5 arg6 harg6 arg7 harg7 arg8 harg8 arg9 harg9 arg10 harg10 hc0 hc1 x0 x1 x2 = castH x0 := by
  -- one store covers the buffer; its payload is the narrowing of the whole activations block as loaded
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero hz]
  unfold castH
  simp only [View.readAt_eq_ld, harg2.read_unread, View.ld_unit_zero (S := S512x2048) hz]

/-- The first chunk leaves the running maximum stepped from minus infinity. -/
theorem pieceA_m (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x2048 .f32) (x1 : Vec F S1280x2048 .bf16) (x2 : Vec F S512x1 .i32) :
    sout0_A_1 c i arg2 harg2 arg3 harg3 arg4 harg4 arg5 harg5 arg6 harg6 arg7 harg7 arg8 harg8 arg9 harg9 arg10 harg10 hc0 hc1 x0 x1 x2 = stepM (castH x0) x1 resetM := by
  -- two stores reach the buffer, the reset and then the step; the later covers it, and its loads see the narrowed activations and the reset maximum just stored
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz]
  unfold stepM castH resetM
  simp only [View.readAt_eq_ld, harg2.read_unread, harg3.read_unread, View.ld_unit_zero (S := S512x2048) hz, View.ld_unit_zero (S := S1280x2048) hz, View.readCov_unit_zero (S := S512x1) _ hz, View.readCov_unit_zero (S := S512x2048) _ hz]

/-- The first chunk leaves the running sum stepped from zero (rescaled from the reset maximum). -/
theorem pieceA_l (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x2048 .f32) (x1 : Vec F S1280x2048 .bf16) (x2 : Vec F S512x1 .i32) :
    sout0_A_2 c i arg2 harg2 arg3 harg3 arg4 harg4 arg5 harg5 arg6 harg6 arg7 harg7 arg8 harg8 arg9 harg9 arg10 harg10 hc0 hc1 x0 x1 x2 = stepL (castH x0) x1 resetM resetL := by
  -- the later of the two stores covers the buffer; its loads see the narrowed activations, the reset maximum (read before the maximum is stepped) and the reset sum
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz]
  unfold stepL castH resetM resetL
  simp only [View.readAt_eq_ld, harg2.read_unread, harg3.read_unread, View.ld_unit_zero (S := S512x2048) hz, View.ld_unit_zero (S := S1280x2048) hz, View.readCov_unit_zero (S := S512x1) _ hz, View.readCov_unit_zero (S := S512x2048) _ hz]

/-- The first chunk leaves the label logit stepped from zero. -/
theorem pieceA_t (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x2048 .f32) (x1 : Vec F S1280x2048 .bf16) (x2 : Vec F S512x1 .i32) :
    sout0_A_3 c i arg2 harg2 arg3 harg3 arg4 harg4 arg5 harg5 arg6 harg6 arg7 harg7 arg8 harg8 arg9 harg9 arg10 harg10 hc0 hc1 x0 x1 x2 = stepT i (castH x0) x1 x2 resetT := by
  -- the later of the two stores covers the buffer; its loads see the narrowed activations and the reset label logit
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz]
  unfold stepT castH resetT
  simp only [View.readAt_eq_ld, harg2.read_unread, harg3.read_unread, harg4.read_unread, View.ld_unit_zero (S := S512x1) hz, View.ld_unit_zero (S := S512x2048) hz, View.ld_unit_zero (S := S1280x2048) hz, View.readCov_unit_zero (S := S512x1) _ hz, View.readCov_unit_zero (S := S512x2048) _ hz]

/-! ## Case B: a middle chunk (the activations scratch keeps what it held: `sout0_B_0 … = xs0` by definition) -/

/-- A middle chunk steps the running maximum. -/
theorem pieceB_m (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S1280x2048 .bf16) (x2 : Vec F S512x1 .i32) (xs0 : Vec F S512x2048 .bf16) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 hc0 hc1 x0 x1 x2 xs0 xs1 xs2 xs3 = stepM xs0 x1 xs1 := by
  -- one store covers the buffer; every load reads a whole buffer as the point before left it
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  unfold stepM
  simp only [View.readAt_eq_ld, harg3.read_unread, harg7.read_unread, harg8.read_unread, View.ld_unit_zero (S := S512x1) hz, View.ld_unit_zero (S := S512x2048) hz, View.ld_unit_zero (S := S1280x2048) hz]

/-- A middle chunk steps the running sum. -/
theorem pieceB_l (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S1280x2048 .bf16) (x2 : Vec F S512x1 .i32) (xs0 : Vec F S512x2048 .bf16) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 hc0 hc1 x0 x1 x2 xs0 xs1 xs2 xs3 = stepL xs0 x1 xs1 xs2 := by
  -- one store covers the buffer; the old maximum it rescales from is read before the maximum is stepped
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  unfold stepL
  simp only [View.readAt_eq_ld, harg3.read_unread, harg7.read_unread, harg8.read_unread, harg9.read_unread, View.ld_unit_zero (S := S512x1) hz, View.ld_unit_zero (S := S512x2048) hz, View.ld_unit_zero (S := S1280x2048) hz]

/-- A middle chunk steps the label logit. -/
theorem pieceB_t (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S1280x2048 .bf16) (x2 : Vec F S512x1 .i32) (xs0 : Vec F S512x2048 .bf16) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 hc0 hc1 x0 x1 x2 xs0 xs1 xs2 xs3 = stepT i xs0 x1 x2 xs3 := by
  -- one store covers the buffer; every load reads a whole buffer as the point before left it
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  unfold stepT
  simp only [View.readAt_eq_ld, harg3.read_unread, harg4.read_unread, harg7.read_unread, harg10.read_unread, View.ld_unit_zero (S := S512x1) hz, View.ld_unit_zero (S := S512x2048) hz, View.ld_unit_zero (S := S1280x2048) hz]

/-! ## Case C: the last chunk -/

/-- The last chunk steps the running maximum. -/
theorem pieceC_m (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x2048 .f32) (x1 : Vec F S1280x2048 .bf16) (x2 : Vec F S512x1 .i32) (xs0 : Vec F S512x2048 .bf16) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 hc0 hc1 x0 x1 x2 xs0 xs1 xs2 xs3 = stepM xs0 x1 xs1 := by
  -- as in a middle chunk
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  unfold stepM
  simp only [View.readAt_eq_ld, harg3.read_unread, harg7.read_unread, harg8.read_unread, View.ld_unit_zero (S := S512x1) hz, View.ld_unit_zero (S := S512x2048) hz, View.ld_unit_zero (S := S1280x2048) hz]

/-- The last chunk steps the running sum. -/
theorem pieceC_l (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x2048 .f32) (x1 : Vec F S1280x2048 .bf16) (x2 : Vec F S512x1 .i32) (xs0 : Vec F S512x2048 .bf16) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 hc0 hc1 x0 x1 x2 xs0 xs1 xs2 xs3 = stepL xs0 x1 xs1 xs2 := by
  -- as in a middle chunk
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  unfold stepL
  simp only [View.readAt_eq_ld, harg3.read_unread, harg7.read_unread, harg8.read_unread, harg9.read_unread, View.ld_unit_zero (S := S512x1) hz, View.ld_unit_zero (S := S512x2048) hz, View.ld_unit_zero (S := S1280x2048) hz]

/-- The last chunk steps the label logit. -/
theorem pieceC_t (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x2048 .f32) (x1 : Vec F S1280x2048 .bf16) (x2 : Vec F S512x1 .i32) (xs0 : Vec F S512x2048 .bf16) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 hc0 hc1 x0 x1 x2 xs0 xs1 xs2 xs3 = stepT i xs0 x1 x2 xs3 := by
  -- as in a middle chunk
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  unfold stepT
  simp only [View.readAt_eq_ld, harg3.read_unread, harg4.read_unread, harg7.read_unread, harg10.read_unread, View.ld_unit_zero (S := S512x1) hz, View.ld_unit_zero (S := S512x2048) hz, View.ld_unit_zero (S := S1280x2048) hz]

/-- The last chunk writes the row losses, computed from the three stepped numbers. -/
theorem pieceC_loss (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x2048 .f32) (x1 : Vec F S1280x2048 .bf16) (x2 : Vec F S512x1 .i32) (xs0 : Vec F S512x2048 .bf16) (xs1 : Vec F S512x1 .f32) (xs2 : Vec F S512x1 .f32) (xs3 : Vec F S512x1 .f32) :
    out0_C_3 c i arg2 harg2 arg3 harg3 arg4 harg4 arg5 harg5 arg6 harg6 arg7 harg7 arg8 harg8 arg9 harg9 arg10 harg10 hc0 hc1 x0 x1 x2 xs0 xs1 xs2 xs3 = outLoss i xs0 x1 x2 xs1 xs2 xs3 := by
  -- one store covers the output block; its three loads come after the three steps' stores, so they read the stepped maximum, sum and label logit
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  unfold outLoss stepM stepL stepT
  simp only [View.readAt_eq_ld, harg3.read_unread, harg4.read_unread, harg7.read_unread, harg8.read_unread, harg9.read_unread, harg10.read_unread, View.ld_unit_zero (S := S512x1) hz, View.ld_unit_zero (S := S512x2048) hz, View.ld_unit_zero (S := S1280x2048) hz, View.readCov_unit_zero (S := S512x1) _ hz]

/-- The last chunk writes the row weights. -/
theorem pieceC_mask (c : Dev nD) (i : grid0.Coords) (arg2 : Memref sig .tc .vmem S512x2048 .f32) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x2048 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x2048 .f32) (x1 : Vec F S1280x2048 .bf16) (x2 : Vec F S512x1 .i32) (xs0 : Vec F S512x2048 .bf16) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 hc0 hc1 x0 x1 x2 xs0 xs1 xs2 xs3 = outMask x2 := by
  -- one store covers the output block; its payload reads only the labels block
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  unfold outMask
  simp only [View.readAt_eq_ld, harg4.read_unread, View.ld_unit_zero (S := S512x1) hz]

end Cert.KernelIdeal.KV

end
-- ==== Proof.Spec.lean ====
/-
  The mathematics both programs are compared through, stated over plain functions and free of either program's text.

  A row of logits is `r : Fin 32000 → EReal` (one entry per class) and `tw` the row's label as a 32-bit word.
  The kernel walks the row in 25 chunks of 1280 classes and carries three numbers per row from chunk to chunk: the
  running maximum `mAt`, the running sum of exponentials `lAt` (rescaled by `exp (old max − new max)` whenever the
  maximum moves) and the label's logit `tAt` (picked up in the chunk that holds the label, by a sum over an
  indicator). After the last chunk the row's loss is `(m + log l) − t`, or `0` for an ignored row.
  The reference takes the row's maximum and its sum of shifted exponentials in one pass and reads the shifted
  log-probability at the label. Both then average the row losses over the rows that are not ignored.
-/
import Idealize.ShloMosaic.PureOps.Ideal
import Idealize.ShloMosaic.Lib.ValueIdx

noncomputable section

namespace Cert.CE

open Idealize.ShloMosaic

/-- The label that marks a row as ignored: `-100` as a 32-bit word. -/
abbrev ignoreW : BitVec 32 := 4294967196#32

/-- A row read at a natural number: the entry when the number is a class, `0` past the row's end. -/
def rowN (r : Fin 32000 → EReal) (k : ℕ) : EReal := if h : k < 32000 then r ⟨k, h⟩ else 0

/-- The logit of row `n` and class `v`: the dot product of a row of activations with a row of weights. -/
def logit (h : (⟨2, ![8192, 2048]⟩ : Shape).Idx → EReal) (w : (⟨2, ![32000, 2048]⟩ : Shape).Idx → EReal)
    (n : Fin 8192) (v : Fin 32000) : EReal :=
  ∑ d : Fin 2048, h (ValueIdx.ix2 n d) * w (ValueIdx.ix2 v d)

/-! ## The chunked walk (the kernel's order) -/

/-- The maximum of chunk `j` of a row, from `⊥`. -/
def cmax (r : Fin 32000 → EReal) (j : ℕ) : EReal :=
  (Finset.univ : Finset (Fin 1280)).fold max ⊥ (fun q => rowN r (1280 * j + q.val))

/-- The running maximum after chunk `j`. -/
def mAt (r : Fin 32000 → EReal) : ℕ → EReal
  | 0 => max ⊥ (cmax r 0)
  | j + 1 => max (mAt r j) (cmax r (j + 1))

/-- The sum over chunk `j` of the exponentials of the entries shifted by `mv`. -/
def csum (r : Fin 32000 → EReal) (j : ℕ) (mv : EReal) : EReal :=
  ∑ q : Fin 1280, Ideal.exp (rowN r (1280 * j + q.val) - mv)

/-- The running sum of exponentials after chunk `j`, shifted by the running maximum after chunk `j`. -/
def lAt (r : Fin 32000 → EReal) : ℕ → EReal
  | 0 => Ideal.exp (⊥ - mAt r 0) * 0 + csum r 0 (mAt r 0)
  | j + 1 => Ideal.exp (mAt r j - mAt r (j + 1)) * lAt r j + csum r (j + 1) (mAt r (j + 1))

/-- A label clamped into the classes, as a natural number. -/
def clampIdx (tw : BitVec 32) : ℕ := (max 0 (min 31999 tw.toInt)).toNat

/-- Chunk `j`'s contribution to the label's logit: the entry at the clamped label if it lies in the chunk, else `0`. -/
def ctgt (r : Fin 32000 → EReal) (tw : BitVec 32) (j : ℕ) : EReal :=
  ∑ q : Fin 1280, if clampIdx tw = 1280 * j + q.val then rowN r (1280 * j + q.val) else 0

/-- The label's logit as accumulated after chunk `j`. -/
def tAt (r : Fin 32000 → EReal) (tw : BitVec 32) : ℕ → EReal
  | 0 => 0 + ctgt r tw 0
  | j + 1 => tAt r tw j + ctgt r tw (j + 1)

/-- The row's loss as the kernel leaves it after the last chunk. -/
def nllK (r : Fin 32000 → EReal) (tw : BitVec 32) : EReal :=
  if tw ≠ ignoreW then (mAt r 24 + Ideal.log (lAt r 24)) - tAt r tw 24 else 0

/-- The row's weight: `1` unless the row is ignored. -/
def maskK (tw : BitVec 32) : EReal := if tw ≠ ignoreW then 1 else 0

/-- The mean the kernel's program returns: the summed losses over the summed weights when that is positive. -/
def finalK (x : Fin 8192 → Fin 32000 → EReal) (tg : Fin 8192 → BitVec 32) : EReal :=
  if Ideal.cmp .ogt (0 + ∑ n : Fin 8192, maskK (tg n)) 0 = 1#1
  then Ideal.div (0 + ∑ n : Fin 8192, nllK (x n) (tg n)) (0 + ∑ n : Fin 8192, maskK (tg n))
  else 0 + ∑ n : Fin 8192, nllK (x n) (tg n)

/-! ## One pass over the row (the reference's order) -/

/-- The row's maximum. -/
def rmax (r : Fin 32000 → EReal) : EReal := max ⊥ ((Finset.univ : Finset (Fin 32000)).fold max ⊥ r)

/-- The row's sum of exponentials shifted by its maximum. -/
def rsum (r : Fin 32000 → EReal) : EReal := 0 + ∑ v : Fin 32000, Ideal.exp (r v - rmax r)

/-- The row's loss as the reference computes it: minus the shifted log-probability at the label. -/
def nllR (r : Fin 32000 → EReal) (tw : BitVec 32) : EReal :=
  if tw ≠ ignoreW then -((rowN r tw.toNat - rmax r) - Ideal.log (rsum r)) else 0

/-- The number of rows that are not ignored. -/
def cntR (tg : Fin 8192 → BitVec 32) : EReal :=
  (((Finset.univ.filter fun n : Fin 8192 => tg n ≠ ignoreW).card : ℝ) : EReal)

/-- The mean the reference returns. -/
def finalR (x : Fin 8192 → Fin 32000 → EReal) (tg : Fin 8192 → BitVec 32) : EReal :=
  if Ideal.cmp .ogt (cntR tg) 0 = 1#1
  then Ideal.div (0 + ∑ n : Fin 8192, nllR (x n) (tg n)) (cntR tg)
  else 0 + ∑ n : Fin 8192, nllR (x n) (tg n)

/-- A label is admissible when it is a class or the ignore mark. -/
def LabelOk (tw : BitVec 32) : Prop := (0 ≤ tw.toInt ∧ tw.toInt < 32000) ∨ tw = ignoreW

end Cert.CE

end
-- ==== Proof.KIndex.lean ====
/-
  The step functions read at one row, over the extended reals. `dotRow hb wb r q` is the chunk's logit of row `r`
  and column `q`. With it: the new maximum is the old one against the fold of `max` over the chunk's logits; the new
  sum is `exp (old max − new max)` times the old sum plus the chunk's exponentials shifted by the new maximum; the
  new label logit is the old one plus the logit in the column the clamped label names, when that column lies in the
  chunk; the loss is log-sum-exp minus the label logit, or zero on an ignored row.
-/
import proofs.«410234_j46651934769795_3_alg».proof.Proof.KStep
import proofs.«410234_j46651934769795_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.KV

open Idealize.ShloMosaic Cert.KernelIdeal Cert.KernelIdeal.Gen ValueIdx

/-- The logit of row `r` of the activations block against row `q` of the weights block. -/
def dotRow (hb : Vec Ideal S512x2048 .bf16) (wb : Vec Ideal S1280x2048 .bf16) (r : Fin 512) (q : Fin 1280) : EReal :=
  ∑ d : Fin 2048, hb (ix2 r d) * wb (ix2 q d)

theorem castH_apply (x0 : Vec Ideal S512x2048 .f32) (y : S512x2048.Idx) : castH (F := Ideal) x0 y = x0 y := by
  unfold castH k0_pay6
  simp only [shapeCast_self]
  rfl

/-- The word of minus infinity. -/
private theorem bot_word : Ideal.ofBits .f32 0xFF800000#32 = (⊥ : EReal) := by
  simp [Ideal.ofBits, Ideal.ieee]

theorem resetM_apply (y : S512x1.Idx) : resetM (F := Ideal) y = (⊥ : EReal) := by
  unfold resetM k0_pay7
  simp only [shapeCast_self]
  exact bot_word

theorem resetL_apply (y : S512x1.Idx) : resetL (F := Ideal) y = (0 : EReal) := by
  unfold resetL k0_pay8
  simp only [shapeCast_self]
  exact Ideal.ofBits_zero_f32

theorem resetT_apply (y : S512x1.Idx) : resetT (F := Ideal) y = (0 : EReal) := by
  unfold resetT k0_pay9
  simp only [shapeCast_self]
  exact Ideal.ofBits_zero_f32

/-- The word of one. -/
private theorem one_word : Ideal.ofBits .f32 0x3F800000#32 = (1 : EReal) := by
  simp [Ideal.ofBits, Ideal.ieee]
  rw [← EReal.coe_mul]
  norm_num

/-- A row vector cast to a one-column matrix reads, at `(r, 0)`, the vector at `r`. -/
private theorem colCast_apply {α : Type} (v : S512.Idx → α) (h : S512.ShapeCasts S512x1) (r : Fin 512) :
    shapeCast S512x1 v h (ix2 r (0 : Fin 1)) = v (ix1 r) :=
  shapeCast_apply v h _ _ (by
    rw [Shape.rowMajor_val_one, Shape.rowMajor_val_two]
    show r.val = r.val * 1 + 0
    omega)

/-- A one-column matrix spread over 1280 columns reads, at `(r, q)`, the column at `(r, 0)`. -/
private theorem colBcast_apply {α : Type} (v : S512x1.Idx → α) (h : S512x1.Broadcasts S512x1280) (r : Fin 512) (q : Fin 1280) :
    broadcastTo S512x1280 v h (ix2 r q) = v (ix2 r (0 : Fin 1)) := by
  refine broadcastTo_apply v h (ix2 r q) (ix2 r (0 : Fin 1)) fun ax => ?_
  match ax with
  | ⟨0, _⟩ => rfl
  | ⟨1, _⟩ => rfl

/-- The sum along the columns, at row `r`. -/
private theorem laneSum_apply (v : FVec Ideal S512x1280 .f32) (h : S512x1280.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ q : Fin 1280, v (ix2 r q) := by
  refine (Ideal.multiReduction_add_single v _ h hφ hacc (ix1 r)).trans ?_
  refine Finset.sum_congr rfl fun q _ => congrArg v ?_
  funext a
  match a with
  | ⟨0, _⟩ => rfl
  | ⟨1, _⟩ => rfl

/-- The maximum along the columns, at row `r`, from minus infinity. -/
private theorem laneMax_apply (v : FVec Ideal S512x1280 .f32) (h : S512x1280.Reduces [1] S512) (hφ : FKind.Formats .f32)
    (hacc : (0xFF800000#32 : BitVec 32) = FKind.maximumf.neutral .f32 hφ) (r : Fin 512) :
    multiReduction (F := Ideal) .maximumf [1] S512 v 0xFF800000#32 h hφ hacc (ix1 r)
      = (Finset.univ : Finset (Fin 1280)).fold max ⊥ (fun q => v (ix2 r q)) := by
  refine (Ideal.multiReduction_maximumf_single v _ h hφ hacc (ix1 r)).trans ?_
  have e : (v ∘ h.lift (ix1 r)) = fun q : Fin 1280 => v (ix2 r q) := by
    funext q
    refine congrArg v ?_
    funext a
    match a with
    | ⟨0, _⟩ => rfl
    | ⟨1, _⟩ => rfl
  rw [e]
  exact congrArg (fun b => (Finset.univ : Finset (Fin 1280)).fold max b (fun q => v (ix2 r q))) bot_word

/-! The operand indices of the block product: the left one is (output row, contraction position), the right one
    (output column, contraction position). -/
private theorem lhs_blk_0 (i : S512x1280.Idx) (q : dot_S512x2048_S1280x2048_S512x1280_1_1_0_0_n_n.contr.Idx) :
    (dot_S512x2048_S1280x2048_S512x1280_1_1_0_0_n_n.lhsIdx i q 0).val = (i 0).val := by
  unfold DotDims.lhsIdx
  rw [dif_neg (show ¬(0 : Fin S512x2048.rank) ∈ dot_S512x2048_S1280x2048_S512x1280_1_1_0_0_n_n.lhsBatch by decide), dif_pos (show (0 : Fin S512x2048.rank) ∈ dot_S512x2048_S1280x2048_S512x1280_1_1_0_0_n_n.lhsNonContracting by decide)]
  rfl
private theorem lhs_blk_1 (i : S512x1280.Idx) (q : dot_S512x2048_S1280x2048_S512x1280_1_1_0_0_n_n.contr.Idx) :
    (dot_S512x2048_S1280x2048_S512x1280_1_1_0_0_n_n.lhsIdx i q 1).val = (q ⟨0, by decide⟩).val :=
  dot_S512x2048_S1280x2048_S512x1280_1_1_0_0_n_n.lhsIdx_val_of_single rfl i q
private theorem rhs_blk_0 (i : S512x1280.Idx) (q : dot_S512x2048_S1280x2048_S512x1280_1_1_0_0_n_n.contr.Idx) :
    (dot_S512x2048_S1280x2048_S512x1280_1_1_0_0_n_n.rhsIdx i q 0).val = (i 1).val := by
  unfold DotDims.rhsIdx
  rw [dif_neg (show ¬(0 : Fin S1280x2048.rank) ∈ dot_S512x2048_S1280x2048_S512x1280_1_1_0_0_n_n.rhsBatch by decide), dif_pos (show (0 : Fin S1280x2048.rank) ∈ dot_S512x2048_S1280x2048_S512x1280_1_1_0_0_n_n.rhsNonContracting by decide)]
  rfl
private theorem rhs_blk_1 (i : S512x1280.Idx) (q : dot_S512x2048_S1280x2048_S512x1280_1_1_0_0_n_n.contr.Idx) :
    (dot_S512x2048_S1280x2048_S512x1280_1_1_0_0_n_n.rhsIdx i q 1).val = (q ⟨0, by decide⟩).val :=
  dot_S512x2048_S1280x2048_S512x1280_1_1_0_0_n_n.rhsIdx_val_of_single rfl i q

/-- The block product into a zero accumulator, at an entry: the sum over the shared axis. -/
private theorem blkDot_apply (hb : FVec Ideal S512x2048 .bf16) (wb : FVec Ideal S1280x2048 .bf16) (r : Fin 512) (q : Fin 1280) :
    FloatOps.matmul dot_S512x2048_S1280x2048_S512x1280_1_1_0_0_n_n none hb wb (constant (F := Ideal) S512x1280 .f32 0x00000000#32) (ix2 r q)
      = ∑ d : Fin 2048, hb (ix2 r d) * wb (ix2 q d) := by
  rw [Ideal.matmul_constant_zero_apply, ← Equiv.sum_comp (ValueIdx.contrEquiv1 dot_S512x2048_S1280x2048_S512x1280_1_1_0_0_n_n 2048 rfl rfl).symm]
  refine Finset.sum_congr rfl fun k _ => ?_
  have hk := ValueIdx.contrEquiv1_symm_val dot_S512x2048_S1280x2048_S512x1280_1_1_0_0_n_n 2048 rfl rfl k
  have el : dot_S512x2048_S1280x2048_S512x1280_1_1_0_0_n_n.lhsIdx (ix2 r q) ((ValueIdx.contrEquiv1 dot_S512x2048_S1280x2048_S512x1280_1_1_0_0_n_n 2048 rfl rfl).symm k) = ix2 r k := funext fun a => Fin.ext (by
    match a with
    | ⟨0, _⟩ => exact lhs_blk_0 _ _
    | ⟨1, _⟩ => exact (lhs_blk_1 _ _).trans hk)
  have er : dot_S512x2048_S1280x2048_S512x1280_1_1_0_0_n_n.rhsIdx (ix2 r q) ((ValueIdx.contrEquiv1 dot_S512x2048_S1280x2048_S512x1280_1_1_0_0_n_n 2048 rfl rfl).symm k) = ix2 q k := funext fun a => Fin.ext (by
    match a with
    | ⟨0, _⟩ => exact rhs_blk_0 _ _
    | ⟨1, _⟩ => exact (rhs_blk_1 _ _).trans hk)
  rw [el, er]

/-- The block product behind the chunk's logits, at an entry: the dot product of the two rows. -/
private theorem pay10_apply (hb : Vec Ideal S512x2048 .bf16) (wb : Vec Ideal S1280x2048 .bf16) (r : Fin 512) (q : Fin 1280) :
    k0_pay10 (F := Ideal) hb wb (ix2 r q) = dotRow hb wb r q := by
  unfold k0_pay10
  simp only [shapeCast_self]
  exact blkDot_apply hb wb r q

/-- The chunk's logits at an entry: the dot product of the two rows. -/
theorem chunkLogits_apply (hb : Vec Ideal S512x2048 .bf16) (wb : Vec Ideal S1280x2048 .bf16) (r : Fin 512) (q : Fin 1280) :
    chunkLogits (F := Ideal) hb wb (ix2 r q) = dotRow hb wb r q := pay10_apply hb wb r q

/-- The maximum carried to the next chunk, before the same-shape cast. -/
private theorem pay13_apply (hb : Vec Ideal S512x2048 .bf16) (wb : Vec Ideal S1280x2048 .bf16) (mo : Vec Ideal S512x1 .f32) (r : Fin 512) :
    k0_pay13 (F := Ideal) hb wb mo (ix2 r 0)
      = max (mo (ix2 r 0)) ((Finset.univ : Finset (Fin 1280)).fold max ⊥ (fun q => dotRow hb wb r q)) := by
  unfold k0_pay13
  refine (maximumf_apply _ _ _).trans ?_
  refine congrArg (max (mo (ix2 r 0))) ?_
  refine (colCast_apply _ _ r).trans ?_
  refine (laneMax_apply _ _ _ _ r).trans ?_
  exact congrArg (fun f => (Finset.univ : Finset (Fin 1280)).fold max ⊥ f) (funext fun q => pay10_apply hb wb r q)

/-- The stepped maximum of row `r`. -/
theorem stepM_apply (hb : Vec Ideal S512x2048 .bf16) (wb : Vec Ideal S1280x2048 .bf16) (mo : Vec Ideal S512x1 .f32) (r : Fin 512) :
    stepM (F := Ideal) hb wb mo (ix2 r 0)
      = max (mo (ix2 r 0)) ((Finset.univ : Finset (Fin 1280)).fold max ⊥ (fun q => dotRow hb wb r q)) := by
  unfold stepM k0_pay2
  simp only [shapeCast_self]
  exact pay13_apply hb wb mo r

/-- The stepped maximum is the carried maximum: the cast between them keeps the shape. -/
private theorem stepM_eq (hb : Vec Ideal S512x2048 .bf16) (wb : Vec Ideal S1280x2048 .bf16) (mo : Vec Ideal S512x1 .f32) :
    stepM (F := Ideal) hb wb mo = k0_pay13 (F := Ideal) hb wb mo := by
  unfold stepM k0_pay2
  simp only [shapeCast_self]

/-- The stepped sum of row `r`. -/
theorem stepL_apply (hb : Vec Ideal S512x2048 .bf16) (wb : Vec Ideal S1280x2048 .bf16) (mo lo : Vec Ideal S512x1 .f32) (r : Fin 512) :
    stepL (F := Ideal) hb wb mo lo (ix2 r 0)
      = Ideal.exp (mo (ix2 r 0) - stepM (F := Ideal) hb wb mo (ix2 r 0)) * lo (ix2 r 0)
        + ∑ q : Fin 1280, Ideal.exp (dotRow hb wb r q - stepM (F := Ideal) hb wb mo (ix2 r 0)) := by
  rw [stepM_eq]
  unfold stepL k0_pay1
  simp only [shapeCast_self]
  refine (addf_apply _ _ _).trans ?_
  refine congrArg₂ (· + ·) rfl ?_
  refine (colCast_apply _ _ r).trans ?_
  refine (laneSum_apply _ _ _ _ r).trans ?_
  refine Finset.sum_congr rfl fun q _ => ?_
  show Ideal.exp (k0_pay10 (F := Ideal) hb wb (ix2 r q) - broadcastTo S512x1280 (k0_pay13 (F := Ideal) hb wb mo) _ (ix2 r q)) = _
  rw [pay10_apply, colBcast_apply]

/-! The label's clamp on 32-bit words and on integers agree. -/

/-- The word clamp `min 31999 (max 0 t)`, read signed, is the integer clamp. -/
private theorem clampW_toInt (t : BitVec 32) :
    (IntOp.minsi 31999#32 (IntOp.maxsi 0#32 t)).toInt = max 0 (min 31999 t.toInt) := by
  have h0 : (0#32 : BitVec 32).toInt = 0 := by decide
  have h1 : (31999#32 : BitVec 32).toInt = 31999 := by decide
  by_cases hneg : t.toInt < 0
  · have hm : IntOp.maxsi 0#32 t = 0#32 := by
      unfold IntOp.maxsi
      rw [if_pos (by simp only [BitVec.slt, h0, decide_eq_true_eq]; exact hneg)]
    rw [hm]
    have : IntOp.minsi 31999#32 0#32 = 0#32 := by decide
    rw [this, h0]
    omega
  · have hm : IntOp.maxsi 0#32 t = t := by
      unfold IntOp.maxsi
      rw [if_neg (by simp only [BitVec.slt, h0, decide_eq_true_eq]; exact hneg)]
    rw [hm]
    by_cases hbig : 31999 < t.toInt
    · have : IntOp.minsi 31999#32 t = 31999#32 := by
        unfold IntOp.minsi
        rw [if_pos (by simp only [BitVec.slt, h1, decide_eq_true_eq]; exact hbig)]
      rw [this, h1]
      omega
    · have : IntOp.minsi 31999#32 t = t := by
        unfold IntOp.minsi
        rw [if_neg (by simp only [BitVec.slt, h1, decide_eq_true_eq]; exact hbig)]
      rw [this]
      omega

/-- So its unsigned value is the clamped label as a natural number, a class. -/
private theorem clampW_toNat (t : BitVec 32) :
    (IntOp.minsi 31999#32 (IntOp.maxsi 0#32 t)).toNat = Cert.CE.clampIdx t := by
  have h := clampW_toInt t
  have hc := BitVec.toInt_eq_toNat_cond (IntOp.minsi 31999#32 (IntOp.maxsi 0#32 t))
  have hlt := (IntOp.minsi 31999#32 (IntOp.maxsi 0#32 t)).isLt
  unfold Cert.CE.clampIdx
  split at hc <;> omega

/-- The clamped label is column `q` of chunk `j` as words exactly when it is as numbers: nothing wraps, since the
    chunk number is below 25 and the column below 1280. -/
private theorem clampW_eq_iff (t : BitVec 32) (j q : ℕ) (hj : j < 25) (hq : q < 1280) :
    IntOp.minsi 31999#32 (IntOp.maxsi 0#32 t) = IntOp.addi (BitVec.ofNat 32 q) (Scalar.muli (BitVec.ofNat 32 j) 1280#32)
      ↔ Cert.CE.clampIdx t = 1280 * j + q := by
  rw [← clampW_toNat t, ← BitVec.toNat_inj]
  have e : (IntOp.addi (BitVec.ofNat 32 q) (Scalar.muli (BitVec.ofNat 32 j) 1280#32)).toNat = 1280 * j + q := by
    unfold IntOp.addi Scalar.muli IntOp.muli
    simp only [BitVec.toNat_add, BitVec.toNat_mul, BitVec.toNat_ofNat]
    omega
  rw [e]

/-- A select on an equality test of words is the `if` on the equality. -/
private theorem select_cmpi_eq {α : Type} (x y : BitVec 32) (a b : α) :
    Scalar.select (IntOp.cmpi .eq x y) a b = if x = y then a else b := by
  unfold Scalar.select
  exact if_congr StableHlo.Predicate.cmpi_eq_iff rfl rfl

/-- A select on an inequality test of words is the `if` on the inequality. -/
private theorem select_cmpi_ne {α : Type} (x y : BitVec 32) (a b : α) :
    Scalar.select (IntOp.cmpi .ne x y) a b = if x ≠ y then a else b := by
  unfold Scalar.select
  refine if_congr ?_ rfl rfl
  show BitVec.ofBool (x != y) = 1#1 ↔ x ≠ y
  rw [StableHlo.Predicate.ofBool_eq_one_iff]
  exact bne_iff_ne

/-- The labels as the body reads them are the labels: the cast keeps the shape. -/
private theorem pay11_eq (tb : Vec Ideal S512x1 .i32) : k0_pay11 (F := Ideal) tb = tb := by
  unfold k0_pay11
  simp only [shapeCast_self]

/-- The stepped label logit of row `r`, at the grid point whose chunk number is `(i 1).val`. -/
theorem stepT_apply (i : grid0.Coords) (hb : Vec Ideal S512x2048 .bf16) (wb : Vec Ideal S1280x2048 .bf16) (tb : Vec Ideal S512x1 .i32)
    (tq : Vec Ideal S512x1 .f32) (r : Fin 512) :
    stepT (F := Ideal) i hb wb tb tq (ix2 r 0)
      = tq (ix2 r 0) + ∑ q : Fin 1280, if Cert.CE.clampIdx (tb (ix2 r 0)) = 1280 * (i 1).val + q.val then dotRow hb wb r q else 0 := by
  have hj : (i 1).val < 25 := (i 1).isLt
  unfold stepT k0_pay12
  simp only [shapeCast_self, pay11_eq]
  refine (addf_apply _ _ _).trans ?_
  refine congrArg₂ (· + ·) rfl ?_
  refine (colCast_apply _ _ r).trans ?_
  refine (laneSum_apply _ _ _ _ r).trans ?_
  refine Finset.sum_congr rfl fun q _ => ?_
  refine (select_apply _ _ _ _).trans ?_
  refine (select_cmpi_eq _ _ _ _).trans ?_
  rw [pay10_apply]
  refine if_congr ?_ rfl Ideal.ofBits_zero_f32
  rw [colBcast_apply]
  have hi : iota .tc S512x1280 32 [1] iota_S512x1280_d1_w32 (ix2 r q) = BitVec.ofNat 32 q.val :=
    iota_single_apply .tc S512x1280 32 1 iota_S512x1280_d1_w32 (ix2 r q)
  show IntOp.minsi 31999#32 (IntOp.maxsi 0#32 (tb (ix2 r 0)))
      = IntOp.addi (iota .tc S512x1280 32 [1] iota_S512x1280_d1_w32 (ix2 r q)) (Scalar.muli (BitVec.ofNat 32 (i 1).val) 1280#32) ↔ _
  rw [hi]
  exact clampW_eq_iff (tb (ix2 r 0)) (i 1).val q.val hj q.isLt

/-- The row loss of row `r`. -/
theorem outLoss_apply (i : grid0.Coords) (hb : Vec Ideal S512x2048 .bf16) (wb : Vec Ideal S1280x2048 .bf16) (tb : Vec Ideal S512x1 .i32)
    (mo lo tq : Vec Ideal S512x1 .f32) (r : Fin 512) :
    outLoss (F := Ideal) i hb wb tb mo lo tq (ix2 r 0)
      = if tb (ix2 r 0) ≠ Cert.CE.ignoreW
        then (stepM (F := Ideal) hb wb mo (ix2 r 0) + Ideal.log (stepL (F := Ideal) hb wb mo lo (ix2 r 0)))
              - stepT (F := Ideal) i hb wb tb tq (ix2 r 0)
        else 0 := by
  unfold outLoss k0_pay4 k0_pay3
  simp only [pay11_eq]
  refine (select_apply _ _ _ _).trans ?_
  refine (select_cmpi_ne _ _ _ _).trans ?_
  exact if_congr Iff.rfl rfl Ideal.ofBits_zero_f32

/-- The row weight of row `r`. -/
theorem outMask_apply (tb : Vec Ideal S512x1 .i32) (r : Fin 512) :
    outMask (F := Ideal) tb (ix2 r 0) = Cert.CE.maskK (tb (ix2 r 0)) := by
  unfold outMask k0_pay5 k0_pay3 Cert.CE.maskK
  simp only [pay11_eq]
  refine (select_apply _ _ _ _).trans ?_
  refine (select_cmpi_ne _ _ _ _).trans ?_
  exact if_congr Iff.rfl one_word Ideal.ofBits_zero_f32

end Cert.KernelIdeal.KV

end
-- ==== Proof.KInv.lean ====
/-
  What the carried scratch holds after every grid point, over the extended reals. A grid point `t` is row tile
  `t / 25` and vocabulary chunk `t % 25`; row `r` of its tile is row `512 · (t / 25) + r` of the whole problem. After
  point `t` the activations scratch holds the tile's rows of the activations, and the three one-column scratch
  buffers hold, row by row, the specification's running maximum, running sum and label logit after chunk `t % 25`
  of that row's logits. At a tile's last chunk the two outputs hold the row losses and the row weights.
  By induction on the point: a tile's first chunk starts from the reset values, every other chunk from what the
  point before left.
-/
import proofs.«410234_j46651934769795_3_alg».proof.Proof.Gen.KernelIdeal.Frame
import proofs.«410234_j46651934769795_3_alg».proof.Proof.KPieces
import proofs.«410234_j46651934769795_3_alg».proof.Proof.KIndex
import proofs.«410234_j46651934769795_3_alg».proof.Proof.Spec
import Idealize.ShloMosaic.Lib.Pipeline.Value

noncomputable section

namespace Cert.KernelIdeal.KV

open Idealize.ShloMosaic Idealize.ShloMosaic.TcCoe Idealize.SL.Sem Cert.KernelIdeal Cert.KernelIdeal.Gen ValueIdx

variable (m : (ℓ : Loc nD τ sig) → Buf (Elt Ideal) ℓ)

/-- The activations as the region finds them: 8192 rows of 2048. -/
abbrev Harr (c : Dev nD) : Vec Ideal S8192x2048 .f32 := V m c main_v0
/-- The weights as the region finds them: 32000 rows of 2048. -/
abbrev Warr (c : Dev nD) : Vec Ideal S32000x2048 .bf16 := V m c main_v3
/-- The labels as the region finds them: one column of 8192. -/
abbrev Tarr (c : Dev nD) : Vec Ideal S8192x1 .i32 := V m c main_v2

/-- Row `n`'s logits. -/
def xrow (c : Dev nD) (n : Fin 8192) : Fin 32000 → EReal := Cert.CE.logit (Harr m c) (Warr m c) n

/-- Row `r` of grid point `t`'s row tile, as a row of the whole problem. -/
def rowAt (t : Fin cfg0.N) (r : Fin 512) : Fin 8192 :=
  ⟨512 * (t.val / 25) + r.val, by
    have hN : t.val < 400 := lt_of_lt_of_eq t.isLt (show cfg0.N = 400 from N_0)
    have := r.isLt
    omega⟩

/-- Where the activations window's block sits at a point: block row `t / 25`, block column `0`. -/
private theorem widx0 : ∀ t : Fin grid0.N, win0_0.index t (0 : Fin 2) = t.val / 25 ∧ win0_0.index t (1 : Fin 2) = 0 := by decide +kernel
/-- Where the weights window's block sits at a point: block row `t % 25`, block column `0`. -/
private theorem widx1 : ∀ t : Fin grid0.N, win0_1.index t (0 : Fin 2) = t.val % 25 ∧ win0_1.index t (1 : Fin 2) = 0 := by decide +kernel
/-- Where the labels window's block sits at a point: block row `t / 25`, block column `0`. -/
private theorem widx2 : ∀ t : Fin grid0.N, win0_2.index t (0 : Fin 2) = t.val / 25 ∧ win0_2.index t (1 : Fin 2) = 0 := by decide +kernel
/-- A point's second grid coordinate is its vocabulary chunk `t % 25`. -/
private theorem coord1 : ∀ t : Fin grid0.N, ((grid0.coords t) 1).val = t.val % 25 := by decide +kernel

/-- The point's activations block: 512 rows of 2048. -/
private abbrev hblk (c : Dev nD) (t : Fin cfg0.N) : Vec Ideal S512x2048 .f32 := iblk m c 0 t
/-- The point's weights block: 1280 rows of 2048. -/
private abbrev wblk (c : Dev nD) (t : Fin cfg0.N) : Vec Ideal S1280x2048 .bf16 := iblk m c 1 t
/-- The point's labels block: one column of 512. -/
private abbrev tblk (c : Dev nD) (t : Fin cfg0.N) : Vec Ideal S512x1 .i32 := iblk m c 2 t

/-- Row `r` of the point's activations block is row `512 · (t / 25) + r` of the activations. -/
private theorem hblk_apply (c : Dev nD) (t : Fin cfg0.N) (r : Fin 512) (d : Fin 2048) :
    hblk m c t (ix2 r d) = Harr m c (ix2 (rowAt t r) d) := by
  unfold hblk iblk
  rw [View.read_apply]
  show V m c main_v0 (((cfg0.win 0).blk t).view.emb (ix2 r d)) = V m c main_v0 _
  congr 1
  funext a
  apply Fin.ext
  match a with
  | ⟨0, _⟩ => show win0_0.index t 0 * 512 + 1 * r.val = 512 * (t.val / 25) + r.val; rw [(widx0 t).1]; omega
  | ⟨1, _⟩ => show win0_0.index t 1 * 2048 + 1 * d.val = d.val; rw [(widx0 t).2]; omega

/-- Column `q` of chunk `t % 25` is a class: `1280 · 24 + 1279 < 32000`. -/
private theorem wrow_lt (t : Fin cfg0.N) (q : Fin 1280) : 1280 * (t.val % 25) + q.val < 32000 := by
  have := q.isLt
  have := Nat.mod_lt t.val (show 0 < 25 by decide)
  omega

/-- Row `q` of the point's weights block is row `1280 · (t % 25) + q` of the weights. -/
private theorem wblk_apply (c : Dev nD) (t : Fin cfg0.N) (q : Fin 1280) (d : Fin 2048) :
    wblk m c t (ix2 q d) = Warr m c (ix2 ⟨1280 * (t.val % 25) + q.val, wrow_lt t q⟩ d) := by
  unfold wblk iblk
  rw [View.read_apply]
  show V m c main_v3 (((cfg0.win 1).blk t).view.emb (ix2 q d)) = V m c main_v3 _
  congr 1
  funext a
  apply Fin.ext
  match a with
  | ⟨0, _⟩ => show win0_1.index t 0 * 1280 + 1 * q.val = 1280 * (t.val % 25) + q.val; rw [(widx1 t).1]; omega
  | ⟨1, _⟩ => show win0_1.index t 1 * 2048 + 1 * d.val = d.val; rw [(widx1 t).2]; omega

/-- Row `r` of the point's labels block is row `512 · (t / 25) + r` of the labels. -/
private theorem tblk_apply (c : Dev nD) (t : Fin cfg0.N) (r : Fin 512) :
    tblk m c t (ix2 r 0) = Tarr m c (ix2 (rowAt t r) 0) := by
  unfold tblk iblk
  rw [View.read_apply]
  show V m c main_v2 (((cfg0.win 2).blk t).view.emb (ix2 r 0)) = V m c main_v2 _
  congr 1
  funext a
  apply Fin.ext
  match a with
  | ⟨0, _⟩ => show win0_2.index t 0 * 512 + 1 * r.val = 512 * (t.val / 25) + r.val; rw [(widx2 t).1]; omega
  | ⟨1, _⟩ => show win0_2.index t 1 * 1 + 1 * 0 = 0; rw [(widx2 t).2]

/-- The chunk's logit of a tile row against a chunk column is the row's logit at that column of the vocabulary. -/
private theorem dotRow_eq (c : Dev nD) (t : Fin cfg0.N) (hs : Vec Ideal S512x2048 .bf16)
    (hh : ∀ (r : Fin 512) (d : Fin 2048), hs (ix2 r d) = Harr m c (ix2 (rowAt t r) d)) (r : Fin 512) (q : Fin 1280) :
    dotRow hs (wblk m c t) r q = Cert.CE.rowN (xrow m c (rowAt t r)) (1280 * (t.val % 25) + q.val) := by
  unfold dotRow Cert.CE.rowN
  rw [dif_pos (wrow_lt t q)]
  unfold xrow Cert.CE.logit
  refine Finset.sum_congr rfl fun d _ => ?_
  rw [hh r d, wblk_apply m c t q d]

/-- The stepped maximum of a tile row: the old one against the maximum of chunk `t % 25` of the row's logits. -/
private theorem stepM_spec (c : Dev nD) (t : Fin cfg0.N) (hs : Vec Ideal S512x2048 .bf16)
    (hh : ∀ (r : Fin 512) (d : Fin 2048), hs (ix2 r d) = Harr m c (ix2 (rowAt t r) d))
    (mo : Vec Ideal S512x1 .f32) (r : Fin 512) :
    stepM (F := Ideal) hs (wblk m c t) mo (ix2 r 0)
      = max (mo (ix2 r 0)) (Cert.CE.cmax (xrow m c (rowAt t r)) (t.val % 25)) := by
  rw [stepM_apply]
  unfold Cert.CE.cmax
  congr 2
  funext q
  exact dotRow_eq m c t hs hh r q

/-- The stepped sum of a tile row: the old one rescaled, plus the shifted exponentials of chunk `t % 25` of the row's logits. -/
private theorem stepL_spec (c : Dev nD) (t : Fin cfg0.N) (hs : Vec Ideal S512x2048 .bf16)
    (hh : ∀ (r : Fin 512) (d : Fin 2048), hs (ix2 r d) = Harr m c (ix2 (rowAt t r) d))
    (mo lo : Vec Ideal S512x1 .f32) (r : Fin 512) :
    stepL (F := Ideal) hs (wblk m c t) mo lo (ix2 r 0)
      = Ideal.exp (mo (ix2 r 0) - stepM (F := Ideal) hs (wblk m c t) mo (ix2 r 0)) * lo (ix2 r 0)
        + Cert.CE.csum (xrow m c (rowAt t r)) (t.val % 25) (stepM (F := Ideal) hs (wblk m c t) mo (ix2 r 0)) := by
  rw [stepL_apply]
  unfold Cert.CE.csum
  congr 1
  refine Finset.sum_congr rfl fun q _ => ?_
  rw [dotRow_eq m c t hs hh r q]

/-- The stepped label logit of a tile row: the old one plus chunk `t % 25`'s contribution at the row's clamped label. -/
private theorem stepT_spec (c : Dev nD) (t : Fin cfg0.N) (hs : Vec Ideal S512x2048 .bf16)
    (hh : ∀ (r : Fin 512) (d : Fin 2048), hs (ix2 r d) = Harr m c (ix2 (rowAt t r) d))
    (tq : Vec Ideal S512x1 .f32) (r : Fin 512) :
    stepT (F := Ideal) (grid0.coords t) hs (wblk m c t) (tblk m c t) tq (ix2 r 0)
      = tq (ix2 r 0) + Cert.CE.ctgt (xrow m c (rowAt t r)) (Tarr m c (ix2 (rowAt t r) 0)) (t.val % 25) := by
  rw [stepT_apply, coord1 t, tblk_apply m c t r]
  unfold Cert.CE.ctgt
  simp only [dotRow_eq m c t hs hh]

/-- What the point before left in the four carried buffers (read only at points that are not a tile's first chunk). -/
private abbrev pH (c : Dev nD) (t : Fin cfg0.N) : Vec Ideal S512x2048 .bf16 := (outsAt0 m c (t.val - 1) (Nat.lt_of_le_of_lt (Nat.sub_le _ _) t.isLt)).2.2.1
private abbrev pM (c : Dev nD) (t : Fin cfg0.N) : Vec Ideal S512x1 .f32 := (outsAt0 m c (t.val - 1) (Nat.lt_of_le_of_lt (Nat.sub_le _ _) t.isLt)).2.2.2.1
private abbrev pL (c : Dev nD) (t : Fin cfg0.N) : Vec Ideal S512x1 .f32 := (outsAt0 m c (t.val - 1) (Nat.lt_of_le_of_lt (Nat.sub_le _ _) t.isLt)).2.2.2.2.1
private abbrev pT (c : Dev nD) (t : Fin cfg0.N) : Vec Ideal S512x1 .f32 := (outsAt0 m c (t.val - 1) (Nat.lt_of_le_of_lt (Nat.sub_le _ _) t.isLt)).2.2.2.2.2

/-- A tile's first chunk leaves the narrowed activations block. -/
private theorem compA_h (c : Dev nD) (t : Fin cfg0.N) (h0 : t.val % 25 = 0) (h1 : ¬t.val % 25 = 24) :
    (outsAt0 m c t.val t.isLt).2.2.1 = castH (hblk m c t) := by
  rw [outsAt0_A m c t h0 h1]
  dsimp only
  exact pieceA_h (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- A tile's first chunk leaves the maximum stepped from the reset value. -/
private theorem compA_m (c : Dev nD) (t : Fin cfg0.N) (h0 : t.val % 25 = 0) (h1 : ¬t.val % 25 = 24) :
    (outsAt0 m c t.val t.isLt).2.2.2.1 = stepM (castH (hblk m c t)) (wblk m c t) resetM := by
  rw [outsAt0_A m c t h0 h1]
  dsimp only
  exact pieceA_m (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- A tile's first chunk leaves the sum stepped from the reset values. -/
private theorem compA_l (c : Dev nD) (t : Fin cfg0.N) (h0 : t.val % 25 = 0) (h1 : ¬t.val % 25 = 24) :
    (outsAt0 m c t.val t.isLt).2.2.2.2.1 = stepL (castH (hblk m c t)) (wblk m c t) resetM resetL := by
  rw [outsAt0_A m c t h0 h1]
  dsimp only
  exact pieceA_l (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- A tile's first chunk leaves the label logit stepped from the reset value. -/
private theorem compA_t (c : Dev nD) (t : Fin cfg0.N) (h0 : t.val % 25 = 0) (h1 : ¬t.val % 25 = 24) :
    (outsAt0 m c t.val t.isLt).2.2.2.2.2 = stepT (grid0.coords t) (castH (hblk m c t)) (wblk m c t) (tblk m c t) resetT := by
  rw [outsAt0_A m c t h0 h1]
  dsimp only
  exact pieceA_t (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- A middle chunk leaves the maximum stepped from what the point before left. -/
private theorem compB_m (c : Dev nD) (t : Fin cfg0.N) (h0 : ¬t.val % 25 = 0) (h1 : ¬t.val % 25 = 24) :
    (outsAt0 m c t.val t.isLt).2.2.2.1 = stepM (pH m c t) (wblk m c t) (pM m c t) := by
  rw [outsAt0_B m c t h0 h1]
  dsimp only
  exact pieceB_m (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (pH m c t) (pM m c t) (pL m c t) (pT m c t)

/-- A middle chunk leaves the sum stepped from what the point before left. -/
private theorem compB_l (c : Dev nD) (t : Fin cfg0.N) (h0 : ¬t.val % 25 = 0) (h1 : ¬t.val % 25 = 24) :
    (outsAt0 m c t.val t.isLt).2.2.2.2.1 = stepL (pH m c t) (wblk m c t) (pM m c t) (pL m c t) := by
  rw [outsAt0_B m c t h0 h1]
  dsimp only
  exact pieceB_l (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (pH m c t) (pM m c t) (pL m c t) (pT m c t)

/-- A middle chunk leaves the label logit stepped from what the point before left. -/
private theorem compB_t (c : Dev nD) (t : Fin cfg0.N) (h0 : ¬t.val % 25 = 0) (h1 : ¬t.val % 25 = 24) :
    (outsAt0 m c t.val t.isLt).2.2.2.2.2 = stepT (grid0.coords t) (pH m c t) (wblk m c t) (tblk m c t) (pT m c t) := by
  rw [outsAt0_B m c t h0 h1]
  dsimp only
  exact pieceB_t (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (pH m c t) (pM m c t) (pL m c t) (pT m c t)

/-- The last chunk leaves the maximum stepped from what the point before left. -/
private theorem compC_m (c : Dev nD) (t : Fin cfg0.N) (h0 : ¬t.val % 25 = 0) (h1 : t.val % 25 = 24) :
    (outsAt0 m c t.val t.isLt).2.2.2.1 = stepM (pH m c t) (wblk m c t) (pM m c t) := by
  rw [outsAt0_C m c t h0 h1]
  dsimp only
  exact pieceC_m (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (pH m c t) (pM m c t) (pL m c t) (pT m c t)

/-- The last chunk leaves the sum stepped from what the point before left. -/
private theorem compC_l (c : Dev nD) (t : Fin cfg0.N) (h0 : ¬t.val % 25 = 0) (h1 : t.val % 25 = 24) :
    (outsAt0 m c t.val t.isLt).2.2.2.2.1 = stepL (pH m c t) (wblk m c t) (pM m c t) (pL m c t) := by
  rw [outsAt0_C m c t h0 h1]
  dsimp only
  exact pieceC_l (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (pH m c t) (pM m c t) (pL m c t) (pT m c t)

/-- The last chunk leaves the label logit stepped from what the point before left. -/
private theorem compC_t (c : Dev nD) (t : Fin cfg0.N) (h0 : ¬t.val % 25 = 0) (h1 : t.val % 25 = 24) :
    (outsAt0 m c t.val t.isLt).2.2.2.2.2 = stepT (grid0.coords t) (pH m c t) (wblk m c t) (tblk m c t) (pT m c t) := by
  rw [outsAt0_C m c t h0 h1]
  dsimp only
  exact pieceC_t (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (pH m c t) (pM m c t) (pL m c t) (pT m c t)

/-- The last chunk leaves the row losses computed from what the point before left. -/
private theorem compC_loss (c : Dev nD) (t : Fin cfg0.N) (h0 : ¬t.val % 25 = 0) (h1 : t.val % 25 = 24) :
    (outsAt0 m c t.val t.isLt).1 = outLoss (grid0.coords t) (pH m c t) (wblk m c t) (tblk m c t) (pM m c t) (pL m c t) (pT m c t) := by
  rw [outsAt0_C m c t h0 h1]
  dsimp only
  exact pieceC_loss (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (pH m c t) (pM m c t) (pL m c t) (pT m c t)

/-- The last chunk leaves the row weights of the tile's labels. -/
private theorem compC_mask (c : Dev nD) (t : Fin cfg0.N) (h0 : ¬t.val % 25 = 0) (h1 : t.val % 25 = 24) :
    (outsAt0 m c t.val t.isLt).2.1 = outMask (tblk m c t) := by
  rw [outsAt0_C m c t h0 h1]
  dsimp only
  exact pieceC_mask (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (pH m c t) (pM m c t) (pL m c t) (pT m c t)

/-- A middle chunk leaves the activations scratch as the point before left it. -/
private theorem compB_h (c : Dev nD) (t : Fin cfg0.N) (h0 : ¬t.val % 25 = 0) (h1 : ¬t.val % 25 = 24) :
    (outsAt0 m c t.val t.isLt).2.2.1 = pH m c t := by
  rw [outsAt0_B m c t h0 h1]
  rfl

/-- The last chunk leaves the activations scratch as the point before left it. -/
private theorem compC_h (c : Dev nD) (t : Fin cfg0.N) (h0 : ¬t.val % 25 = 0) (h1 : t.val % 25 = 24) :
    (outsAt0 m c t.val t.isLt).2.2.1 = pH m c t := by
  rw [outsAt0_C m c t h0 h1]
  rfl

/-- The row tile of a point that is not a tile's first chunk is the row tile of the point before. -/
private theorem rowAt_pred (t : Fin cfg0.N) (hne : ¬t.val % 25 = 0) (hp : t.val - 1 < cfg0.N) (r : Fin 512) :
    rowAt ⟨t.val - 1, hp⟩ r = rowAt t r := by
  apply Fin.ext
  show 512 * ((t.val - 1) / 25) + r.val = 512 * (t.val / 25) + r.val
  omega

/-- One step of the walk in the specification's words: from the running numbers after the chunk before to the
    running numbers after this chunk, by the recursion equations of the running maximum, sum and label logit. -/
private theorem step_spec (c : Dev nD) (t : Fin cfg0.N) (hne : ¬t.val % 25 = 0) (hs : Vec Ideal S512x2048 .bf16)
    (mo lo tq : Vec Ideal S512x1 .f32)
    (hh : ∀ (r : Fin 512) (d : Fin 2048), hs (ix2 r d) = Harr m c (ix2 (rowAt t r) d))
    (hm : ∀ r : Fin 512, mo (ix2 r 0) = Cert.CE.mAt (xrow m c (rowAt t r)) ((t.val - 1) % 25))
    (hl : ∀ r : Fin 512, lo (ix2 r 0) = Cert.CE.lAt (xrow m c (rowAt t r)) ((t.val - 1) % 25))
    (ht : ∀ r : Fin 512, tq (ix2 r 0)
      = Cert.CE.tAt (xrow m c (rowAt t r)) (Tarr m c (ix2 (rowAt t r) 0)) ((t.val - 1) % 25)) (r : Fin 512) :
    stepM (F := Ideal) hs (wblk m c t) mo (ix2 r 0) = Cert.CE.mAt (xrow m c (rowAt t r)) (t.val % 25)
    ∧ stepL (F := Ideal) hs (wblk m c t) mo lo (ix2 r 0) = Cert.CE.lAt (xrow m c (rowAt t r)) (t.val % 25)
    ∧ stepT (F := Ideal) (grid0.coords t) hs (wblk m c t) (tblk m c t) tq (ix2 r 0)
        = Cert.CE.tAt (xrow m c (rowAt t r)) (Tarr m c (ix2 (rowAt t r) 0)) (t.val % 25) := by
  obtain ⟨k, hk⟩ : ∃ k, t.val % 25 = k + 1 := ⟨t.val % 25 - 1, by omega⟩
  have hk' : (t.val - 1) % 25 = k := by omega
  have hM : stepM (F := Ideal) hs (wblk m c t) mo (ix2 r 0) = Cert.CE.mAt (xrow m c (rowAt t r)) (t.val % 25) := by
    rw [stepM_spec m c t hs hh mo r, hm r, hk', hk]
    rfl
  refine ⟨hM, ?_, ?_⟩
  · rw [stepL_spec m c t hs hh mo lo r, hM, hm r, hl r, hk', hk]
    rfl
  · rw [stepT_spec m c t hs hh tq r, ht r, hk', hk]
    rfl

/-- The first step of the walk: from the reset values to the running numbers after chunk 0. -/
private theorem first_spec (c : Dev nD) (t : Fin cfg0.N) (h0 : t.val % 25 = 0) (hs : Vec Ideal S512x2048 .bf16)
    (hh : ∀ (r : Fin 512) (d : Fin 2048), hs (ix2 r d) = Harr m c (ix2 (rowAt t r) d)) (r : Fin 512) :
    stepM (F := Ideal) hs (wblk m c t) resetM (ix2 r 0) = Cert.CE.mAt (xrow m c (rowAt t r)) (t.val % 25)
    ∧ stepL (F := Ideal) hs (wblk m c t) resetM resetL (ix2 r 0) = Cert.CE.lAt (xrow m c (rowAt t r)) (t.val % 25)
    ∧ stepT (F := Ideal) (grid0.coords t) hs (wblk m c t) (tblk m c t) resetT (ix2 r 0)
        = Cert.CE.tAt (xrow m c (rowAt t r)) (Tarr m c (ix2 (rowAt t r) 0)) (t.val % 25) := by
  have hM : stepM (F := Ideal) hs (wblk m c t) resetM (ix2 r 0) = Cert.CE.mAt (xrow m c (rowAt t r)) (t.val % 25) := by
    rw [stepM_spec m c t hs hh resetM r, resetM_apply, h0]
    rfl
  refine ⟨hM, ?_, ?_⟩
  · rw [stepL_spec m c t hs hh resetM resetL r, hM, resetM_apply, resetL_apply, h0]
    rfl
  · rw [stepT_spec m c t hs hh resetT r, resetT_apply, h0]
    rfl

/-- What the four carried buffers hold after a point, in the specification's words. -/
private def Inv (c : Dev nD) (t : Fin cfg0.N) : Prop :=
  (∀ (r : Fin 512) (d : Fin 2048), (outsAt0 m c t.val t.isLt).2.2.1 (ix2 r d) = Harr m c (ix2 (rowAt t r) d))
  ∧ (∀ r : Fin 512, (outsAt0 m c t.val t.isLt).2.2.2.1 (ix2 r 0) = Cert.CE.mAt (xrow m c (rowAt t r)) (t.val % 25))
  ∧ (∀ r : Fin 512, (outsAt0 m c t.val t.isLt).2.2.2.2.1 (ix2 r 0) = Cert.CE.lAt (xrow m c (rowAt t r)) (t.val % 25))
  ∧ (∀ r : Fin 512, (outsAt0 m c t.val t.isLt).2.2.2.2.2 (ix2 r 0)
      = Cert.CE.tAt (xrow m c (rowAt t r)) (Tarr m c (ix2 (rowAt t r) 0)) (t.val % 25))

/-- The narrowed activations block is the tile's rows of the activations (narrowing is the identity over the extended reals). -/
private theorem castH_rows (c : Dev nD) (t : Fin cfg0.N) (r : Fin 512) (d : Fin 2048) :
    castH (F := Ideal) (hblk m c t) (ix2 r d) = Harr m c (ix2 (rowAt t r) d) := by
  rw [castH_apply, hblk_apply]

/-- At a tile's first chunk the invariant holds outright. -/
private theorem inv_first (c : Dev nD) (t : Fin cfg0.N) (h0 : t.val % 25 = 0) : Inv m c t := by
  have h1 : ¬t.val % 25 = 24 := by omega
  refine ⟨fun r d => ?_, fun r => ?_, fun r => ?_, fun r => ?_⟩
  · rw [compA_h m c t h0 h1]
    exact castH_rows m c t r d
  · rw [compA_m m c t h0 h1]
    exact (first_spec m c t h0 (castH (hblk m c t)) (castH_rows m c t) r).1
  · rw [compA_l m c t h0 h1]
    exact (first_spec m c t h0 (castH (hblk m c t)) (castH_rows m c t) r).2.1
  · rw [compA_t m c t h0 h1]
    exact (first_spec m c t h0 (castH (hblk m c t)) (castH_rows m c t) r).2.2

/-- What the point before left, in the words of this point's row tile. -/
private theorem prev_spec (c : Dev nD) (t : Fin cfg0.N) (h0 : ¬t.val % 25 = 0)
    (ih : Inv m c ⟨t.val - 1, Nat.lt_of_le_of_lt (Nat.sub_le _ _) t.isLt⟩) :
    (∀ (r : Fin 512) (d : Fin 2048), pH m c t (ix2 r d) = Harr m c (ix2 (rowAt t r) d))
    ∧ (∀ r : Fin 512, pM m c t (ix2 r 0) = Cert.CE.mAt (xrow m c (rowAt t r)) ((t.val - 1) % 25))
    ∧ (∀ r : Fin 512, pL m c t (ix2 r 0) = Cert.CE.lAt (xrow m c (rowAt t r)) ((t.val - 1) % 25))
    ∧ (∀ r : Fin 512, pT m c t (ix2 r 0)
        = Cert.CE.tAt (xrow m c (rowAt t r)) (Tarr m c (ix2 (rowAt t r) 0)) ((t.val - 1) % 25)) := by
  obtain ⟨ih1, ih2, ih3, ih4⟩ := ih
  refine ⟨fun r d => ?_, fun r => ?_, fun r => ?_, fun r => ?_⟩
  · have e := ih1 r d
    rw [rowAt_pred t h0 _ r] at e
    exact e
  · have e := ih2 r
    rw [rowAt_pred t h0 _ r] at e
    exact e
  · have e := ih3 r
    rw [rowAt_pred t h0 _ r] at e
    exact e
  · have e := ih4 r
    rw [rowAt_pred t h0 _ r] at e
    exact e

/-- At any other chunk the invariant follows from the invariant at the point before. -/
private theorem inv_next (c : Dev nD) (t : Fin cfg0.N) (h0 : ¬t.val % 25 = 0)
    (ih : Inv m c ⟨t.val - 1, Nat.lt_of_le_of_lt (Nat.sub_le _ _) t.isLt⟩) : Inv m c t := by
  obtain ⟨ph, pm, pl, pt⟩ := prev_spec m c t h0 ih
  by_cases h1 : t.val % 25 = 24
  · refine ⟨fun r d => ?_, fun r => ?_, fun r => ?_, fun r => ?_⟩
    · rw [compC_h m c t h0 h1]
      exact ph r d
    · rw [compC_m m c t h0 h1]
      exact (step_spec m c t h0 (pH m c t) (pM m c t) (pL m c t) (pT m c t) ph pm pl pt r).1
    · rw [compC_l m c t h0 h1]
      exact (step_spec m c t h0 (pH m c t) (pM m c t) (pL m c t) (pT m c t) ph pm pl pt r).2.1
    · rw [compC_t m c t h0 h1]
      exact (step_spec m c t h0 (pH m c t) (pM m c t) (pL m c t) (pT m c t) ph pm pl pt r).2.2
  · refine ⟨fun r d => ?_, fun r => ?_, fun r => ?_, fun r => ?_⟩
    · rw [compB_h m c t h0 h1]
      exact ph r d
    · rw [compB_m m c t h0 h1]
      exact (step_spec m c t h0 (pH m c t) (pM m c t) (pL m c t) (pT m c t) ph pm pl pt r).1
    · rw [compB_l m c t h0 h1]
      exact (step_spec m c t h0 (pH m c t) (pM m c t) (pL m c t) (pT m c t) ph pm pl pt r).2.1
    · rw [compB_t m c t h0 h1]
      exact (step_spec m c t h0 (pH m c t) (pM m c t) (pL m c t) (pT m c t) ph pm pl pt r).2.2

/-- The invariant at every point, by induction on the point. -/
private theorem inv_all (c : Dev nD) : ∀ (n : ℕ) (h : n < cfg0.N), Inv m c ⟨n, h⟩ := by
  intro n
  induction n using Nat.strong_induction_on with
  | _ n ih =>
    intro h
    by_cases h0 : n % 25 = 0
    · exact inv_first m c ⟨n, h⟩ h0
    · exact inv_next m c ⟨n, h⟩ h0 (ih (n - 1) (by omega) _)

/-- After any point the activations scratch holds the tile's rows of the activations. -/
theorem inv_h (c : Dev nD) (t : Fin cfg0.N) (r : Fin 512) (d : Fin 2048) :
    (outsAt0 m c t.val t.isLt).2.2.1 (ix2 r d) = Harr m c (ix2 (rowAt t r) d) :=
  (inv_all m c t.val t.isLt).1 r d

/-- After point `t` the maximum scratch holds the running maximum after chunk `t % 25`. -/
theorem inv_m (c : Dev nD) (t : Fin cfg0.N) (r : Fin 512) :
    (outsAt0 m c t.val t.isLt).2.2.2.1 (ix2 r 0) = Cert.CE.mAt (xrow m c (rowAt t r)) (t.val % 25) :=
  (inv_all m c t.val t.isLt).2.1 r

/-- After point `t` the sum scratch holds the running sum after chunk `t % 25`. -/
theorem inv_l (c : Dev nD) (t : Fin cfg0.N) (r : Fin 512) :
    (outsAt0 m c t.val t.isLt).2.2.2.2.1 (ix2 r 0) = Cert.CE.lAt (xrow m c (rowAt t r)) (t.val % 25) :=
  (inv_all m c t.val t.isLt).2.2.1 r

/-- After point `t` the label-logit scratch holds the label logit accumulated through chunk `t % 25`. -/
theorem inv_t (c : Dev nD) (t : Fin cfg0.N) (r : Fin 512) :
    (outsAt0 m c t.val t.isLt).2.2.2.2.2 (ix2 r 0)
      = Cert.CE.tAt (xrow m c (rowAt t r)) (Tarr m c (ix2 (rowAt t r) 0)) (t.val % 25) :=
  (inv_all m c t.val t.isLt).2.2.2 r

/-- At a tile's last chunk the first output holds the row losses. -/
theorem out_loss_at (c : Dev nD) (t : Fin cfg0.N) (h24 : t.val % 25 = 24) (r : Fin 512) :
    (outsAt0 m c t.val t.isLt).1 (ix2 r 0) = Cert.CE.nllK (xrow m c (rowAt t r)) (Tarr m c (ix2 (rowAt t r) 0)) := by
  have h0 : ¬t.val % 25 = 0 := by omega
  obtain ⟨ph, pm, pl, pt⟩ := prev_spec m c t h0 (inv_all m c (t.val - 1) _)
  obtain ⟨hM, hL, hT⟩ := step_spec m c t h0 (pH m c t) (pM m c t) (pL m c t) (pT m c t) ph pm pl pt r
  rw [compC_loss m c t h0 h24, outLoss_apply, tblk_apply m c t r, hM, hL, hT, h24]
  rfl

/-- At a tile's last chunk the second output holds the row weights. -/
theorem out_mask_at (c : Dev nD) (t : Fin cfg0.N) (h24 : t.val % 25 = 24) (r : Fin 512) :
    (outsAt0 m c t.val t.isLt).2.1 (ix2 r 0) = Cert.CE.maskK (Tarr m c (ix2 (rowAt t r) 0)) := by
  have h0 : ¬t.val % 25 = 0 := by omega
  rw [compC_mask m c t h0 h24, outMask_apply, tblk_apply m c t r]

end Cert.KernelIdeal.KV

end
-- ==== Proof.KArrays.lean ====
/-
  The two result arrays of the region. Each output window's block at a point is the point's row tile; the window is
  written back exactly at a tile's last chunk, and the sixteen tiles cover the 8192 rows. So after the region the
  first result array holds every row's loss and the second every row's weight.
-/
import proofs.«410234_j46651934769795_3_alg».proof.Proof.KInv

noncomputable section

namespace Cert.KernelIdeal.KV

open Idealize.ShloMosaic Idealize.ShloMosaic.TcCoe Idealize.SL.Sem Cert.KernelIdeal Cert.KernelIdeal.Gen ValueIdx
open Idealize.ShloMosaic.Pipeline (Dat)

variable (m : (ℓ : Loc nD τ sig) → Buf (Elt Ideal) ℓ)

/-- Every row's loss, as the first result array. -/
def lossArr (c : Dev nD) : Vec Ideal S8192x1 .f32 :=
  fun i => Cert.CE.nllK (xrow m c ⟨(i 0).val, (i 0).isLt⟩) (Tarr m c (ix2 ⟨(i 0).val, (i 0).isLt⟩ 0))

/-- Every row's weight, as the second result array. -/
def maskArr (c : Dev nD) : Vec Ideal S8192x1 .f32 :=
  fun i => Cert.CE.maskK (Tarr m c (ix2 ⟨(i 0).val, (i 0).isLt⟩ 0))

/-- Where the first output's block sits in its array: at grid point `t` it is block `t / 25` along the rows (the
    point's row tile) and block 0 along the single column. -/
theorem idx_loss : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)

/-- What a tile's last chunk writes back to the first result array is the tile's block of the row losses: the block is
    whole (512 rows of one column, none cut off), its row `r` is row `512 · (t / 25) + r` of the array, and there the
    output buffer holds that row's value. -/
theorem flushed_loss (c : Dev nD) (t : Fin cfg0.N) (hf : (cfg0.win 3).flush t = true) :
    (dats m 0 c).flushed 3 t = ((cfg0.win 3).blk t).view.read (Elt Ideal) (lossArr m c) := by
  have h24 : t.val % 25 = 24 := (flush0_3 t).mp hf
  show (cfg0.win 3).cut (grid0.coords t) ((dats m 0 c).after 3 t) = _
  rw [after0_3]
  funext y
  obtain ⟨r, z, rfl⟩ : ∃ (r : Fin 512) (z : Fin 1), y = ix2 r z := ⟨y 0, y 1, eq_ix2 y⟩
  obtain rfl : z = 0 := Subsingleton.elim _ _
  -- the block is not cut, so an index of what is written back is the same index of the output buffer
  have hin : (cfg0.win 3).xinj (grid0.coords t) (ix2 r 0) = ix2 r 0 :=
    funext fun a => by match a with | ⟨0, _⟩ => rfl | ⟨1, _⟩ => rfl
  show (outsAt0 m c t.val t.isLt).1 ((cfg0.win 3).xinj (grid0.coords t) (ix2 r 0))
    = lossArr m c (((cfg0.win 3).blk t).view.emb (ix2 r 0))
  rw [hin, out_loss_at m c t h24 r]
  -- row `r` of the block is row `512 · (t / 25) + r` of the array
  have hrow : (⟨((((cfg0.win 3).blk t).view.emb (ix2 r 0)) 0).val,
      ((((cfg0.win 3).blk t).view.emb (ix2 r 0)) 0).isLt⟩ : Fin 8192) = rowAt t r := by
    apply Fin.ext
    show win0_3.index t (0 : Fin 2) * 512 + 1 * r.val = 512 * (t.val / 25) + r.val
    rw [(idx_loss t).1]; omega
  unfold lossArr
  rw [hrow]

/-- Every index of the first result array lies in a block that is written back: row `n` is in row tile `n / 512`,
    whose block is written back at the tile's last chunk, grid point `25 · (n / 512) + 24`. -/
theorem cover_loss (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 400 := N_0
  let t : Fin cfg0.N := ⟨25 * ((i 0).val / 512) + 24, by rw [hN]; omega⟩
  have ht : t.val = 25 * ((i 0).val / 512) + 24 := rfl
  refine ⟨t, (flush0_3 t).mpr (by rw [ht]; omega), ?_⟩
  show i ∈ ((View.whole main_v4_0).slice (win0_3.rect t)).set
  rw [View.set_slice_whole, Rect.mem_set_unit]
  obtain ⟨e0, e1⟩ := idx_loss t
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1 ≤ (i 1).val ∧ (i 1).val < win0_3.index t (1 : Fin 2) * 1 + 1
    rw [e1]; omega

/-- Where the second output's block sits in its array: at grid point `t` it is block `t / 25` along the rows (the
    point's row tile) and block 0 along the single column. -/
theorem idx_mask : ∀ t : Fin cfg0.N, win0_4.index t (0 : Fin 2) = t.val / 25 ∧ win0_4.index t (1 : Fin 2) = 0 :=
  (by decide +kernel : ∀ t : Fin grid0.N, win0_4.index t (0 : Fin 2) = t.val / 25 ∧ win0_4.index t (1 : Fin 2) = 0)

/-- What a tile's last chunk writes back to the second result array is the tile's block of the row weights: the block is
    whole (512 rows of one column, none cut off), its row `r` is row `512 · (t / 25) + r` of the array, and there the
    output buffer holds that row's value. -/
theorem flushed_mask (c : Dev nD) (t : Fin cfg0.N) (hf : (cfg0.win 4).flush t = true) :
    (dats m 0 c).flushed 4 t = ((cfg0.win 4).blk t).view.read (Elt Ideal) (maskArr m c) := by
  have h24 : t.val % 25 = 24 := (flush0_4 t).mp hf
  show (cfg0.win 4).cut (grid0.coords t) ((dats m 0 c).after 4 t) = _
  rw [after0_4]
  funext y
  obtain ⟨r, z, rfl⟩ : ∃ (r : Fin 512) (z : Fin 1), y = ix2 r z := ⟨y 0, y 1, eq_ix2 y⟩
  obtain rfl : z = 0 := Subsingleton.elim _ _
  -- the block is not cut, so an index of what is written back is the same index of the output buffer
  have hin : (cfg0.win 4).xinj (grid0.coords t) (ix2 r 0) = ix2 r 0 :=
    funext fun a => by match a with | ⟨0, _⟩ => rfl | ⟨1, _⟩ => rfl
  show (outsAt0 m c t.val t.isLt).2.1 ((cfg0.win 4).xinj (grid0.coords t) (ix2 r 0))
    = maskArr m c (((cfg0.win 4).blk t).view.emb (ix2 r 0))
  rw [hin, out_mask_at m c t h24 r]
  -- row `r` of the block is row `512 · (t / 25) + r` of the array
  have hrow : (⟨((((cfg0.win 4).blk t).view.emb (ix2 r 0)) 0).val,
      ((((cfg0.win 4).blk t).view.emb (ix2 r 0)) 0).isLt⟩ : Fin 8192) = rowAt t r := by
    apply Fin.ext
    show win0_4.index t (0 : Fin 2) * 512 + 1 * r.val = 512 * (t.val / 25) + r.val
    rw [(idx_mask t).1]; omega
  unfold maskArr
  rw [hrow]

/-- Every index of the second result array lies in a block that is written back: row `n` is in row tile `n / 512`,
    whose block is written back at the tile's last chunk, grid point `25 · (n / 512) + 24`. -/
theorem cover_mask (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 400 := N_0
  let t : Fin cfg0.N := ⟨25 * ((i 0).val / 512) + 24, by rw [hN]; omega⟩
  have ht : t.val = 25 * ((i 0).val / 512) + 24 := rfl
  refine ⟨t, (flush0_4 t).mpr (by rw [ht]; omega), ?_⟩
  show i ∈ ((View.whole main_v4_1).slice (win0_4.rect t)).set
  rw [View.set_slice_whole, Rect.mem_set_unit]
  obtain ⟨e0, e1⟩ := idx_mask t
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 1 ≤ (i 1).val ∧ (i 1).val < win0_4.index t (1 : Fin 2) * 1 + 1
    rw [e1]; omega

/-- After the region the first result array holds the row losses. -/
theorem final_loss (c : Dev nD) : (dats m 0 c).arrAt 3 cfg0.N = lossArr m c := by
  exact (dats m 0 c).arrAt_eq_of_cover 3 (lossArr m c) (fun t hf => flushed_loss m c t hf) cover_loss

/-- After the region the second result array holds the row weights. -/
theorem final_mask (c : Dev nD) : (dats m 0 c).arrAt 4 cfg0.N = maskArr m c := by
  exact (dats m 0 c).arrAt_eq_of_cover 4 (maskArr m c) (fun t hf => flushed_mask m c t hf) cover_mask

end Cert.KernelIdeal.KV

end
-- ==== Proof.KTail.lean ====
/-
  The kernel's program, run: after the region its two result arrays are summed on the host, and the program returns
  the summed losses over the summed weights when that is positive, else the summed losses. Read off the frame run:
  the result is the specification's chunked-walk mean of the row logits and the row labels.
-/
import proofs.«410234_j46651934769795_3_alg».proof.Proof.KArrays
import Idealize.ShloMosaic.Lib.StableHlo.Run
import Idealize.ShloMosaic.PureOps.Ideal.Laws

noncomputable section

namespace Cert.KernelIdeal.KV

open Idealize.ShloMosaic Idealize.ShloMosaic.TcCoe Idealize.SL.Sem Cert.KernelIdeal Cert.KernelIdeal.Gen ValueIdx
open Idealize.ShloMosaic.Pipeline (Dat)

variable (m : (ℓ : Loc nD τ sig) → Buf (Elt Ideal) ℓ) (ρ : Dev nD → PrngReg)

/-- Row `n`'s label. -/
def tgRow (c : Dev nD) (n : Fin 8192) : BitVec 32 := Tarr m c (ix2 n 0)

/-! ## The arrays the region finds, from the four host operations before it -/

/-- The activations the region finds are the argument reshaped to 8192 rows. -/
theorem Harr_eq (c : Dev nD) :
    Harr m c = shapeCast S8192x2048 (m ((c.tc : Thread nD τ).loc main_arg0)) shapeCasts_S4x2048x2048_S8192x2048 := by
  show StableHlo.after hostOps0 (fun b => m (c, b)) (Proc.devRef .tc main_v0) = _
  after_results <;> rfl

/-- The weights the region finds are the argument's, entry by entry (narrowing is the identity on extended reals). -/
theorem Warr_eq (c : Dev nD) (i : S32000x2048.Idx) : Warr m c i = m ((c.tc : Thread nD τ).loc main_arg1) i := by
  have e : (Warr m c : FVec Ideal S32000x2048 .bf16)
      = truncf (F := Ideal) .bf16 (m ((c.tc : Thread nD τ).loc main_arg1) : FVec Ideal S32000x2048 .f32) bitsLt_bf16_f32 := by
    show StableHlo.after hostOps0 (fun b => m (c, b)) (Proc.devRef .tc main_v3) = _
    after_results <;> rfl
  exact congrFun e i

/-- The labels the region finds are the argument flattened to 8192 entries, then stood up as one column. -/
theorem Tarr_eq (c : Dev nD) :
    Tarr m c = shapeCast S8192x1 (shapeCast S8192 (m ((c.tc : Thread nD τ).loc main_arg2)) shapeCasts_S4x2048_S8192)
      shapeCasts_S8192_S8192x1 := by
  show StableHlo.after hostOps0 (fun b => m (c, b)) (Proc.devRef .tc main_v2) = _
  after_results <;> rfl

/-- Row `n`'s label is entry `n` of the labels argument flattened: the column's entry `(n, 0)` is the flat entry `n`. -/
theorem tgRow_eq (c : Dev nD) (n : Fin 8192) :
    tgRow m c n = shapeCast S8192 (m ((c.tc : Thread nD τ).loc main_arg2)) shapeCasts_S4x2048_S8192 (ix1 n) := by
  unfold tgRow
  rw [Tarr_eq]
  exact shapeCast_apply _ shapeCasts_S8192_S8192x1 (ix2 n 0) (ix1 n)
    (by rewrite [Shape.rowMajor_val_two, Shape.rowMajor_val_one]; show n.val = n.val * 1 + 0; omega)

/-! ## The host operations after the region -/

/-- A sum over the one-column index set is the sum over its rows. -/
theorem sum_col (f : S8192x1.Idx → EReal) : ∑ i : S8192x1.Idx, f i = ∑ n : Fin 8192, f (ix2 n 0) := by
  rw [sum_idx2]
  exact Finset.sum_congr rfl fun n _ => Fin.sum_univ_one _

/-- The host's sum of the row losses: zero plus the sum over the rows. -/
theorem sum_loss (c : Dev nD) (i : S_.Idx) :
    Host.reduceAdd (F := Ideal) (lossArr m c) (constant S_ .f32 0x00000000#32) reducesTo_S8192x1_S_d0_1 h_S_ i
      = 0 + ∑ n : Fin 8192, Cert.CE.nllK (xrow m c n) (tgRow m c n) := by
  simp only [Host.reduceAdd, Ideal.hostReduceAdd_def]
  rw [Ideal.hostReduceAdd_total reducesTo_S8192x1_S_d0_1 (fun b => b.elim0) (lossArr m c) _ i, constant_apply,
    Ideal.ofBits_zero_f32, sum_col]
  rfl

/-- The host's sum of the row weights: zero plus the sum over the rows. -/
theorem sum_mask (c : Dev nD) (i : S_.Idx) :
    Host.reduceAdd (F := Ideal) (maskArr m c) (constant S_ .f32 0x00000000#32) reducesTo_S8192x1_S_d0_1 h_S_ i
      = 0 + ∑ n : Fin 8192, Cert.CE.maskK (tgRow m c n) := by
  simp only [Host.reduceAdd, Ideal.hostReduceAdd_def]
  rw [Ideal.hostReduceAdd_total reducesTo_S8192x1_S_d0_1 (fun b => b.elim0) (maskArr m c) _ i, constant_apply,
    Ideal.ofBits_zero_f32, sum_col]
  rfl

/-- What the host operations after the region leave in the result, over the two result arrays of the region. -/
theorem tail_value (c : Dev nD) :
    Pipeline.afterTail₀ cfgs (dats m) 0 (V0 m) [hostOps1, hostOps1_1] c main_v9
      = fun _ => Cert.CE.finalK (xrow m c) (tgRow m c) := by
  unfold Pipeline.afterTail₀
  simp only [hostOps1, hostOps1_1, List.flatten_cons, List.flatten_nil, List.append_nil, List.cons_append, List.nil_append]
  after_results
  rw [Pipeline.withArrays_arr spec0 launch0.win.arr_inj c _ _ 3, Pipeline.withArrays_arr spec0 launch0.win.arr_inj c _ _ 4,
    final_loss m c, final_mask m c]
  simp only [StableHlo.TRef.ofBuf, StableHlo.TRef.toBuf, cast_eq]
  funext i
  rw [select_apply, cmpf_apply, Ideal.cmpf_def]
  show Scalar.select _ (Ideal.div _ _) _ = _
  rw [sum_loss m c i, sum_mask m c i, constant_apply, Ideal.ofBits_zero_f32]
  first | rfl | (unfold Cert.CE.finalK Scalar.select; rfl)

/-- Every weakly fair execution of the kernel's program ends with its result at the chunked-walk mean, the arguments
    unchanged. -/
theorem run_value : θ_run defs (onTc (τ := τ) (main (F := Ideal))) ⟨m, fun _ => 0, ρ⟩ (fun r => ∀ c : Dev nD,
      r.2.mem ((c.tc : Thread nD τ).loc main_v9) = (fun _ => Cert.CE.finalK (xrow m c) (tgRow m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.RefCasts.lean ====
/-
  A value of an inlined function is held in a buffer whose declared type is, by computation, the value's type;
  contents moved to the buffer's type, or back from it, are therefore the contents themselves. One pair of facts
  per such buffer of the reference program, each by computation, and a tactic that rewrites with all of them.
-/
import proofs.«410234_j46651934769795_3_alg».proof.Proof.Gen.ReferenceIdeal
import Idealize.ShloMosaic.Lib.StableHlo.Run

noncomputable section

namespace Cert.ReferenceIdeal.Casts

open Cert.ReferenceIdeal Cert.ReferenceIdeal.Gen Idealize.ShloMosaic Idealize.ShloMosaic.TcCoe Idealize.SL.Sem Idealize.ShloMosaic.StableHlo

variable {F : FTy → Type} [FloatOps F]

theorem toBuf_main_call0_cst (h : main_call0_cst.ty = ⟨S_, .f32⟩) (o : main_call0_cst.space ≠ .host) (u : main_call0_cst.isScoped = false) (v : (⟨S_, .f32⟩ : BufTy).Contents (Elt F)) :
    (TRef.of (T := ⟨S_, .f32⟩) main_call0_cst h o u).toBuf v = v := rfl
theorem ofBuf_main_call0_cst (h : main_call0_cst.ty = ⟨S_, .f32⟩) (o : main_call0_cst.space ≠ .host) (u : main_call0_cst.isScoped = false) (v : (⟨S_, .f32⟩ : BufTy).Contents (Elt F)) :
    (TRef.of (T := ⟨S_, .f32⟩) main_call0_cst h o u).ofBuf v = v := rfl
theorem toBuf_main_v4 (h : main_v4.ty = ⟨S8192x32000, .f32⟩) (o : main_v4.space ≠ .host) (u : main_v4.isScoped = false) (v : (⟨S8192x32000, .f32⟩ : BufTy).Contents (Elt F)) :
    (TRef.of (T := ⟨S8192x32000, .f32⟩) main_v4 h o u).toBuf v = v := rfl
theorem ofBuf_main_v4 (h : main_v4.ty = ⟨S8192x32000, .f32⟩) (o : main_v4.space ≠ .host) (u : main_v4.isScoped = false) (v : (⟨S8192x32000, .f32⟩ : BufTy).Contents (Elt F)) :
    (TRef.of (T := ⟨S8192x32000, .f32⟩) main_v4 h o u).ofBuf v = v := rfl
theorem toBuf_main_call0_v0 (h : main_call0_v0.ty = ⟨S8192, .f32⟩) (o : main_call0_v0.space ≠ .host) (u : main_call0_v0.isScoped = false) (v : (⟨S8192, .f32⟩ : BufTy).Contents (Elt F)) :
    (TRef.of (T := ⟨S8192, .f32⟩) main_call0_v0 h o u).toBuf v = v := rfl
theorem ofBuf_main_call0_v0 (h : main_call0_v0.ty = ⟨S8192, .f32⟩) (o : main_call0_v0.space ≠ .host) (u : main_call0_v0.isScoped = false) (v : (⟨S8192, .f32⟩ : BufTy).Contents (Elt F)) :
    (TRef.of (T := ⟨S8192, .f32⟩) main_call0_v0 h o u).ofBuf v = v := rfl
theorem toBuf_main_call0_cst_0 (h : main_call0_cst_0.ty = ⟨S_, .f32⟩) (o : main_call0_cst_0.space ≠ .host) (u : main_call0_cst_0.isScoped = false) (v : (⟨S_, .f32⟩ : BufTy).Contents (Elt F)) :
    (TRef.of (T := ⟨S_, .f32⟩) main_call0_cst_0 h o u).toBuf v = v := rfl
theorem ofBuf_main_call0_cst_0 (h : main_call0_cst_0.ty = ⟨S_, .f32⟩) (o : main_call0_cst_0.space ≠ .host) (u : main_call0_cst_0.isScoped = false) (v : (⟨S_, .f32⟩ : BufTy).Contents (Elt F)) :
    (TRef.of (T := ⟨S_, .f32⟩) main_call0_cst_0 h o u).ofBuf v = v := rfl
theorem toBuf_main_call0_v1 (h : main_call0_v1.ty = ⟨S8192, .f32⟩) (o : main_call0_v1.space ≠ .host) (u : main_call0_v1.isScoped = false) (v : (⟨S8192, .f32⟩ : BufTy).Contents (Elt F)) :
    (TRef.of (T := ⟨S8192, .f32⟩) main_call0_v1 h o u).toBuf v = v := rfl
theorem ofBuf_main_call0_v1 (h : main_call0_v1.ty = ⟨S8192, .f32⟩) (o : main_call0_v1.space ≠ .host) (u : main_call0_v1.isScoped = false) (v : (⟨S8192, .f32⟩ : BufTy).Contents (Elt F)) :
    (TRef.of (T := ⟨S8192, .f32⟩) main_call0_v1 h o u).ofBuf v = v := rfl
theorem toBuf_main_call0_v2 (h : main_call0_v2.ty = ⟨S8192, .f32⟩) (o : main_call0_v2.space ≠ .host) (u : main_call0_v2.isScoped = false) (v : (⟨S8192, .f32⟩ : BufTy).Contents (Elt F)) :
    (TRef.of (T := ⟨S8192, .f32⟩) main_call0_v2 h o u).toBuf v = v := rfl
theorem ofBuf_main_call0_v2 (h : main_call0_v2.ty = ⟨S8192, .f32⟩) (o : main_call0_v2.space ≠ .host) (u : main_call0_v2.isScoped = false) (v : (⟨S8192, .f32⟩ : BufTy).Contents (Elt F)) :
    (TRef.of (T := ⟨S8192, .f32⟩) main_call0_v2 h o u).ofBuf v = v := rfl
theorem toBuf_main_call0_v3 (h : main_call0_v3.ty = ⟨S8192x1, .f32⟩) (o : main_call0_v3.space ≠ .host) (u : main_call0_v3.isScoped = false) (v : (⟨S8192x1, .f32⟩ : BufTy).Contents (Elt F)) :
    (TRef.of (T := ⟨S8192x1, .f32⟩) main_call0_v3 h o u).toBuf v = v := rfl
theorem ofBuf_main_call0_v3 (h : main_call0_v3.ty = ⟨S8192x1, .f32⟩) (o : main_call0_v3.space ≠ .host) (u : main_call0_v3.isScoped = false) (v : (⟨S8192x1, .f32⟩ : BufTy).Contents (Elt F)) :
    (TRef.of (T := ⟨S8192x1, .f32⟩) main_call0_v3 h o u).ofBuf v = v := rfl
theorem toBuf_main_call0_v4 (h : main_call0_v4.ty = ⟨S8192x32000, .f32⟩) (o : main_call0_v4.space ≠ .host) (u : main_call0_v4.isScoped = false) (v : (⟨S8192x32000, .f32⟩ : BufTy).Contents (Elt F)) :
    (TRef.of (T := ⟨S8192x32000, .f32⟩) main_call0_v4 h o u).toBuf v = v := rfl
theorem ofBuf_main_call0_v4 (h : main_call0_v4.ty = ⟨S8192x32000, .f32⟩) (o : main_call0_v4.space ≠ .host) (u : main_call0_v4.isScoped = false) (v : (⟨S8192x32000, .f32⟩ : BufTy).Contents (Elt F)) :
    (TRef.of (T := ⟨S8192x32000, .f32⟩) main_call0_v4 h o u).ofBuf v = v := rfl
theorem toBuf_main_call0_v5 (h : main_call0_v5.ty = ⟨S8192x32000, .f32⟩) (o : main_call0_v5.space ≠ .host) (u : main_call0_v5.isScoped = false) (v : (⟨S8192x32000, .f32⟩ : BufTy).Contents (Elt F)) :
    (TRef.of (T := ⟨S8192x32000, .f32⟩) main_call0_v5 h o u).toBuf v = v := rfl
theorem ofBuf_main_call0_v5 (h : main_call0_v5.ty = ⟨S8192x32000, .f32⟩) (o : main_call0_v5.space ≠ .host) (u : main_call0_v5.isScoped = false) (v : (⟨S8192x32000, .f32⟩ : BufTy).Contents (Elt F)) :
    (TRef.of (T := ⟨S8192x32000, .f32⟩) main_call0_v5 h o u).ofBuf v = v := rfl
theorem toBuf_main_call0_v6 (h : main_call0_v6.ty = ⟨S8192x32000, .f32⟩) (o : main_call0_v6.space ≠ .host) (u : main_call0_v6.isScoped = false) (v : (⟨S8192x32000, .f32⟩ : BufTy).Contents (Elt F)) :
    (TRef.of (T := ⟨S8192x32000, .f32⟩) main_call0_v6 h o u).toBuf v = v := rfl
theorem ofBuf_main_call0_v6 (h : main_call0_v6.ty = ⟨S8192x32000, .f32⟩) (o : main_call0_v6.space ≠ .host) (u : main_call0_v6.isScoped = false) (v : (⟨S8192x32000, .f32⟩ : BufTy).Contents (Elt F)) :
    (TRef.of (T := ⟨S8192x32000, .f32⟩) main_call0_v6 h o u).ofBuf v = v := rfl
theorem toBuf_main_call0_cst_1 (h : main_call0_cst_1.ty = ⟨S_, .f32⟩) (o : main_call0_cst_1.space ≠ .host) (u : main_call0_cst_1.isScoped = false) (v : (⟨S_, .f32⟩ : BufTy).Contents (Elt F)) :
    (TRef.of (T := ⟨S_, .f32⟩) main_call0_cst_1 h o u).toBuf v = v := rfl
theorem ofBuf_main_call0_cst_1 (h : main_call0_cst_1.ty = ⟨S_, .f32⟩) (o : main_call0_cst_1.space ≠ .host) (u : main_call0_cst_1.isScoped = false) (v : (⟨S_, .f32⟩ : BufTy).Contents (Elt F)) :
    (TRef.of (T := ⟨S_, .f32⟩) main_call0_cst_1 h o u).ofBuf v = v := rfl
theorem toBuf_main_call0_v7 (h : main_call0_v7.ty = ⟨S8192, .f32⟩) (o : main_call0_v7.space ≠ .host) (u : main_call0_v7.isScoped = false) (v : (⟨S8192, .f32⟩ : BufTy).Contents (Elt F)) :
    (TRef.of (T := ⟨S8192, .f32⟩) main_call0_v7 h o u).toBuf v = v := rfl
theorem ofBuf_main_call0_v7 (h : main_call0_v7.ty = ⟨S8192, .f32⟩) (o : main_call0_v7.space ≠ .host) (u : main_call0_v7.isScoped = false) (v : (⟨S8192, .f32⟩ : BufTy).Contents (Elt F)) :
    (TRef.of (T := ⟨S8192, .f32⟩) main_call0_v7 h o u).ofBuf v = v := rfl
theorem toBuf_main_call0_v8 (h : main_call0_v8.ty = ⟨S8192x1, .f32⟩) (o : main_call0_v8.space ≠ .host) (u : main_call0_v8.isScoped = false) (v : (⟨S8192x1, .f32⟩ : BufTy).Contents (Elt F)) :
    (TRef.of (T := ⟨S8192x1, .f32⟩) main_call0_v8 h o u).toBuf v = v := rfl
theorem ofBuf_main_call0_v8 (h : main_call0_v8.ty = ⟨S8192x1, .f32⟩) (o : main_call0_v8.space ≠ .host) (u : main_call0_v8.isScoped = false) (v : (⟨S8192x1, .f32⟩ : BufTy).Contents (Elt F)) :
    (TRef.of (T := ⟨S8192x1, .f32⟩) main_call0_v8 h o u).ofBuf v = v := rfl
theorem toBuf_main_call0_v9 (h : main_call0_v9.ty = ⟨S8192x1, .f32⟩) (o : main_call0_v9.space ≠ .host) (u : main_call0_v9.isScoped = false) (v : (⟨S8192x1, .f32⟩ : BufTy).Contents (Elt F)) :
    (TRef.of (T := ⟨S8192x1, .f32⟩) main_call0_v9 h o u).toBuf v = v := rfl
theorem ofBuf_main_call0_v9 (h : main_call0_v9.ty = ⟨S8192x1, .f32⟩) (o : main_call0_v9.space ≠ .host) (u : main_call0_v9.isScoped = false) (v : (⟨S8192x1, .f32⟩ : BufTy).Contents (Elt F)) :
    (TRef.of (T := ⟨S8192x1, .f32⟩) main_call0_v9 h o u).ofBuf v = v := rfl
theorem toBuf_main_call0_v10 (h : main_call0_v10.ty = ⟨S8192x32000, .f32⟩) (o : main_call0_v10.space ≠ .host) (u : main_call0_v10.isScoped = false) (v : (⟨S8192x32000, .f32⟩ : BufTy).Contents (Elt F)) :
    (TRef.of (T := ⟨S8192x32000, .f32⟩) main_call0_v10 h o u).toBuf v = v := rfl
theorem ofBuf_main_call0_v10 (h : main_call0_v10.ty = ⟨S8192x32000, .f32⟩) (o : main_call0_v10.space ≠ .host) (u : main_call0_v10.isScoped = false) (v : (⟨S8192x32000, .f32⟩ : BufTy).Contents (Elt F)) :
    (TRef.of (T := ⟨S8192x32000, .f32⟩) main_call0_v10 h o u).ofBuf v = v := rfl
theorem toBuf_main_v5 (h : main_v5.ty = ⟨S8192x32000, .f32⟩) (o : main_v5.space ≠ .host) (u : main_v5.isScoped = false) (v : (⟨S8192x32000, .f32⟩ : BufTy).Contents (Elt F)) :
    (TRef.of (T := ⟨S8192x32000, .f32⟩) main_v5 h o u).toBuf v = v := rfl
theorem ofBuf_main_v5 (h : main_v5.ty = ⟨S8192x32000, .f32⟩) (o : main_v5.space ≠ .host) (u : main_v5.isScoped = false) (v : (⟨S8192x32000, .f32⟩ : BufTy).Contents (Elt F)) :
    (TRef.of (T := ⟨S8192x32000, .f32⟩) main_v5 h o u).ofBuf v = v := rfl
theorem toBuf_main_c_0 (h : main_c_0.ty = ⟨S_, .i32⟩) (o : main_c_0.space ≠ .host) (u : main_c_0.isScoped = false) (v : (⟨S_, .i32⟩ : BufTy).Contents (Elt F)) :
    (TRef.of (T := ⟨S_, .i32⟩) main_c_0 h o u).toBuf v = v := rfl
theorem ofBuf_main_c_0 (h : main_c_0.ty = ⟨S_, .i32⟩) (o : main_c_0.space ≠ .host) (u : main_c_0.isScoped = false) (v : (⟨S_, .i32⟩ : BufTy).Contents (Elt F)) :
    (TRef.of (T := ⟨S_, .i32⟩) main_c_0 h o u).ofBuf v = v := rfl
theorem toBuf_main_call1_v0 (h : main_call1_v0.ty = ⟨S_, .i32⟩) (o : main_call1_v0.space ≠ .host) (u : main_call1_v0.isScoped = false) (v : (⟨S_, .i32⟩ : BufTy).Contents (Elt F)) :
    (TRef.of (T := ⟨S_, .i32⟩) main_call1_v0 h o u).toBuf v = v := rfl
theorem ofBuf_main_call1_v0 (h : main_call1_v0.ty = ⟨S_, .i32⟩) (o : main_call1_v0.space ≠ .host) (u : main_call1_v0.isScoped = false) (v : (⟨S_, .i32⟩ : BufTy).Contents (Elt F)) :
    (TRef.of (T := ⟨S_, .i32⟩) main_call1_v0 h o u).ofBuf v = v := rfl
theorem toBuf_main_call1_v1 (h : main_call1_v1.ty = ⟨S8192, .i32⟩) (o : main_call1_v1.space ≠ .host) (u : main_call1_v1.isScoped = false) (v : (⟨S8192, .i32⟩ : BufTy).Contents (Elt F)) :
    (TRef.of (T := ⟨S8192, .i32⟩) main_call1_v1 h o u).toBuf v = v := rfl
theorem ofBuf_main_call1_v1 (h : main_call1_v1.ty = ⟨S8192, .i32⟩) (o : main_call1_v1.space ≠ .host) (u : main_call1_v1.isScoped = false) (v : (⟨S8192, .i32⟩ : BufTy).Contents (Elt F)) :
    (TRef.of (T := ⟨S8192, .i32⟩) main_call1_v1 h o u).ofBuf v = v := rfl
theorem toBuf_main_v3 (h : main_v3.ty = ⟨S8192, .i1⟩) (o : main_v3.space ≠ .host) (u : main_v3.isScoped = false) (v : (⟨S8192, .i1⟩ : BufTy).Contents (Elt F)) :
    (TRef.of (T := ⟨S8192, .i1⟩) main_v3 h o u).toBuf v = v := rfl
theorem ofBuf_main_v3 (h : main_v3.ty = ⟨S8192, .i1⟩) (o : main_v3.space ≠ .host) (u : main_v3.isScoped = false) (v : (⟨S8192, .i1⟩ : BufTy).Contents (Elt F)) :
    (TRef.of (T := ⟨S8192, .i1⟩) main_v3 h o u).ofBuf v = v := rfl
theorem toBuf_main_v1 (h : main_v1.ty = ⟨S8192, .i32⟩) (o : main_v1.space ≠ .host) (u : main_v1.isScoped = false) (v : (⟨S8192, .i32⟩ : BufTy).Contents (Elt F)) :
    (TRef.of (T := ⟨S8192, .i32⟩) main_v1 h o u).toBuf v = v := rfl
theorem ofBuf_main_v1 (h : main_v1.ty = ⟨S8192, .i32⟩) (o : main_v1.space ≠ .host) (u : main_v1.isScoped = false) (v : (⟨S8192, .i32⟩ : BufTy).Contents (Elt F)) :
    (TRef.of (T := ⟨S8192, .i32⟩) main_v1 h o u).ofBuf v = v := rfl
theorem toBuf_main_v6 (h : main_v6.ty = ⟨S8192, .i32⟩) (o : main_v6.space ≠ .host) (u : main_v6.isScoped = false) (v : (⟨S8192, .i32⟩ : BufTy).Contents (Elt F)) :
    (TRef.of (T := ⟨S8192, .i32⟩) main_v6 h o u).toBuf v = v := rfl
theorem ofBuf_main_v6 (h : main_v6.ty = ⟨S8192, .i32⟩) (o : main_v6.space ≠ .host) (u : main_v6.isScoped = false) (v : (⟨S8192, .i32⟩ : BufTy).Contents (Elt F)) :
    (TRef.of (T := ⟨S8192, .i32⟩) main_v6 h o u).ofBuf v = v := rfl
theorem toBuf_main_call2_c (h : main_call2_c.ty = ⟨S_, .i32⟩) (o : main_call2_c.space ≠ .host) (u : main_call2_c.isScoped = false) (v : (⟨S_, .i32⟩ : BufTy).Contents (Elt F)) :
    (TRef.of (T := ⟨S_, .i32⟩) main_call2_c h o u).toBuf v = v := rfl
theorem ofBuf_main_call2_c (h : main_call2_c.ty = ⟨S_, .i32⟩) (o : main_call2_c.space ≠ .host) (u : main_call2_c.isScoped = false) (v : (⟨S_, .i32⟩ : BufTy).Contents (Elt F)) :
    (TRef.of (T := ⟨S_, .i32⟩) main_call2_c h o u).ofBuf v = v := rfl
theorem toBuf_main_call2_v0 (h : main_call2_v0.ty = ⟨S8192x1, .i32⟩) (o : main_call2_v0.space ≠ .host) (u : main_call2_v0.isScoped = false) (v : (⟨S8192x1, .i32⟩ : BufTy).Contents (Elt F)) :
    (TRef.of (T := ⟨S8192x1, .i32⟩) main_call2_v0 h o u).toBuf v = v := rfl
theorem ofBuf_main_call2_v0 (h : main_call2_v0.ty = ⟨S8192x1, .i32⟩) (o : main_call2_v0.space ≠ .host) (u : main_call2_v0.isScoped = false) (v : (⟨S8192x1, .i32⟩ : BufTy).Contents (Elt F)) :
    (TRef.of (T := ⟨S8192x1, .i32⟩) main_call2_v0 h o u).ofBuf v = v := rfl
theorem toBuf_main_v7 (h : main_v7.ty = ⟨S8192x1, .i32⟩) (o : main_v7.space ≠ .host) (u : main_v7.isScoped = false) (v : (⟨S8192x1, .i32⟩ : BufTy).Contents (Elt F)) :
    (TRef.of (T := ⟨S8192x1, .i32⟩) main_v7 h o u).toBuf v = v := rfl
theorem ofBuf_main_v7 (h : main_v7.ty = ⟨S8192x1, .i32⟩) (o : main_v7.space ≠ .host) (u : main_v7.isScoped = false) (v : (⟨S8192x1, .i32⟩ : BufTy).Contents (Elt F)) :
    (TRef.of (T := ⟨S8192x1, .i32⟩) main_v7 h o u).ofBuf v = v := rfl
theorem toBuf_main_call2_v1 (h : main_call2_v1.ty = ⟨S8192x1, .i1⟩) (o : main_call2_v1.space ≠ .host) (u : main_call2_v1.isScoped = false) (v : (⟨S8192x1, .i1⟩ : BufTy).Contents (Elt F)) :
    (TRef.of (T := ⟨S8192x1, .i1⟩) main_call2_v1 h o u).toBuf v = v := rfl
theorem ofBuf_main_call2_v1 (h : main_call2_v1.ty = ⟨S8192x1, .i1⟩) (o : main_call2_v1.space ≠ .host) (u : main_call2_v1.isScoped = false) (v : (⟨S8192x1, .i1⟩ : BufTy).Contents (Elt F)) :
    (TRef.of (T := ⟨S8192x1, .i1⟩) main_call2_v1 h o u).ofBuf v = v := rfl
theorem toBuf_main_call2_c_0 (h : main_call2_c_0.ty = ⟨S_, .i32⟩) (o : main_call2_c_0.space ≠ .host) (u : main_call2_c_0.isScoped = false) (v : (⟨S_, .i32⟩ : BufTy).Contents (Elt F)) :
    (TRef.of (T := ⟨S_, .i32⟩) main_call2_c_0 h o u).toBuf v = v := rfl
theorem ofBuf_main_call2_c_0 (h : main_call2_c_0.ty = ⟨S_, .i32⟩) (o : main_call2_c_0.space ≠ .host) (u : main_call2_c_0.isScoped = false) (v : (⟨S_, .i32⟩ : BufTy).Contents (Elt F)) :
    (TRef.of (T := ⟨S_, .i32⟩) main_call2_c_0 h o u).ofBuf v = v := rfl
theorem toBuf_main_call2_v2 (h : main_call2_v2.ty = ⟨S8192x1, .i32⟩) (o : main_call2_v2.space ≠ .host) (u : main_call2_v2.isScoped = false) (v : (⟨S8192x1, .i32⟩ : BufTy).Contents (Elt F)) :
    (TRef.of (T := ⟨S8192x1, .i32⟩) main_call2_v2 h o u).toBuf v = v := rfl
theorem ofBuf_main_call2_v2 (h : main_call2_v2.ty = ⟨S8192x1, .i32⟩) (o : main_call2_v2.space ≠ .host) (u : main_call2_v2.isScoped = false) (v : (⟨S8192x1, .i32⟩ : BufTy).Contents (Elt F)) :
    (TRef.of (T := ⟨S8192x1, .i32⟩) main_call2_v2 h o u).ofBuf v = v := rfl
theorem toBuf_main_call2_v3 (h : main_call2_v3.ty = ⟨S8192x1, .i32⟩) (o : main_call2_v3.space ≠ .host) (u : main_call2_v3.isScoped = false) (v : (⟨S8192x1, .i32⟩ : BufTy).Contents (Elt F)) :
    (TRef.of (T := ⟨S8192x1, .i32⟩) main_call2_v3 h o u).toBuf v = v := rfl
theorem ofBuf_main_call2_v3 (h : main_call2_v3.ty = ⟨S8192x1, .i32⟩) (o : main_call2_v3.space ≠ .host) (u : main_call2_v3.isScoped = false) (v : (⟨S8192x1, .i32⟩ : BufTy).Contents (Elt F)) :
    (TRef.of (T := ⟨S8192x1, .i32⟩) main_call2_v3 h o u).ofBuf v = v := rfl
theorem toBuf_main_call2_v4 (h : main_call2_v4.ty = ⟨S8192x1, .i32⟩) (o : main_call2_v4.space ≠ .host) (u : main_call2_v4.isScoped = false) (v : (⟨S8192x1, .i32⟩ : BufTy).Contents (Elt F)) :
    (TRef.of (T := ⟨S8192x1, .i32⟩) main_call2_v4 h o u).toBuf v = v := rfl
theorem ofBuf_main_call2_v4 (h : main_call2_v4.ty = ⟨S8192x1, .i32⟩) (o : main_call2_v4.space ≠ .host) (u : main_call2_v4.isScoped = false) (v : (⟨S8192x1, .i32⟩ : BufTy).Contents (Elt F)) :
    (TRef.of (T := ⟨S8192x1, .i32⟩) main_call2_v4 h o u).ofBuf v = v := rfl
theorem toBuf_main_call2_v5 (h : main_call2_v5.ty = ⟨S8192x1x1, .i32⟩) (o : main_call2_v5.space ≠ .host) (u : main_call2_v5.isScoped = false) (v : (⟨S8192x1x1, .i32⟩ : BufTy).Contents (Elt F)) :
    (TRef.of (T := ⟨S8192x1x1, .i32⟩) main_call2_v5 h o u).toBuf v = v := rfl
theorem ofBuf_main_call2_v5 (h : main_call2_v5.ty = ⟨S8192x1x1, .i32⟩) (o : main_call2_v5.space ≠ .host) (u : main_call2_v5.isScoped = false) (v : (⟨S8192x1x1, .i32⟩ : BufTy).Contents (Elt F)) :
    (TRef.of (T := ⟨S8192x1x1, .i32⟩) main_call2_v5 h o u).ofBuf v = v := rfl
theorem toBuf_main_call2_c_1 (h : main_call2_c_1.ty = ⟨S1, .i32⟩) (o : main_call2_c_1.space ≠ .host) (u : main_call2_c_1.isScoped = false) (v : (⟨S1, .i32⟩ : BufTy).Contents (Elt F)) :
    (TRef.of (T := ⟨S1, .i32⟩) main_call2_c_1 h o u).toBuf v = v := rfl
theorem ofBuf_main_call2_c_1 (h : main_call2_c_1.ty = ⟨S1, .i32⟩) (o : main_call2_c_1.space ≠ .host) (u : main_call2_c_1.isScoped = false) (v : (⟨S1, .i32⟩ : BufTy).Contents (Elt F)) :
    (TRef.of (T := ⟨S1, .i32⟩) main_call2_c_1 h o u).ofBuf v = v := rfl
theorem toBuf_main_call2_c_2 (h : main_call2_c_2.ty = ⟨S_, .i32⟩) (o : main_call2_c_2.space ≠ .host) (u : main_call2_c_2.isScoped = false) (v : (⟨S_, .i32⟩ : BufTy).Contents (Elt F)) :
    (TRef.of (T := ⟨S_, .i32⟩) main_call2_c_2 h o u).toBuf v = v := rfl
theorem ofBuf_main_call2_c_2 (h : main_call2_c_2.ty = ⟨S_, .i32⟩) (o : main_call2_c_2.space ≠ .host) (u : main_call2_c_2.isScoped = false) (v : (⟨S_, .i32⟩ : BufTy).Contents (Elt F)) :
    (TRef.of (T := ⟨S_, .i32⟩) main_call2_c_2 h o u).ofBuf v = v := rfl
theorem toBuf_main_call2_v6 (h : main_call2_v6.ty = ⟨S8192x1x1, .i32⟩) (o : main_call2_v6.space ≠ .host) (u : main_call2_v6.isScoped = false) (v : (⟨S8192x1x1, .i32⟩ : BufTy).Contents (Elt F)) :
    (TRef.of (T := ⟨S8192x1x1, .i32⟩) main_call2_v6 h o u).toBuf v = v := rfl
theorem ofBuf_main_call2_v6 (h : main_call2_v6.ty = ⟨S8192x1x1, .i32⟩) (o : main_call2_v6.space ≠ .host) (u : main_call2_v6.isScoped = false) (v : (⟨S8192x1x1, .i32⟩ : BufTy).Contents (Elt F)) :
    (TRef.of (T := ⟨S8192x1x1, .i32⟩) main_call2_v6 h o u).ofBuf v = v := rfl
theorem toBuf_main_call2_v7 (h : main_call2_v7.ty = ⟨S8192x1x1, .i1⟩) (o : main_call2_v7.space ≠ .host) (u : main_call2_v7.isScoped = false) (v : (⟨S8192x1x1, .i1⟩ : BufTy).Contents (Elt F)) :
    (TRef.of (T := ⟨S8192x1x1, .i1⟩) main_call2_v7 h o u).toBuf v = v := rfl
theorem ofBuf_main_call2_v7 (h : main_call2_v7.ty = ⟨S8192x1x1, .i1⟩) (o : main_call2_v7.space ≠ .host) (u : main_call2_v7.isScoped = false) (v : (⟨S8192x1x1, .i1⟩ : BufTy).Contents (Elt F)) :
    (TRef.of (T := ⟨S8192x1x1, .i1⟩) main_call2_v7 h o u).ofBuf v = v := rfl
theorem toBuf_main_call2_v8 (h : main_call2_v8.ty = ⟨S1x1x1, .i32⟩) (o : main_call2_v8.space ≠ .host) (u : main_call2_v8.isScoped = false) (v : (⟨S1x1x1, .i32⟩ : BufTy).Contents (Elt F)) :
    (TRef.of (T := ⟨S1x1x1, .i32⟩) main_call2_v8 h o u).toBuf v = v := rfl
theorem ofBuf_main_call2_v8 (h : main_call2_v8.ty = ⟨S1x1x1, .i32⟩) (o : main_call2_v8.space ≠ .host) (u : main_call2_v8.isScoped = false) (v : (⟨S1x1x1, .i32⟩ : BufTy).Contents (Elt F)) :
    (TRef.of (T := ⟨S1x1x1, .i32⟩) main_call2_v8 h o u).ofBuf v = v := rfl
theorem toBuf_main_call2_v9 (h : main_call2_v9.ty = ⟨S8192x1x1, .i32⟩) (o : main_call2_v9.space ≠ .host) (u : main_call2_v9.isScoped = false) (v : (⟨S8192x1x1, .i32⟩ : BufTy).Contents (Elt F)) :
    (TRef.of (T := ⟨S8192x1x1, .i32⟩) main_call2_v9 h o u).toBuf v = v := rfl
theorem ofBuf_main_call2_v9 (h : main_call2_v9.ty = ⟨S8192x1x1, .i32⟩) (o : main_call2_v9.space ≠ .host) (u : main_call2_v9.isScoped = false) (v : (⟨S8192x1x1, .i32⟩ : BufTy).Contents (Elt F)) :
    (TRef.of (T := ⟨S8192x1x1, .i32⟩) main_call2_v9 h o u).ofBuf v = v := rfl
theorem toBuf_main_call2_v10 (h : main_call2_v10.ty = ⟨S8192x1x1, .i1⟩) (o : main_call2_v10.space ≠ .host) (u : main_call2_v10.isScoped = false) (v : (⟨S8192x1x1, .i1⟩ : BufTy).Contents (Elt F)) :
    (TRef.of (T := ⟨S8192x1x1, .i1⟩) main_call2_v10 h o u).toBuf v = v := rfl
theorem ofBuf_main_call2_v10 (h : main_call2_v10.ty = ⟨S8192x1x1, .i1⟩) (o : main_call2_v10.space ≠ .host) (u : main_call2_v10.isScoped = false) (v : (⟨S8192x1x1, .i1⟩ : BufTy).Contents (Elt F)) :
    (TRef.of (T := ⟨S8192x1x1, .i1⟩) main_call2_v10 h o u).ofBuf v = v := rfl
theorem toBuf_main_call2_v11 (h : main_call2_v11.ty = ⟨S8192x1x1, .i1⟩) (o : main_call2_v11.space ≠ .host) (u : main_call2_v11.isScoped = false) (v : (⟨S8192x1x1, .i1⟩ : BufTy).Contents (Elt F)) :
    (TRef.of (T := ⟨S8192x1x1, .i1⟩) main_call2_v11 h o u).toBuf v = v := rfl
theorem ofBuf_main_call2_v11 (h : main_call2_v11.ty = ⟨S8192x1x1, .i1⟩) (o : main_call2_v11.space ≠ .host) (u : main_call2_v11.isScoped = false) (v : (⟨S8192x1x1, .i1⟩ : BufTy).Contents (Elt F)) :
    (TRef.of (T := ⟨S8192x1x1, .i1⟩) main_call2_v11 h o u).ofBuf v = v := rfl
theorem toBuf_main_call2_c_3 (h : main_call2_c_3.ty = ⟨S_, .i1⟩) (o : main_call2_c_3.space ≠ .host) (u : main_call2_c_3.isScoped = false) (v : (⟨S_, .i1⟩ : BufTy).Contents (Elt F)) :
    (TRef.of (T := ⟨S_, .i1⟩) main_call2_c_3 h o u).toBuf v = v := rfl
theorem ofBuf_main_call2_c_3 (h : main_call2_c_3.ty = ⟨S_, .i1⟩) (o : main_call2_c_3.space ≠ .host) (u : main_call2_c_3.isScoped = false) (v : (⟨S_, .i1⟩ : BufTy).Contents (Elt F)) :
    (TRef.of (T := ⟨S_, .i1⟩) main_call2_c_3 h o u).ofBuf v = v := rfl
theorem toBuf_main_call2_v12 (h : main_call2_v12.ty = ⟨S8192x1, .i1⟩) (o : main_call2_v12.space ≠ .host) (u : main_call2_v12.isScoped = false) (v : (⟨S8192x1, .i1⟩ : BufTy).Contents (Elt F)) :
    (TRef.of (T := ⟨S8192x1, .i1⟩) main_call2_v12 h o u).toBuf v = v := rfl
theorem ofBuf_main_call2_v12 (h : main_call2_v12.ty = ⟨S8192x1, .i1⟩) (o : main_call2_v12.space ≠ .host) (u : main_call2_v12.isScoped = false) (v : (⟨S8192x1, .i1⟩ : BufTy).Contents (Elt F)) :
    (TRef.of (T := ⟨S8192x1, .i1⟩) main_call2_v12 h o u).ofBuf v = v := rfl
theorem toBuf_main_call2_v13 (h : main_call2_v13.ty = ⟨S8192x1, .f32⟩) (o : main_call2_v13.space ≠ .host) (u : main_call2_v13.isScoped = false) (v : (⟨S8192x1, .f32⟩ : BufTy).Contents (Elt F)) :
    (TRef.of (T := ⟨S8192x1, .f32⟩) main_call2_v13 h o u).toBuf v = v := rfl
theorem ofBuf_main_call2_v13 (h : main_call2_v13.ty = ⟨S8192x1, .f32⟩) (o : main_call2_v13.space ≠ .host) (u : main_call2_v13.isScoped = false) (v : (⟨S8192x1, .f32⟩ : BufTy).Contents (Elt F)) :
    (TRef.of (T := ⟨S8192x1, .f32⟩) main_call2_v13 h o u).ofBuf v = v := rfl
theorem toBuf_main_call2_cst (h : main_call2_cst.ty = ⟨S_, .f32⟩) (o : main_call2_cst.space ≠ .host) (u : main_call2_cst.isScoped = false) (v : (⟨S_, .f32⟩ : BufTy).Contents (Elt F)) :
    (TRef.of (T := ⟨S_, .f32⟩) main_call2_cst h o u).toBuf v = v := rfl
theorem ofBuf_main_call2_cst (h : main_call2_cst.ty = ⟨S_, .f32⟩) (o : main_call2_cst.space ≠ .host) (u : main_call2_cst.isScoped = false) (v : (⟨S_, .f32⟩ : BufTy).Contents (Elt F)) :
    (TRef.of (T := ⟨S_, .f32⟩) main_call2_cst h o u).ofBuf v = v := rfl
theorem toBuf_main_call2_v14 (h : main_call2_v14.ty = ⟨S8192x1, .f32⟩) (o : main_call2_v14.space ≠ .host) (u : main_call2_v14.isScoped = false) (v : (⟨S8192x1, .f32⟩ : BufTy).Contents (Elt F)) :
    (TRef.of (T := ⟨S8192x1, .f32⟩) main_call2_v14 h o u).toBuf v = v := rfl
theorem ofBuf_main_call2_v14 (h : main_call2_v14.ty = ⟨S8192x1, .f32⟩) (o : main_call2_v14.space ≠ .host) (u : main_call2_v14.isScoped = false) (v : (⟨S8192x1, .f32⟩ : BufTy).Contents (Elt F)) :
    (TRef.of (T := ⟨S8192x1, .f32⟩) main_call2_v14 h o u).ofBuf v = v := rfl
theorem toBuf_main_v8 (h : main_v8.ty = ⟨S8192x1, .f32⟩) (o : main_v8.space ≠ .host) (u : main_v8.isScoped = false) (v : (⟨S8192x1, .f32⟩ : BufTy).Contents (Elt F)) :
    (TRef.of (T := ⟨S8192x1, .f32⟩) main_v8 h o u).toBuf v = v := rfl
theorem ofBuf_main_v8 (h : main_v8.ty = ⟨S8192x1, .f32⟩) (o : main_v8.space ≠ .host) (u : main_v8.isScoped = false) (v : (⟨S8192x1, .f32⟩ : BufTy).Contents (Elt F)) :
    (TRef.of (T := ⟨S8192x1, .f32⟩) main_v8 h o u).ofBuf v = v := rfl
theorem toBuf_main_cst (h : main_cst.ty = ⟨S_, .f32⟩) (o : main_cst.space ≠ .host) (u : main_cst.isScoped = false) (v : (⟨S_, .f32⟩ : BufTy).Contents (Elt F)) :
    (TRef.of (T := ⟨S_, .f32⟩) main_cst h o u).toBuf v = v := rfl
theorem ofBuf_main_cst (h : main_cst.ty = ⟨S_, .f32⟩) (o : main_cst.space ≠ .host) (u : main_cst.isScoped = false) (v : (⟨S_, .f32⟩ : BufTy).Contents (Elt F)) :
    (TRef.of (T := ⟨S_, .f32⟩) main_cst h o u).ofBuf v = v := rfl
theorem toBuf_main_call3_v0 (h : main_call3_v0.ty = ⟨S_, .f32⟩) (o : main_call3_v0.space ≠ .host) (u : main_call3_v0.isScoped = false) (v : (⟨S_, .f32⟩ : BufTy).Contents (Elt F)) :
    (TRef.of (T := ⟨S_, .f32⟩) main_call3_v0 h o u).toBuf v = v := rfl
theorem ofBuf_main_call3_v0 (h : main_call3_v0.ty = ⟨S_, .f32⟩) (o : main_call3_v0.space ≠ .host) (u : main_call3_v0.isScoped = false) (v : (⟨S_, .f32⟩ : BufTy).Contents (Elt F)) :
    (TRef.of (T := ⟨S_, .f32⟩) main_call3_v0 h o u).ofBuf v = v := rfl
theorem toBuf_main_call3_v1 (h : main_call3_v1.ty = ⟨S8192, .f32⟩) (o : main_call3_v1.space ≠ .host) (u : main_call3_v1.isScoped = false) (v : (⟨S8192, .f32⟩ : BufTy).Contents (Elt F)) :
    (TRef.of (T := ⟨S8192, .f32⟩) main_call3_v1 h o u).toBuf v = v := rfl
theorem ofBuf_main_call3_v1 (h : main_call3_v1.ty = ⟨S8192, .f32⟩) (o : main_call3_v1.space ≠ .host) (u : main_call3_v1.isScoped = false) (v : (⟨S8192, .f32⟩ : BufTy).Contents (Elt F)) :
    (TRef.of (T := ⟨S8192, .f32⟩) main_call3_v1 h o u).ofBuf v = v := rfl
theorem toBuf_main_v10 (h : main_v10.ty = ⟨S8192, .f32⟩) (o : main_v10.space ≠ .host) (u : main_v10.isScoped = false) (v : (⟨S8192, .f32⟩ : BufTy).Contents (Elt F)) :
    (TRef.of (T := ⟨S8192, .f32⟩) main_v10 h o u).toBuf v = v := rfl
theorem ofBuf_main_v10 (h : main_v10.ty = ⟨S8192, .f32⟩) (o : main_v10.space ≠ .host) (u : main_v10.isScoped = false) (v : (⟨S8192, .f32⟩ : BufTy).Contents (Elt F)) :
    (TRef.of (T := ⟨S8192, .f32⟩) main_v10 h o u).ofBuf v = v := rfl
theorem toBuf_main_v11 (h : main_v11.ty = ⟨S8192, .f32⟩) (o : main_v11.space ≠ .host) (u : main_v11.isScoped = false) (v : (⟨S8192, .f32⟩ : BufTy).Contents (Elt F)) :
    (TRef.of (T := ⟨S8192, .f32⟩) main_v11 h o u).toBuf v = v := rfl
theorem ofBuf_main_v11 (h : main_v11.ty = ⟨S8192, .f32⟩) (o : main_v11.space ≠ .host) (u : main_v11.isScoped = false) (v : (⟨S8192, .f32⟩ : BufTy).Contents (Elt F)) :
    (TRef.of (T := ⟨S8192, .f32⟩) main_v11 h o u).ofBuf v = v := rfl
theorem toBuf_main_v16 (h : main_v16.ty = ⟨S_, .i1⟩) (o : main_v16.space ≠ .host) (u : main_v16.isScoped = false) (v : (⟨S_, .i1⟩ : BufTy).Contents (Elt F)) :
    (TRef.of (T := ⟨S_, .i1⟩) main_v16 h o u).toBuf v = v := rfl
theorem ofBuf_main_v16 (h : main_v16.ty = ⟨S_, .i1⟩) (o : main_v16.space ≠ .host) (u : main_v16.isScoped = false) (v : (⟨S_, .i1⟩ : BufTy).Contents (Elt F)) :
    (TRef.of (T := ⟨S_, .i1⟩) main_v16 h o u).ofBuf v = v := rfl
theorem toBuf_main_v17 (h : main_v17.ty = ⟨S_, .f32⟩) (o : main_v17.space ≠ .host) (u : main_v17.isScoped = false) (v : (⟨S_, .f32⟩ : BufTy).Contents (Elt F)) :
    (TRef.of (T := ⟨S_, .f32⟩) main_v17 h o u).toBuf v = v := rfl
theorem ofBuf_main_v17 (h : main_v17.ty = ⟨S_, .f32⟩) (o : main_v17.space ≠ .host) (u : main_v17.isScoped = false) (v : (⟨S_, .f32⟩ : BufTy).Contents (Elt F)) :
    (TRef.of (T := ⟨S_, .f32⟩) main_v17 h o u).ofBuf v = v := rfl
theorem toBuf_main_v12 (h : main_v12.ty = ⟨S_, .f32⟩) (o : main_v12.space ≠ .host) (u : main_v12.isScoped = false) (v : (⟨S_, .f32⟩ : BufTy).Contents (Elt F)) :
    (TRef.of (T := ⟨S_, .f32⟩) main_v12 h o u).toBuf v = v := rfl
theorem ofBuf_main_v12 (h : main_v12.ty = ⟨S_, .f32⟩) (o : main_v12.space ≠ .host) (u : main_v12.isScoped = false) (v : (⟨S_, .f32⟩ : BufTy).Contents (Elt F)) :
    (TRef.of (T := ⟨S_, .f32⟩) main_v12 h o u).ofBuf v = v := rfl
theorem toBuf_main_v18 (h : main_v18.ty = ⟨S_, .f32⟩) (o : main_v18.space ≠ .host) (u : main_v18.isScoped = false) (v : (⟨S_, .f32⟩ : BufTy).Contents (Elt F)) :
    (TRef.of (T := ⟨S_, .f32⟩) main_v18 h o u).toBuf v = v := rfl
theorem ofBuf_main_v18 (h : main_v18.ty = ⟨S_, .f32⟩) (o : main_v18.space ≠ .host) (u : main_v18.isScoped = false) (v : (⟨S_, .f32⟩ : BufTy).Contents (Elt F)) :
    (TRef.of (T := ⟨S_, .f32⟩) main_v18 h o u).ofBuf v = v := rfl

/-- Rewrites with every fact above. -/
macro "strip_ref_casts" : tactic =>
  `(tactic| simp only [Cert.ReferenceIdeal.Casts.toBuf_main_call0_cst, Cert.ReferenceIdeal.Casts.ofBuf_main_call0_cst, Cert.ReferenceIdeal.Casts.toBuf_main_v4, Cert.ReferenceIdeal.Casts.ofBuf_main_v4, Cert.ReferenceIdeal.Casts.toBuf_main_call0_v0, Cert.ReferenceIdeal.Casts.ofBuf_main_call0_v0, Cert.ReferenceIdeal.Casts.toBuf_main_call0_cst_0, Cert.ReferenceIdeal.Casts.ofBuf_main_call0_cst_0, Cert.ReferenceIdeal.Casts.toBuf_main_call0_v1, Cert.ReferenceIdeal.Casts.ofBuf_main_call0_v1, Cert.ReferenceIdeal.Casts.toBuf_main_call0_v2, Cert.ReferenceIdeal.Casts.ofBuf_main_call0_v2, Cert.ReferenceIdeal.Casts.toBuf_main_call0_v3, Cert.ReferenceIdeal.Casts.ofBuf_main_call0_v3, Cert.ReferenceIdeal.Casts.toBuf_main_call0_v4, Cert.ReferenceIdeal.Casts.ofBuf_main_call0_v4, Cert.ReferenceIdeal.Casts.toBuf_main_call0_v5, Cert.ReferenceIdeal.Casts.ofBuf_main_call0_v5, Cert.ReferenceIdeal.Casts.toBuf_main_call0_v6, Cert.ReferenceIdeal.Casts.ofBuf_main_call0_v6, Cert.ReferenceIdeal.Casts.toBuf_main_call0_cst_1, Cert.ReferenceIdeal.Casts.ofBuf_main_call0_cst_1, Cert.ReferenceIdeal.Casts.toBuf_main_call0_v7, Cert.ReferenceIdeal.Casts.ofBuf_main_call0_v7, Cert.ReferenceIdeal.Casts.toBuf_main_call0_v8, Cert.ReferenceIdeal.Casts.ofBuf_main_call0_v8, Cert.ReferenceIdeal.Casts.toBuf_main_call0_v9, Cert.ReferenceIdeal.Casts.ofBuf_main_call0_v9, Cert.ReferenceIdeal.Casts.toBuf_main_call0_v10, Cert.ReferenceIdeal.Casts.ofBuf_main_call0_v10, Cert.ReferenceIdeal.Casts.toBuf_main_v5, Cert.ReferenceIdeal.Casts.ofBuf_main_v5, Cert.ReferenceIdeal.Casts.toBuf_main_c_0, Cert.ReferenceIdeal.Casts.ofBuf_main_c_0, Cert.ReferenceIdeal.Casts.toBuf_main_call1_v0, Cert.ReferenceIdeal.Casts.ofBuf_main_call1_v0, Cert.ReferenceIdeal.Casts.toBuf_main_call1_v1, Cert.ReferenceIdeal.Casts.ofBuf_main_call1_v1, Cert.ReferenceIdeal.Casts.toBuf_main_v3, Cert.ReferenceIdeal.Casts.ofBuf_main_v3, Cert.ReferenceIdeal.Casts.toBuf_main_v1, Cert.ReferenceIdeal.Casts.ofBuf_main_v1, Cert.ReferenceIdeal.Casts.toBuf_main_v6, Cert.ReferenceIdeal.Casts.ofBuf_main_v6, Cert.ReferenceIdeal.Casts.toBuf_main_call2_c, Cert.ReferenceIdeal.Casts.ofBuf_main_call2_c, Cert.ReferenceIdeal.Casts.toBuf_main_call2_v0, Cert.ReferenceIdeal.Casts.ofBuf_main_call2_v0, Cert.ReferenceIdeal.Casts.toBuf_main_v7, Cert.ReferenceIdeal.Casts.ofBuf_main_v7, Cert.ReferenceIdeal.Casts.toBuf_main_call2_v1, Cert.ReferenceIdeal.Casts.ofBuf_main_call2_v1, Cert.ReferenceIdeal.Casts.toBuf_main_call2_c_0, Cert.ReferenceIdeal.Casts.ofBuf_main_call2_c_0, Cert.ReferenceIdeal.Casts.toBuf_main_call2_v2, Cert.ReferenceIdeal.Casts.ofBuf_main_call2_v2, Cert.ReferenceIdeal.Casts.toBuf_main_call2_v3, Cert.ReferenceIdeal.Casts.ofBuf_main_call2_v3, Cert.ReferenceIdeal.Casts.toBuf_main_call2_v4, Cert.ReferenceIdeal.Casts.ofBuf_main_call2_v4, Cert.ReferenceIdeal.Casts.toBuf_main_call2_v5, Cert.ReferenceIdeal.Casts.ofBuf_main_call2_v5, Cert.ReferenceIdeal.Casts.toBuf_main_call2_c_1, Cert.ReferenceIdeal.Casts.ofBuf_main_call2_c_1, Cert.ReferenceIdeal.Casts.toBuf_main_call2_c_2, Cert.ReferenceIdeal.Casts.ofBuf_main_call2_c_2, Cert.ReferenceIdeal.Casts.toBuf_main_call2_v6, Cert.ReferenceIdeal.Casts.ofBuf_main_call2_v6, Cert.ReferenceIdeal.Casts.toBuf_main_call2_v7, Cert.ReferenceIdeal.Casts.ofBuf_main_call2_v7, Cert.ReferenceIdeal.Casts.toBuf_main_call2_v8, Cert.ReferenceIdeal.Casts.ofBuf_main_call2_v8, Cert.ReferenceIdeal.Casts.toBuf_main_call2_v9, Cert.ReferenceIdeal.Casts.ofBuf_main_call2_v9, Cert.ReferenceIdeal.Casts.toBuf_main_call2_v10, Cert.ReferenceIdeal.Casts.ofBuf_main_call2_v10, Cert.ReferenceIdeal.Casts.toBuf_main_call2_v11, Cert.ReferenceIdeal.Casts.ofBuf_main_call2_v11, Cert.ReferenceIdeal.Casts.toBuf_main_call2_c_3, Cert.ReferenceIdeal.Casts.ofBuf_main_call2_c_3, Cert.ReferenceIdeal.Casts.toBuf_main_call2_v12, Cert.ReferenceIdeal.Casts.ofBuf_main_call2_v12, Cert.ReferenceIdeal.Casts.toBuf_main_call2_v13, Cert.ReferenceIdeal.Casts.ofBuf_main_call2_v13, Cert.ReferenceIdeal.Casts.toBuf_main_call2_cst, Cert.ReferenceIdeal.Casts.ofBuf_main_call2_cst, Cert.ReferenceIdeal.Casts.toBuf_main_call2_v14, Cert.ReferenceIdeal.Casts.ofBuf_main_call2_v14, Cert.ReferenceIdeal.Casts.toBuf_main_v8, Cert.ReferenceIdeal.Casts.ofBuf_main_v8, Cert.ReferenceIdeal.Casts.toBuf_main_cst, Cert.ReferenceIdeal.Casts.ofBuf_main_cst, Cert.ReferenceIdeal.Casts.toBuf_main_call3_v0, Cert.ReferenceIdeal.Casts.ofBuf_main_call3_v0, Cert.ReferenceIdeal.Casts.toBuf_main_call3_v1, Cert.ReferenceIdeal.Casts.ofBuf_main_call3_v1, Cert.ReferenceIdeal.Casts.toBuf_main_v10, Cert.ReferenceIdeal.Casts.ofBuf_main_v10, Cert.ReferenceIdeal.Casts.toBuf_main_v11, Cert.ReferenceIdeal.Casts.ofBuf_main_v11, Cert.ReferenceIdeal.Casts.toBuf_main_v16, Cert.ReferenceIdeal.Casts.ofBuf_main_v16, Cert.ReferenceIdeal.Casts.toBuf_main_v17, Cert.ReferenceIdeal.Casts.ofBuf_main_v17, Cert.ReferenceIdeal.Casts.toBuf_main_v12, Cert.ReferenceIdeal.Casts.ofBuf_main_v12, Cert.ReferenceIdeal.Casts.toBuf_main_v18, Cert.ReferenceIdeal.Casts.ofBuf_main_v18])

end Cert.ReferenceIdeal.Casts

end
-- ==== Proof.RefValue.lean ====
/-
  The reference's result, stage by stage, is the one-pass mean of the specification: its `dot_general` is the
  logits, its `log_softmax` the shifted log-probabilities over the row maximum and the row's sum of exponentials,
  its `take_along_axis` the entry at the label (for an admissible label: in range, so neither wrapped nor filled),
  its integer count the number of rows that are not ignored.
-/
import proofs.«410234_j46651934769795_3_alg».proof.Proof.RefRead
import proofs.«410234_j46651934769795_3_alg».proof.Proof.Spec
import Idealize.ShloMosaic.Lib.StableHlo.Predicate
import Idealize.ShloMosaic.Lib.IndicatorCount
import Idealize.ShloMosaic.Lib.ValueIdxRank1

noncomputable section

namespace Cert.ReferenceIdeal.RefValue

open Idealize.ShloMosaic Cert.ReferenceIdeal Cert.ReferenceIdeal.Gen Cert.ReferenceIdeal.ReadP

open ValueIdx

variable (a0 : (⟨S4x2048x2048, .f32⟩ : BufTy).Contents (Elt Ideal)) (a1 : (⟨S32000x2048, .f32⟩ : BufTy).Contents (Elt Ideal))
  (a2 : (⟨S4x2048, .i32⟩ : BufTy).Contents (Elt Ideal))

/-! ## The logits and the shifted log-probabilities -/

/-- The logits of the specification, from the reshaped activations and the weights: row `n`, class `v`. -/
private abbrev logits : Fin 8192 → Fin 32000 → EReal := Cert.CE.logit (val_main_v0 (F := Ideal) a0) a1

/-- The label word of row `n`, from the reshaped labels. -/
private abbrev label (n : Fin 8192) : BitVec 32 := val_main_v1 (F := Ideal) a2 (ix1 n)

/-- The contraction at `(n, v)` is the logit: the sum over the shared axis of activation `(n, d)` times weight
    `(v, d)`; the two operand indices at contraction coordinate `d` are `(n, d)` and `(v, d)`. -/
private theorem v4_at (n : Fin 8192) (v : Fin 32000) :
    val_main_v4 (F := Ideal) a0 a1 (ix2 n v) = logits a0 a1 n v := by
  rw [val_main_v4_apply]
  unfold logits Cert.CE.logit
  refine Finset.sum_congr rfl fun k _ => ?_
  congr 2
  · funext a; match a with | ⟨0, _⟩ => rfl | ⟨1, _⟩ => rfl
  · funext a; match a with | ⟨0, _⟩ => rfl | ⟨1, _⟩ => rfl

/-- The word of minus infinity denotes the bottom of the extended reals. -/
private theorem neg_inf_word : Ideal.ofBits .f32 0xFF800000#32 = ⊥ := by simp [Ideal.ofBits, Ideal.ieee]

/-- Dropping the class axis of a `rows × classes` index set leaves the rows. -/
private theorem red1 : S8192x32000.Reduces [1] S8192 := by decide

/-- Row `n` with class `k` inserted on the dropped axis is the index `(n, k)`. -/
private theorem lift1 (n : Fin 8192) (k : Fin 32000) : red1.lift (ix1 n) k = ix2 n k := by
  funext a; match a with | ⟨0, _⟩ => rfl | ⟨1, _⟩ => rfl

/-- The maximum-reduction over the classes is, at row `n`, the fold of `max` from `⊥` over the row's logits:
    `max` commutes and associates, so the fold over the row's index set is the fold over its class coordinates. -/
private theorem call0_v0_at (n : Fin 8192) :
    val_main_call0_v0 (F := Ideal) a0 a1 (ix1 n) = (Finset.univ : Finset (Fin 32000)).fold max ⊥ (logits a0 a1 n) := by
  unfold val_main_call0_v0
  rw [Host.reduce_eq_fold_single FloatOps.maximumf _ _ reducesTo_S8192x32000_S8192_d1 red1 h_S_ (ix1 n)]
  have hf : (val_main_v4 (F := Ideal) a0 a1 ∘ red1.lift (ix1 n)) = logits a0 a1 n :=
    funext fun k => (congrArg (val_main_v4 (F := Ideal) a0 a1) (lift1 n k)).trans (v4_at a0 a1 n k)
  rw [hf, val_main_call0_cst_apply, Ideal.ofBits_def, neg_inf_word]
  rfl

/-- The maximum of minus infinity and that fold is the specification's row maximum. -/
private theorem call0_v2_at (n : Fin 8192) :
    val_main_call0_v2 (F := Ideal) a0 a1 (ix1 n) = Cert.CE.rmax (logits a0 a1 n) := by
  rw [val_main_call0_v2_apply, val_main_call0_v1_apply, val_main_call0_cst_0_apply, call0_v0_at, Ideal.ofBits_def,
    neg_inf_word, Ideal.maximumf_def]
  rfl

/-- The shifted logit at `(n, v)`: the logit minus the row's maximum (the maximum is broadcast along the row). -/
private theorem call0_v5_at (n : Fin 8192) (v : Fin 32000) :
    val_main_call0_v5 (F := Ideal) a0 a1 (ix2 n v) = logits a0 a1 n v - Cert.CE.rmax (logits a0 a1 n) := by
  rw [val_main_call0_v5_apply, val_main_call0_v4_apply, val_main_call0_v3_apply, v4_at]
  have e : idx_main_call0_v3 (idx_main_call0_v4 (ix2 n v)) = ix1 n := by
    funext a; match a with | ⟨0, _⟩ => rfl
  rw [e, call0_v2_at, Ideal.subf_def]

/-- The sum-reduction over the classes is, at row `n`, zero plus the sum of the exponentials of the shifted logits:
    the specification's row sum. -/
private theorem call0_v7_at (n : Fin 8192) :
    val_main_call0_v7 (F := Ideal) a0 a1 (ix1 n) = Cert.CE.rsum (logits a0 a1 n) := by
  rw [val_main_call0_v7_apply, val_main_call0_cst_1_apply, Ideal.ofBits_def, Ideal.ofBits_zero_f32]
  unfold Cert.CE.rsum
  refine congrArg (0 + ·) (Finset.sum_congr rfl fun k _ => ?_)
  rw [val_main_call0_v6_apply]
  have e : idx_main_call0_v7 (ix1 n) k = ix2 n k := by
    funext a; match a with | ⟨0, _⟩ => rfl | ⟨1, _⟩ => rfl
  rw [e, call0_v5_at, Ideal.hostUnary_exp_def]

/-- The log-probability at `(n, v)`: the shifted logit minus the logarithm of the row sum (broadcast along the row). -/
private theorem v5_at (n : Fin 8192) (v : Fin 32000) :
    val_main_v5 (F := Ideal) a0 a1 (ix2 n v)
      = (logits a0 a1 n v - Cert.CE.rmax (logits a0 a1 n)) - Ideal.log (Cert.CE.rsum (logits a0 a1 n)) := by
  rw [val_main_v5_apply, call0_v5_at, val_main_call0_v10_apply, val_main_call0_v9_apply, val_main_call0_v8_apply]
  have e : idx_main_call0_v8 (idx_main_call0_v10 (ix2 n v)) = ix1 n := by
    funext a; match a with | ⟨0, _⟩ => rfl
  rw [e, call0_v7_at, Ideal.subf_def, Ideal.hostUnary_log_def]

/-! ## Words: a class label under the comparisons of the lookup -/

/-- "Not equal" on words is `1` exactly when the words differ. -/
private theorem cmpi_ne_eq (t c : BitVec 32) : IntOp.cmpi .ne t c = if t ≠ c then 1#1 else 0#1 := by
  unfold IntOp.cmpi
  by_cases h : t = c
  · subst h; simp
  · rw [if_pos h, show (t != c) = true from bne_iff_ne.2 h]; rfl

/-- A word whose signed value is a class reads the same unsigned, below the number of classes. -/
private theorem class_toNat (t : BitVec 32) (h0 : 0 ≤ t.toInt) (h1 : t.toInt < 32000) :
    t.toNat < 32000 ∧ t.toInt = t.toNat := by
  have hl := t.isLt
  rw [BitVec.toInt_eq_toNat_cond] at h0 h1
  rw [BitVec.toInt_eq_toNat_cond]
  split at h0 <;> rename_i hc
  · rw [if_pos hc] at h1 ⊢; omega
  · omega

/-- A word whose signed value is not negative is not the ignore mark, whose signed value is `-100`. -/
private theorem class_ne_ignore (t : BitVec 32) (h0 : 0 ≤ t.toInt) : t ≠ Cert.CE.ignoreW := by
  intro e; rw [e] at h0; revert h0; decide

open StableHlo.Predicate in
/-- For a class label the three comparisons of the lookup come out "not negative", "at least 0", "at most 31999":
    below `2³¹` the signed comparisons are the comparisons of the unsigned values. -/
private theorem class_cmps (t : BitVec 32) (h0 : 0 ≤ t.toInt) (h1 : t.toInt < 32000) :
    IntOp.cmpi .slt t 0#32 = 0#1 ∧ IntOp.cmpi .sge t 0#32 = 1#1 ∧ IntOp.cmpi .sle t 31999#32 = 1#1 := by
  obtain ⟨hn, _⟩ := class_toNat t h0 h1
  have ht : t.toNat < 2 ^ 31 := by omega
  refine ⟨?_, ?_, ?_⟩
  · refine eq_zero_of_ne_one fun e => ?_
    have := (slt_iff_toNat ht (by decide)).1 e
    simp at this
  · exact (sge_iff_toNat ht (by decide)).2 (by simp)
  · refine (sle_iff_toNat ht (by decide)).2 ?_
    show t.toNat ≤ 31999
    omega

/-! ## The lookup along the class axis -/

local notation "gd" => gather_S8192x32000_S8192x1x1_S8192x1_n_1_0_0_1_2_11

/-- The lookup at result position `(n, 0)` reads the operand at row `n` (the row axis is a batching axis: its
    coordinate is the result's) and at the class the start word at `(n, 0, 0)` names, read signed and clamped into
    `[0, 31999]` (the class axis is the one collapsed, start-indexed axis, with slices of one element). -/
private theorem gather_at {α : Type} (x : S8192x32000.Idx → α) (idx : IVec S8192x1x1 32) (n : Fin 8192) :
    Host.gather gd x idx (ix2 n (0 : Fin 1))
      = x (ix2 n ⟨min (idx (ix3 n (0 : Fin 1) (0 : Fin 1))).toInt.toNat 31999, by omega⟩) := by
  unfold Host.gather
  congr 1
  funext a
  refine Fin.ext ?_
  match a with
  | ⟨0, _⟩ =>
    show GatherDims.start gd (ix2 n (0 : Fin 1)) idx 0 + GatherDims.batchCoord gd (ix2 n (0 : Fin 1)) 0
      + GatherDims.offCoord gd (ix2 n (0 : Fin 1)) 0 = n.val
    rw [GatherDims.offCoord_eq_zero _ _ _ (fun h => ((GatherDims.mem_sKept _ _).mp h).2 (List.mem_singleton.mpr rfl))]
    unfold GatherDims.start
    rw [dif_neg (by decide)]
    unfold GatherDims.batchCoord
    rw [dif_pos (show (0 : Fin 2) ∈ (gd).operandBatchingDims from List.mem_singleton.mpr rfl), Nat.zero_add, Nat.add_zero]
    rfl
  | ⟨1, _⟩ =>
    show GatherDims.start gd (ix2 n (0 : Fin 1)) idx 1 + GatherDims.batchCoord gd (ix2 n (0 : Fin 1)) 1
      + GatherDims.offCoord gd (ix2 n (0 : Fin 1)) 1 = _
    rw [GatherDims.offCoord_eq_zero _ _ _ (fun h => ((GatherDims.mem_sKept _ _).mp h).1 (List.mem_singleton.mpr rfl)),
      GatherDims.batchCoord_eq_zero _ _ _ (by decide)]
    unfold GatherDims.start
    rw [dif_pos (show (1 : Fin 2) ∈ (gd).startIndexMap from List.mem_singleton.mpr rfl)]
    have hsi : GatherDims.siIdx gd (ix2 n (0 : Fin 1)) ⟨List.idxOf (1 : Fin 2) (gd).startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- The same with the start word and the clamped class named. -/
private theorem gather_at_of {α : Type} (x : S8192x32000.Idx → α) (idx : IVec S8192x1x1 32) (n : Fin 8192) (w : BitVec 32)
    (hw : idx (ix3 n (0 : Fin 1) (0 : Fin 1)) = w) (k : Fin 32000) (hk : min w.toInt.toNat 31999 = k.val) :
    Host.gather gd x idx (ix2 n (0 : Fin 1)) = x (ix2 n k) := by
  rw [gather_at]
  exact congrArg (fun k => x (ix2 n k)) (Fin.ext (by simp only; rw [hw]; exact hk))

/-! ## The label path at a row -/

/-- The "not ignored" bit of row `n`. -/
private theorem v3_at (n : Fin 8192) :
    val_main_v3 (F := Ideal) a2 (ix1 n) = if label a2 n ≠ Cert.CE.ignoreW then 1#1 else 0#1 := by
  rw [val_main_v3_apply, val_main_v2_apply, val_main_c_apply, cmpi_ne_eq]

/-- A label that is not the ignore mark is kept by the first select. -/
private theorem v6_at (n : Fin 8192) (ht : label a2 n ≠ Cert.CE.ignoreW) :
    val_main_v6 (F := Ideal) a2 (ix1 n) = label a2 n := by
  rw [val_main_v6_apply, v3_at, if_pos ht, select_one]

/-- As a column, position `(n, 0)` holds row `n`'s word. -/
private theorem v7_at (n : Fin 8192) :
    val_main_v7 (F := Ideal) a2 (ix2 n (0 : Fin 1)) = val_main_v6 (F := Ideal) a2 (ix1 n) := by
  rw [val_main_v7_apply]
  exact congrArg _ (funext fun a => by match a with | ⟨0, _⟩ => rfl)

/-- A class label is not negative, so the wrap-around of negative positions leaves it as it is. -/
private theorem call2_v4_at (n : Fin 8192) (h0 : 0 ≤ (label a2 n).toInt) (h1 : (label a2 n).toInt < 32000) :
    val_main_call2_v4 (F := Ideal) a2 (ix2 n (0 : Fin 1)) = label a2 n := by
  have ht := class_ne_ignore _ h0
  obtain ⟨c1, _, _⟩ := class_cmps _ h0 h1
  rw [val_main_call2_v4_apply, val_main_call2_v1_apply, v7_at, v6_at a2 n ht, val_main_call2_v0_apply,
    val_main_call2_c_apply, c1, select_zero]

/-- So the start word at `(n, 0, 0)` is the label. -/
private theorem call2_v5_at (n : Fin 8192) (h0 : 0 ≤ (label a2 n).toInt) (h1 : (label a2 n).toInt < 32000) :
    val_main_call2_v5 (F := Ideal) a2 (ix3 n (0 : Fin 1) (0 : Fin 1)) = label a2 n := by
  rw [val_main_call2_v5_apply]
  have e : idx_main_call2_v5 (ix3 n (0 : Fin 1) (0 : Fin 1)) = ix2 n (0 : Fin 1) := by
    funext a; refine Fin.ext ?_
    match a with
    | ⟨0, _⟩ => show ((n.val * 1 + 0) * 1 + 0) / 1 = n.val; omega
    | ⟨1, _⟩ => rfl
  rw [e, call2_v4_at a2 n h0 h1]

/-- A class label passes both range tests: at least `0` and at most `31999`. -/
private theorem call2_v11_at (n : Fin 8192) (h0 : 0 ≤ (label a2 n).toInt) (h1 : (label a2 n).toInt < 32000) :
    val_main_call2_v11 (F := Ideal) a2 (ix3 n (0 : Fin 1) (0 : Fin 1)) = 1#1 := by
  obtain ⟨_, c2, c3⟩ := class_cmps _ h0 h1
  rw [val_main_call2_v11_apply, val_main_call2_v7_apply, val_main_call2_v10_apply, call2_v5_at a2 n h0 h1,
    val_main_call2_v6_apply, val_main_call2_c_2_apply, val_main_call2_v9_apply, val_main_call2_v8_apply,
    val_main_call2_c_1_apply, c2, c3]
  rfl

/-- Dropping the last axis (of extent one) of the start words' index set. -/
private theorem red2 : S8192x1x1.Reduces [2] S8192x1 := by decide

/-- A fold over an axis of extent one is one application of the operation. -/
private theorem fold_extent_one {α : Type} {m : ℕ} (hm : m = 1) (op : α → α → α) [Std.Commutative op] [Std.Associative op]
    (b : α) (f : Fin m → α) : (Finset.univ : Finset (Fin m)).fold op b f = op (f ⟨0, by omega⟩) b := by
  subst hm
  rw [Finset.univ_unique, Finset.fold_singleton]
  rfl

/-- The conjunction over the index vector's axis, of extent one, of the range test with "true": still "in range". -/
private theorem call2_v12_at (n : Fin 8192) (h0 : 0 ≤ (label a2 n).toInt) (h1 : (label a2 n).toInt < 32000) :
    val_main_call2_v12 (F := Ideal) a2 (ix2 n (0 : Fin 1)) = 1#1 := by
  unfold val_main_call2_v12
  rw [Host.reduce_eq_fold_single IntOp.andi _ _ reducesTo_S8192x1x1_S8192x1_d2 red2 h_S_ (ix2 n (0 : Fin 1))]
  rw [fold_extent_one (show S8192x1x1.size 2 = 1 from rfl)]
  have e : red2.lift (ix2 n (0 : Fin 1)) ⟨0, by decide⟩ = ix3 n (0 : Fin 1) (0 : Fin 1) := by
    funext a; match a with | ⟨0, _⟩ => rfl | ⟨1, _⟩ => rfl | ⟨2, _⟩ => rfl
  rw [Function.comp_apply, e, call2_v11_at a2 n h0 h1]
  rfl

/-- For a class label the looked-up entry is the log-probability at the label: in range, so not filled, and the
    clamp of the label into `[0, 31999]` is the label. -/
private theorem v8_at (n : Fin 8192) (h0 : 0 ≤ (label a2 n).toInt) (h1 : (label a2 n).toInt < 32000) :
    val_main_v8 (F := Ideal) a0 a1 a2 (ix2 n (0 : Fin 1))
      = (Cert.CE.rowN (logits a0 a1 n) (label a2 n).toNat - Cert.CE.rmax (logits a0 a1 n))
        - Ideal.log (Cert.CE.rsum (logits a0 a1 n)) := by
  obtain ⟨hn, hi⟩ := class_toNat _ h0 h1
  rw [val_main_v8_apply, call2_v12_at a2 n h0 h1, select_one]
  unfold val_main_call2_v13
  rw [gather_at_of _ _ n (label a2 n) (call2_v5_at a2 n h0 h1) ⟨(label a2 n).toNat, hn⟩
      (by rw [hi]; simp only [Int.toNat_natCast]; omega),
    v5_at]
  unfold Cert.CE.rowN
  rw [dif_pos hn]

/-- The masked loss of row `n` is the specification's: for a class label minus the log-probability at the label;
    for an ignored row `0`, whatever the lookup read (the outer select drops it). -/
private theorem v11_at (n : Fin 8192) (hl : Cert.CE.LabelOk (label a2 n)) :
    val_main_v11 (F := Ideal) a0 a1 a2 (ix1 n) = Cert.CE.nllR (logits a0 a1 n) (label a2 n) := by
  rw [val_main_v11_apply, v3_at]
  unfold Cert.CE.nllR
  by_cases ht : label a2 n = Cert.CE.ignoreW
  · rw [if_neg (not_not.2 ht), if_neg (not_not.2 ht), select_zero, val_main_call3_v1_apply, val_main_call3_v0_apply,
      val_main_cst_apply, Ideal.ofBits_def, Ideal.ofBits_zero_f32]
  · rcases hl with ⟨h0, h1⟩ | e
    · rw [if_pos ht, if_pos ht, select_one, val_main_v10_apply, val_main_v9_apply]
      have e9 : idx_main_v9 (ix1 n) = ix2 n (0 : Fin 1) := by
        funext a; refine Fin.ext ?_
        match a with
        | ⟨0, _⟩ => show n.val / 1 = n.val; omega
        | ⟨1, _⟩ => rfl
      rw [e9, v8_at a0 a1 a2 n h0 h1, Ideal.hostNegf_def, Ideal.negf_def]
    · exact absurd e ht

/-! ## The count -/

/-- The integer sum of the widened "not ignored" bits over all rows is, as a word, the number of rows that are not
    ignored: every row drops to the one index of the rank-zero result, and a sum of 0/1 words is a count. -/
private theorem v14_at (i : S_.Idx) :
    val_main_v14 (F := Ideal) a2 i
      = BitVec.ofNat 32 (Finset.univ.filter fun n : Fin 8192 => label a2 n ≠ Cert.CE.ignoreW).card := by
  unfold val_main_v14
  rw [Host.reduce_eq_fold]
  have hfil : (Finset.univ.filter fun j : S8192.Idx => reducesTo_S8192_S_d0.drop j = i) = Finset.univ :=
    Finset.filter_true_of_mem fun j _ => funext fun b => b.elim0
  rw [hfil, val_main_c_2_apply]
  have hf : val_main_v13 (F := Ideal) a2 = fun k => (val_main_v3 (F := Ideal) a2 k).setWidth 32 := rfl
  rw [hf, IndicatorCount.fold_addi_setWidth_eq_card]
  refine congrArg (BitVec.ofNat 32) (Finset.card_equiv idxEquiv1 fun k => ?_)
  obtain ⟨n, rfl⟩ : ∃ n, k = ix1 n := ⟨k 0, eq_ix1 k⟩
  simp only [Finset.mem_filter, Finset.mem_univ, true_and]
  rw [v3_at]
  show _ ↔ label a2 n ≠ Cert.CE.ignoreW
  by_cases ht : label a2 n = Cert.CE.ignoreW
  · rw [if_neg (not_not.2 ht)]
    exact ⟨fun h => absurd h (by decide), fun h => absurd ht h⟩
  · rw [if_pos ht]
    exact ⟨fun _ => ht, fun _ => rfl⟩

/-- The count is at most `8192`, so the word's signed value is the count and its conversion the specification's. -/
private theorem v15_at (i : S_.Idx) : val_main_v15 (F := Ideal) a2 i = Cert.CE.cntR (label a2) := by
  rw [val_main_v15_apply, v14_at]
  unfold Cert.CE.cntR
  show (((BitVec.ofNat 32 _).toInt : ℝ) : EReal) = _
  rw [StableHlo.Predicate.toInt_ofNat_small _
    (lt_of_le_of_lt (Finset.card_le_univ _) (by rw [Fintype.card_fin]; norm_num))]
  rw [Int.cast_natCast]

/-! ## The result -/

/-- The summed loss: zero plus the sum over the rows of the specification's row losses. -/
private theorem v12_at (hlab : ∀ n, Cert.CE.LabelOk (label a2 n)) (i : S_.Idx) :
    val_main_v12 (F := Ideal) a0 a1 a2 i = 0 + ∑ n : Fin 8192, Cert.CE.nllR (logits a0 a1 n) (label a2 n) := by
  rw [val_main_v12_apply, val_main_cst_1_apply, Ideal.ofBits_def, Ideal.ofBits_zero_f32,
    ← Equiv.sum_comp (idxEquiv1 (n := 8192)).symm]
  exact congrArg (0 + ·) (Finset.sum_congr rfl fun n _ => v11_at a0 a1 a2 n (hlab n))

/-- The reference's result as a function of its three arguments is the specification's one-pass mean, over the
    logits of the reshaped activations against the weights and the reshaped labels. -/
theorem ref_value (a0 : (⟨S4x2048x2048, .f32⟩ : BufTy).Contents (Elt Ideal)) (a1 : (⟨S32000x2048, .f32⟩ : BufTy).Contents (Elt Ideal))
    (a2 : (⟨S4x2048, .i32⟩ : BufTy).Contents (Elt Ideal)) (hlab : ∀ i, Cert.CE.LabelOk (a2 i)) :
    val_main_v18 (F := Ideal) a0 a1 a2
      = fun _ => Cert.CE.finalR (Cert.CE.logit (val_main_v0 (F := Ideal) a0) a1) (fun n => val_main_v1 (F := Ideal) a2 (ValueIdx.ix1 n)) := by
  have hl : ∀ n, Cert.CE.LabelOk (label a2 n) := fun n => by
    show Cert.CE.LabelOk (val_main_v1 (F := Ideal) a2 (ix1 n))
    rw [val_main_v1_apply]; exact hlab _
  funext i
  rw [val_main_v18_apply, val_main_v16_apply, val_main_v17_apply, v15_at, v12_at a0 a1 a2 hl, val_main_cst_3_apply,
    Ideal.ofBits_def, Ideal.ofBits_zero_f32, Ideal.cmpf_def, Ideal.hostDivf_def]
  rfl

end Cert.ReferenceIdeal.RefValue

end
-- ==== Proof.MathSoftmax.lean ====
/-
  The chunked walk over a row reaches the same maximum and the same sum of shifted exponentials as one pass over
  the whole row.
-/
import proofs.«410234_j46651934769795_3_alg».proof.Proof.Spec
import Mathlib.Data.Finset.Fold
import Mathlib.Algebra.BigOperators.Fin
import Mathlib.Data.EReal.Operations
import Mathlib.Analysis.SpecialFunctions.Exp

noncomputable section

namespace Cert.CE

open Idealize.ShloMosaic

/-! ## Maxima: the chunked walk against one pass -/

/-- Inside the row, a chunk's maximum is at most the row's maximum: each of its entries is an entry of the row. -/
private theorem cmax_le_rmax (r : Fin 32000 → EReal) (j : ℕ) (hj : j < 25) : cmax r j ≤ rmax r := by
  unfold cmax rmax
  rw [Finset.fold_max_le]
  refine ⟨bot_le, fun q _ => ?_⟩
  have hk : 1280 * j + q.val < 32000 := by have := q.isLt; omega
  rw [rowN, dif_pos hk]
  exact le_max_of_le_right ((Finset.le_fold_max _).mpr (Or.inr ⟨_, Finset.mem_univ _, le_rfl⟩))

/-- The running maximum never exceeds the row's maximum while the walk is inside the row. -/
private theorem mAt_le_rmax (r : Fin 32000 → EReal) : ∀ j, j < 25 → mAt r j ≤ rmax r
  | 0, _ => by
      rw [mAt]
      exact max_le bot_le (cmax_le_rmax r 0 (by norm_num))
  | j + 1, h => by
      rw [mAt]
      exact max_le (mAt_le_rmax r j (by omega)) (cmax_le_rmax r (j + 1) h)

/-- A chunk already walked is below the running maximum. -/
private theorem cmax_le_mAt (r : Fin 32000 → EReal) (j : ℕ) : ∀ k, j ≤ k → cmax r j ≤ mAt r k
  | 0, h => by
      obtain rfl : j = 0 := by omega
      rw [mAt]
      exact le_max_right _ _
  | k + 1, h => by
      rw [mAt]
      rcases Nat.lt_or_ge j (k + 1) with h' | h'
      · exact le_max_of_le_left (cmax_le_mAt r j k (by omega))
      · obtain rfl : j = k + 1 := by omega
        exact le_max_right _ _

/-- Every entry lies in the chunk numbered by its quotient by 1280, so it is below that chunk's maximum. -/
private theorem le_cmax (r : Fin 32000 → EReal) (v : Fin 32000) : r v ≤ cmax r (v.val / 1280) := by
  unfold cmax
  rw [Finset.le_fold_max]
  refine Or.inr ⟨⟨v.val % 1280, Nat.mod_lt _ (by norm_num)⟩, Finset.mem_univ _, ?_⟩
  have hk : 1280 * (v.val / 1280) + v.val % 1280 = v.val := Nat.div_add_mod _ _
  show r v ≤ rowN r (1280 * (v.val / 1280) + v.val % 1280)
  rw [hk, rowN, dif_pos v.isLt]

/-- Every entry of a row is at most the row's maximum. -/
theorem le_rmax (r : Fin 32000 → EReal) (v : Fin 32000) : r v ≤ rmax r := by
  unfold rmax
  exact le_max_of_le_right ((Finset.le_fold_max _).mpr (Or.inr ⟨v, Finset.mem_univ _, le_rfl⟩))

/-- The running maximum after the last of the 25 chunks is the row's maximum. (No finiteness is needed: `max` is
    associative and commutative on the extended reals and `⊥` is its identity.) -/
theorem mAt_last (r : Fin 32000 → EReal) : mAt r 24 = rmax r := by
  refine le_antisymm (mAt_le_rmax r 24 (by norm_num)) ?_
  unfold rmax
  refine max_le bot_le ((Finset.fold_max_le _).mpr ⟨bot_le, fun v _ => ?_⟩)
  exact (le_cmax r v).trans (cmax_le_mAt r _ 24 (by have := v.isLt; omega))

/-! ## Rows of real numbers -/

/-- An extended real that is neither infinity is a real number. -/
private theorem real_of_ne (x : EReal) (h1 : x ≠ ⊥) (h2 : x ≠ ⊤) : ∃ a : ℝ, x = (a : EReal) :=
  ⟨x.toReal, (EReal.coe_toReal h2 h1).symm⟩

/-- A row of real numbers has a real maximum. -/
theorem rmax_real (r : Fin 32000 → EReal) (hr : ∀ v, ∃ a : ℝ, r v = (a : EReal)) : ∃ a : ℝ, rmax r = (a : EReal) := by
  refine real_of_ne _ (ne_of_gt ?_) (ne_of_lt ?_)
  · obtain ⟨a, ha⟩ := hr ⟨0, by norm_num⟩
    exact lt_of_lt_of_le (by rw [ha]; exact EReal.bot_lt_coe a) (le_rmax r ⟨0, by norm_num⟩)
  · unfold rmax
    refine max_lt bot_lt_top ((Finset.fold_max_lt _).mpr ⟨bot_lt_top, fun v _ => ?_⟩)
    obtain ⟨a, ha⟩ := hr v
    rw [ha]
    exact EReal.coe_lt_top a

/-- A real row read at a natural number: the entry when the number is a class, `0` past the row's end. -/
private def aN (a : Fin 32000 → ℝ) (k : ℕ) : ℝ := if h : k < 32000 then a ⟨k, h⟩ else 0

private theorem aN_val (a : Fin 32000 → ℝ) (v : Fin 32000) : aN a v.val = a v := by
  rw [aN, dif_pos v.isLt]

private theorem rowN_coe (a : Fin 32000 → ℝ) (k : ℕ) : rowN (fun v => (a v : EReal)) k = (aN a k : EReal) := by
  unfold rowN aN
  split_ifs
  · rfl
  · exact EReal.coe_zero.symm

/-- The coercion of reals into the extended reals carries finite sums to finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Every chunk of a real row has a maximum below `⊤`. -/
private theorem cmax_lt_top (a : Fin 32000 → ℝ) (j : ℕ) : cmax (fun v => (a v : EReal)) j < ⊤ := by
  unfold cmax
  refine (Finset.fold_max_lt _).mpr ⟨bot_lt_top, fun q _ => ?_⟩
  rw [rowN_coe]
  exact EReal.coe_lt_top _

private theorem mAt_lt_top (a : Fin 32000 → ℝ) : ∀ j, mAt (fun v => (a v : EReal)) j < ⊤
  | 0 => by
      rw [mAt]
      exact max_lt bot_lt_top (cmax_lt_top a 0)
  | j + 1 => by
      rw [mAt]
      exact max_lt (mAt_lt_top a j) (cmax_lt_top a (j + 1))

/-- The running maximum of a real row is a real number from the first chunk on: it is above the row's first entry
    and below `⊤`. -/
private theorem mAt_real (a : Fin 32000 → ℝ) (j : ℕ) : ∃ m : ℝ, mAt (fun v => (a v : EReal)) j = (m : EReal) := by
  refine real_of_ne _ (ne_of_gt ?_) (ne_of_lt (mAt_lt_top a j))
  have h0 := le_cmax (fun v => (a v : EReal)) ⟨0, by norm_num⟩
  simp only [Nat.zero_div] at h0
  exact lt_of_lt_of_le (EReal.bot_lt_coe _) (h0.trans (cmax_le_mAt _ 0 j (Nat.zero_le j)))

/-- The sum over a chunk of a real row, shifted by a real number, is a real sum. -/
private theorem csum_coe (a : Fin 32000 → ℝ) (j : ℕ) (m : ℝ) :
    csum (fun v => (a v : EReal)) j (m : EReal)
      = ((∑ k ∈ Finset.range 1280, Real.exp (aN a (1280 * j + k) - m) : ℝ) : EReal) := by
  unfold csum
  rw [← Fin.sum_univ_eq_sum_range (fun k => Real.exp (aN a (1280 * j + k) - m)) 1280, coe_sum]
  refine Finset.sum_congr rfl fun q _ => ?_
  rw [rowN_coe, ← EReal.coe_sub, Ideal.exp_coe]

/-- The invariant of the walk over a real row: after chunk `j` the running sum is the sum, over all classes met so
    far, of the exponentials shifted by the current running maximum. When the maximum moves from `m₀` to `m` the
    old sum is multiplied by `exp (m₀ − m)`, and `exp (m₀ − m) · exp (x − m₀) = exp (x − m)` term by term. -/
private theorem lAt_eq (a : Fin 32000 → ℝ) : ∀ (j : ℕ) (m : ℝ), mAt (fun v => (a v : EReal)) j = (m : EReal) →
    lAt (fun v => (a v : EReal)) j
      = ((∑ k ∈ Finset.range (1280 * (j + 1)), Real.exp (aN a k - m) : ℝ) : EReal)
  | 0, m, hm => by
      rw [lAt, hm, mul_zero, zero_add, csum_coe]
      simp only [Nat.mul_zero, Nat.zero_add, Nat.mul_one]
  | j + 1, m, hm => by
      obtain ⟨m0, hm0⟩ := mAt_real a j
      rw [lAt, hm, hm0, lAt_eq a j m0 hm0, csum_coe, ← EReal.coe_sub, Ideal.exp_coe, ← EReal.coe_mul,
        ← EReal.coe_add]
      refine EReal.coe_eq_coe_iff.mpr ?_
      have e : Real.exp (m0 - m) * ∑ k ∈ Finset.range (1280 * (j + 1)), Real.exp (aN a k - m0)
          = ∑ k ∈ Finset.range (1280 * (j + 1)), Real.exp (aN a k - m) := by
        rw [Finset.mul_sum]
        refine Finset.sum_congr rfl fun k _ => ?_
        rw [← Real.exp_add]
        congr 1
        ring
      rw [e, show 1280 * (j + 1 + 1) = 1280 * (j + 1) + 1280 by ring, Finset.sum_range_add]

/-- The one-pass sum of a real row whose maximum is the real number `m`. -/
private theorem rsum_coe (a : Fin 32000 → ℝ) (m : ℝ) (hm : rmax (fun v => (a v : EReal)) = (m : EReal)) :
    rsum (fun v => (a v : EReal)) = ((∑ v : Fin 32000, Real.exp (a v - m) : ℝ) : EReal) := by
  unfold rsum
  rw [zero_add, hm, coe_sum]
  refine Finset.sum_congr rfl fun v _ => ?_
  rw [← EReal.coe_sub, Ideal.exp_coe]

/-- The sum of shifted exponentials of a row of real numbers is a positive real. -/
theorem rsum_pos_real (r : Fin 32000 → EReal) (hr : ∀ v, ∃ a : ℝ, r v = (a : EReal)) :
    ∃ s : ℝ, 0 < s ∧ rsum r = (s : EReal) := by
  obtain ⟨m, hm⟩ := rmax_real r hr
  choose a ha using hr
  obtain rfl : r = fun v => (a v : EReal) := funext ha
  refine ⟨∑ v : Fin 32000, Real.exp (a v - m), ?_, rsum_coe a m hm⟩
  exact Finset.sum_pos (fun v _ => Real.exp_pos _) ⟨⟨0, by norm_num⟩, Finset.mem_univ _⟩

/-- For a row of real numbers the running sum after the last chunk is the one-pass sum: rescaling the partial sum by
    `exp (old max − new max)` each time the maximum moves is, by `exp (a − b) · exp (c − a) = exp (c − b)` and
    distributivity over a finite sum of reals, the same as shifting every term by the final maximum. -/
theorem lAt_last (r : Fin 32000 → EReal) (hr : ∀ v, ∃ a : ℝ, r v = (a : EReal)) : lAt r 24 = rsum r := by
  choose a ha using hr
  obtain rfl : r = fun v => (a v : EReal) := funext ha
  obtain ⟨m, hm⟩ := mAt_real a 24
  rw [lAt_eq a 24 m hm, rsum_coe a m (by rw [← mAt_last, hm])]
  refine EReal.coe_eq_coe_iff.mpr ?_
  rw [show 1280 * (24 + 1) = 32000 by norm_num, ← Fin.sum_univ_eq_sum_range (fun k => Real.exp (aN a k - m)) 32000]
  exact Finset.sum_congr rfl fun v _ => by rw [aN_val]

end Cert.CE

end
-- ==== Proof.MathFinal.lean ====
/-
  The label logit the chunked walk picks up is the row's entry at the label; the two row losses are then one real
  number; the weights add up to the count of rows that are not ignored; so the two means are one.
-/
import proofs.«410234_j46651934769795_3_alg».proof.Proof.MathSoftmax

noncomputable section

namespace Cert.CE

open Idealize.ShloMosaic

/-- A finite sum of extended reals each of which is a real number is a real number (induction on the index set:
    the empty sum is `0`, and a real plus a real is a real). -/
private theorem sum_real {ι : Type} (s : Finset ι) (f : ι → EReal)
    (hf : ∀ i ∈ s, ∃ a : ℝ, f i = (a : EReal)) : ∃ a : ℝ, ∑ i ∈ s, f i = (a : EReal) := by
  classical
  induction s using Finset.induction_on with
  | empty => exact ⟨0, by simp⟩
  | insert i s hi ih =>
    obtain ⟨a, ha⟩ := hf i (Finset.mem_insert_self i s)
    obtain ⟨b, hb⟩ := ih (fun j hj => hf j (Finset.mem_insert_of_mem hj))
    exact ⟨a + b, by rw [Finset.sum_insert hi, ha, hb, EReal.coe_add]⟩

/-- A dot product of real numbers is a real number. -/
theorem logit_real (h : (⟨2, ![8192, 2048]⟩ : Shape).Idx → EReal) (w : (⟨2, ![32000, 2048]⟩ : Shape).Idx → EReal)
    (hh : ∀ i, ∃ a : ℝ, h i = (a : EReal)) (hw : ∀ i, ∃ a : ℝ, w i = (a : EReal)) (n : Fin 8192) (v : Fin 32000) :
    ∃ a : ℝ, logit h w n v = (a : EReal) := by
  unfold logit
  apply sum_real
  intro d _
  obtain ⟨a, ha⟩ := hh (ValueIdx.ix2 n d)
  obtain ⟨b, hb⟩ := hw (ValueIdx.ix2 v d)
  exact ⟨a * b, by rw [ha, hb, EReal.coe_mul]⟩

/-- A label that is a class is its own clamp, read as a natural number, and lies inside the row. -/
private theorem clampIdx_of_class (tw : BitVec 32) (h : 0 ≤ tw.toInt ∧ tw.toInt < 32000) :
    clampIdx tw = tw.toNat ∧ tw.toNat < 32000 := by
  have h1 := BitVec.toInt_eq_toNat_cond tw
  have h2 := tw.isLt
  unfold clampIdx
  split_ifs at h1 <;> omega

/-- Chunk `j` covers the positions `1280 j ≤ k < 1280 (j + 1)`. If the clamped label lies there, exactly one offset
    `q` of the chunk hits it and the indicator sum is the row's entry at the label; otherwise every term is `0`. -/
private theorem ctgt_eq (r : Fin 32000 → EReal) (tw : BitVec 32) (j : ℕ) :
    ctgt r tw j
      = if 1280 * j ≤ clampIdx tw ∧ clampIdx tw < 1280 * (j + 1) then rowN r (clampIdx tw) else 0 := by
  unfold ctgt
  split_ifs with hc
  · have hq : clampIdx tw - 1280 * j < 1280 := by omega
    have hk : clampIdx tw = 1280 * j + (clampIdx tw - 1280 * j) := by omega
    rw [Finset.sum_eq_single (⟨clampIdx tw - 1280 * j, hq⟩ : Fin 1280)]
    · show (if clampIdx tw = 1280 * j + (clampIdx tw - 1280 * j) then
          rowN r (1280 * j + (clampIdx tw - 1280 * j)) else 0) = rowN r (clampIdx tw)
      rw [if_pos hk, ← hk]
    · intro q _ hne
      apply if_neg
      intro he
      apply hne
      apply Fin.ext
      show q.val = clampIdx tw - 1280 * j
      omega
    · intro hn
      exact absurd (Finset.mem_univ _) hn
  · apply Finset.sum_eq_zero
    intro q _
    apply if_neg
    intro he
    apply hc
    have := q.isLt
    omega

/-- After chunk `j` the accumulated label logit is the row's entry at the clamped label if that label lies in one
    of the chunks `0 … j`, and `0` otherwise: each step adds either that entry (once, in the chunk that holds the
    label) or `0`. -/
private theorem tAt_eq (r : Fin 32000 → EReal) (tw : BitVec 32) (j : ℕ) :
    tAt r tw j = if clampIdx tw < 1280 * (j + 1) then rowN r (clampIdx tw) else 0 := by
  induction j with
  | zero =>
    show 0 + ctgt r tw 0 = _
    rw [ctgt_eq, zero_add]
    by_cases h1 : clampIdx tw < 1280 * (0 + 1)
    · rw [if_pos ⟨by omega, h1⟩, if_pos h1]
    · rw [if_neg (fun h => h1 h.2), if_neg h1]
  | succ j ih =>
    show tAt r tw j + ctgt r tw (j + 1) = _
    rw [ih, ctgt_eq]
    by_cases h1 : clampIdx tw < 1280 * (j + 1)
    · rw [if_pos h1, if_neg (by omega), add_zero, if_pos (by omega)]
    · rw [if_neg h1, zero_add]
      by_cases h2 : clampIdx tw < 1280 * (j + 1 + 1)
      · rw [if_pos ⟨by omega, h2⟩, if_pos h2]
      · rw [if_neg (fun h => h2 h.2), if_neg h2]

/-- For a label that is a class, exactly one chunk holds it, and the indicator sums pick out the row's entry there. -/
theorem tAt_last (r : Fin 32000 → EReal) (tw : BitVec 32) (h : 0 ≤ tw.toInt ∧ tw.toInt < 32000) :
    tAt r tw 24 = rowN r tw.toNat := by
  obtain ⟨hc, hlt⟩ := clampIdx_of_class tw h
  rw [tAt_eq, hc, if_pos (by omega)]

/-- On a row of real numbers with an admissible label the kernel's row loss `(m + log l) − t` and the reference's
    `−((t − m) − log l)` are the same real number; on an ignored row both are `0`. -/
theorem nllK_eq_nllR (r : Fin 32000 → EReal) (tw : BitVec 32) (hr : ∀ v, ∃ a : ℝ, r v = (a : EReal)) (ht : LabelOk tw) :
    nllK r tw = nllR r tw := by
  unfold nllK nllR
  by_cases hig : tw = ignoreW
  · rw [if_neg (not_not.mpr hig), if_neg (not_not.mpr hig)]
  · rw [if_pos hig, if_pos hig]
    have hcls : 0 ≤ tw.toInt ∧ tw.toInt < 32000 := ht.resolve_right hig
    rw [mAt_last, lAt_last r hr, tAt_last r tw hcls]
    obtain ⟨M, hM⟩ := rmax_real r hr
    obtain ⟨S, hS0, hS⟩ := rsum_pos_real r hr
    obtain ⟨_, hlt⟩ := clampIdx_of_class tw hcls
    obtain ⟨t, ht'⟩ : ∃ t : ℝ, rowN r tw.toNat = (t : EReal) := by
      unfold rowN
      rw [dif_pos hlt]
      exact hr _
    rw [hM, hS, ht', Ideal.log_coe, if_neg (not_le.mpr hS0)]
    have e : M + Real.log S - t = -(t - M - Real.log S) := by ring
    calc ((M : EReal) + (Real.log S : EReal)) - (t : EReal)
        = ((M + Real.log S - t : ℝ) : EReal) := by rw [EReal.coe_sub, EReal.coe_add]
      _ = ((-(t - M - Real.log S) : ℝ) : EReal) := by rw [e]
      _ = -(((t : EReal) - (M : EReal)) - (Real.log S : EReal)) := by
        rw [EReal.coe_neg, EReal.coe_sub, EReal.coe_sub]

/-- A sum of weights `1` (where a property holds) and `0` (where it fails) over a finite set is the number of
    members with the property (induction on the set: a new member adds `1` to both sides or `0` to both). -/
private theorem sum_indicator {ι : Type} (s : Finset ι) (p : ι → Prop) [DecidablePred p] :
    ∑ i ∈ s, (if p i then (1 : EReal) else 0) = (((s.filter p).card : ℝ) : EReal) := by
  classical
  induction s using Finset.induction_on with
  | empty => simp
  | insert i s hi ih =>
    rw [Finset.sum_insert hi, ih, Finset.filter_insert]
    by_cases hp : p i
    · rw [if_pos hp, if_pos hp, Finset.card_insert_of_notMem (fun hm => hi (Finset.mem_filter.mp hm).1)]
      rw [Nat.cast_succ, EReal.coe_add, EReal.coe_one, add_comm]
    · rw [if_neg hp, if_neg hp, zero_add]

/-- The weights `1` / `0` add up to the number of rows that are not ignored. -/
theorem mask_sum (tg : Fin 8192 → BitVec 32) : (0 : EReal) + ∑ n : Fin 8192, maskK (tg n) = cntR tg := by
  unfold maskK cntR
  rw [zero_add]
  exact sum_indicator Finset.univ (fun n : Fin 8192 => tg n ≠ ignoreW)

/-- The two means agree on logits that are real numbers and labels that are admissible. -/
theorem finalK_eq_finalR (x : Fin 8192 → Fin 32000 → EReal) (tg : Fin 8192 → BitVec 32)
    (hx : ∀ n v, ∃ a : ℝ, x n v = (a : EReal)) (ht : ∀ n, LabelOk (tg n)) : finalK x tg = finalR x tg := by
  have hs : ∑ n : Fin 8192, nllK (x n) (tg n) = ∑ n : Fin 8192, nllR (x n) (tg n) :=
    Finset.sum_congr rfl (fun n _ => nllK_eq_nllR (x n) (tg n) (hx n) (ht n))
  unfold finalK finalR
  rw [mask_sum, hs]

end Cert.CE

end
-- ==== Proof.PreFacts.lean ====
/-
  What the precondition says, read back from its printed form: every activation and every weight is a real number,
  and every label is a class id in [0, 32000) or the ignore mark -100.
-/
import proofs.«410234_j46651934769795_3_alg».proof.Pre_finite_inputs
import proofs.«410234_j46651934769795_3_alg».proof.Proof.Gen.Pre_finite_inputs
import proofs.«410234_j46651934769795_3_alg».proof.Proof.Spec
import Idealize.ShloMosaic.PureOps.Ideal.Laws
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The scalar shape has one index. -/
private instance subsingleton_S_ : Subsingleton S_.Idx := ⟨fun a b => funext fun d => d.elim0⟩

/-- The pattern the precondition compares against denotes plus infinity. -/
private theorem ofBits_inf : Ideal.ofBits .f32 0x7F800000#32 = (⊤ : EReal) := by simp [Ideal.ofBits, Ideal.ieee]

/-- An extended real whose absolute value max x (-x) is strictly below plus infinity is a real number:
    at plus infinity the maximum is plus infinity through x, at minus infinity through -x. -/
private theorem real_of_abs_lt (x : EReal)
    (hx : Ideal.cmp .olt (max x (-x)) (Ideal.ofBits .f32 0x7F800000#32) = 1#1) : ∃ a : ℝ, x = (a : EReal) := by
  rw [ofBits_inf] at hx
  simp only [Ideal.cmp, StableHlo.Predicate.ofBool_eq_one_iff, decide_eq_true_eq] at hx
  induction x using EReal.rec with
  | bot => simp at hx
  | coe a => exact ⟨a, rfl⟩
  | top => simp at hx

/-- A label word that passes the printed test (0 ≤ w and w < 32000 signed, or w = -100) is admissible. -/
private theorem labelOk_of_test (tw : BitVec 32)
    (h : IntOp.ori (IntOp.andi (IntOp.cmpi .sge tw 0#32) (IntOp.cmpi .slt tw 32000#32)) (IntOp.cmpi .eq tw 4294967196#32) = 1#1) :
    Cert.CE.LabelOk tw := by
  rcases IntOp.ori_eq_one.1 h with h1 | h2
  · obtain ⟨ha, hb⟩ := IntOp.andi_eq_one.1 h1
    have ha' := IntOp.cmpi_sge.1 ha
    have hb' := IntOp.cmpi_slt.1 hb
    have e0 : (0#32 : BitVec 32).toInt = 0 := by decide
    have e1 : (32000#32 : BitVec 32).toInt = 32000 := by decide
    rw [e0] at ha'
    rw [e1] at hb'
    exact Or.inl ⟨ha', hb'⟩
  · exact Or.inr (IntOp.cmpi_eq.1 h2)

/-- The printed precondition being all ones gives the three facts the proof uses. -/
theorem pre_facts [Cert.Pre_finite_inputs.Facts] (a0 : FVec Ideal S4x2048x2048 .f32) (a1 : FVec Ideal S32000x2048 .f32)
    (a2 : IVec S4x2048 32) (h : Cert.Pre_finite_inputs.fn (F := Ideal) a0 a1 a2 = fun _ => 1#1) :
    (∀ i, ∃ a : ℝ, a0 i = (a : EReal)) ∧ (∀ i, ∃ a : ℝ, a1 i = (a : EReal)) ∧ (∀ i, Cert.CE.LabelOk (a2 i)) := by
  have h0 := congrFun h ValueIdx.ix0
  dsimp only [fn, fn_part1] at h0
  obtain ⟨h01, hC⟩ := IntOp.andi_eq_one.1 h0
  obtain ⟨hA, hB⟩ := IntOp.andi_eq_one.1 h01
  refine ⟨fun i => ?_, fun i => ?_, fun i => ?_⟩
  · exact real_of_abs_lt (a0 i) (Host.reduce_andi_all _ _ _ _ _ hA i)
  · exact real_of_abs_lt (a1 i) (Host.reduce_andi_all _ _ _ _ _ hB i)
  · exact labelOk_of_test (a2 i) (Host.reduce_andi_all _ _ _ _ _ hC i)

end Cert.PreFacts

end
-- ==== Proof.lean ====
/-
  The certificate of a fused linear projection and cross-entropy loss against its plain reference, over the
  extended reals.

  The kernel never forms the 8192 × 32000 matrix of logits: it walks each row tile's vocabulary in 25 chunks of 1280
  and keeps, per row, a running maximum, a running sum of exponentials rescaled whenever the maximum moves, and the
  logit at the row's label, picked up by a sum over an indicator in the chunk that holds it; after the last chunk a
  row's loss is log-sum-exp minus the label's logit, and the program returns the mean over the rows that are not
  ignored. The reference takes each row's maximum and sum of shifted exponentials in one pass and reads the shifted
  log-probability at the label. For activations and weights that are real numbers and labels that are classes or the
  ignore mark the two are the same real number: the chunked walk reaches the row's maximum and, by
  exp (a − b) · exp (c − a) = exp (c − b) and distributivity over finite sums of reals, the row's sum of shifted
  exponentials; the indicator sums pick out the row's entry at the label; and (m + log l) − t = −((t − m) − log l).
  Outside that label domain the two programs differ (the reference wraps a negative label and fills an overlarge one,
  the kernel clamps), which is why the precondition states the domain.
-/
import proofs.«410234_j46651934769795_3_alg».proof.Defs
import proofs.«410234_j46651934769795_3_alg».proof.Proof.Gen.Kernel
import proofs.«410234_j46651934769795_3_alg».proof.Proof.Gen.Kernel.Skeleton
import proofs.«410234_j46651934769795_3_alg».proof.Proof.Gen.Kernel.Launch
import proofs.«410234_j46651934769795_3_alg».proof.Proof.Gen.Kernel.Points
import proofs.«410234_j46651934769795_3_alg».proof.Proof.Gen.Kernel.Frame
import proofs.«410234_j46651934769795_3_alg».proof.Proof.Gen.KernelIdeal
import proofs.«410234_j46651934769795_3_alg».proof.Proof.Gen.KernelIdeal.Skeleton
import proofs.«410234_j46651934769795_3_alg».proof.Proof.Gen.KernelIdeal.Launch
import proofs.«410234_j46651934769795_3_alg».proof.Proof.Gen.KernelIdeal.Points
import proofs.«410234_j46651934769795_3_alg».proof.Proof.Gen.KernelIdeal.Frame
import proofs.«410234_j46651934769795_3_alg».proof.Proof.Gen.ReferenceIdeal
import proofs.«410234_j46651934769795_3_alg».proof.Proof.Gen.Pre_finite_inputs
import proofs.«410234_j46651934769795_3_alg».proof.Proof.KTail
import proofs.«410234_j46651934769795_3_alg».proof.Proof.RefValue
import proofs.«410234_j46651934769795_3_alg».proof.Proof.MathFinal
import proofs.«410234_j46651934769795_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k [Cert.Pre_finite_inputs.Facts] : Cert.frame_Kernel (hKernel := Cert.Kernel.Gen.facts) :=
  fun m ρ _ => Cert.Kernel.Gen.frame m ρ

/-- So does the idealized kernel. -/
theorem frame_ki [Cert.Pre_finite_inputs.Facts] : Cert.frame_KernelIdeal (hKernelIdeal := Cert.KernelIdeal.Gen.facts) :=
  fun m ρ _ => Cert.KernelIdeal.Gen.frame m ρ

/-- The reference is host operations only: its run, with the result dropped. -/
theorem frame_ri [Cert.Pre_finite_inputs.Facts] : Cert.frame_ReferenceIdeal (hReferenceIdeal := Cert.ReferenceIdeal.Gen.facts) :=
  fun m ρ _ => (θ_run Cert.ReferenceIdeal.defs _ _).mono (fun _ h c => (h c).2)
    (Cert.ReferenceIdeal.ValueP.run (F := Ideal) m ρ)

/-- The idealization rewrote nothing, so there is nothing to preserve. -/
theorem preserves : Cert.preserves_Kernel_KernelIdeal := trivial

open Cert.KernelIdeal.KV Cert.ReferenceIdeal.ReadP in
/-- Both idealized programs run, and from memories that agree on the arguments they end at one value: the kernel's
    program at the chunked-walk mean of its row logits and labels, the reference at the one-pass mean of the same
    logits and labels (the same reshapes of the same arguments; narrowing the weights is the identity on extended
    reals), and under the precondition the logits are real numbers and the labels admissible, where the two means
    agree. -/
theorem algebraic [hP : Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' hpre hagree
  refine ⟨fun c => fun _ => Cert.CE.finalK (xrow m c) (tgRow m c), Cert.KernelIdeal.KV.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨hf0, hf1, hlab⟩ := Cert.PreFacts.pre_facts _ _ _ (hpre c)
  rw [Cert.ReferenceIdeal.ReadP.val_main_v18_eq, (hagree c).1, (hagree c).2.1, (hagree c).2.2,
    Cert.ReferenceIdeal.RefValue.ref_value _ _ _ hlab]
  funext _
  have hx : xrow m c = Cert.CE.logit
      (val_main_v0 (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)) := by
    funext n v
    unfold xrow Cert.CE.logit
    refine Finset.sum_congr rfl fun d _ => ?_
    rw [Harr_eq m c, Warr_eq m c]
    rfl
  have ht : tgRow m c = fun n => val_main_v1 (F := Ideal)
      (m ((c.tc : Thread Cert.KernelIdeal.nD Cert.KernelIdeal.τ).loc Cert.KernelIdeal.main_arg2)) (ValueIdx.ix1 n) := by
    funext n
    rw [tgRow_eq m c n]
    rfl
  show _ = Cert.CE.finalK (xrow m c) (tgRow m c)
  rw [hx, ht]
  symm
  refine Cert.CE.finalK_eq_finalR _ _ (fun n v => Cert.CE.logit_real _ _ (fun i => ?_) hf1 n v) (fun n => ?_)
  · rw [val_main_v0_apply]; exact hf0 _
  · show Cert.CE.LabelOk (val_main_v1 (F := Ideal) _ _)
    rw [val_main_v1_apply]; exact hlab _

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
